-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x200x320 : Shape := ⟨4, ![8, 64, 200, 320]⟩
abbrev S256x4 : Shape := ⟨2, ![256, 4]⟩
abbrev S256 : Shape := ⟨1, ![256]⟩
abbrev S_ : Shape := ⟨0, ![]⟩

class Facts : Prop where
  bcast_S_S8x64x200x320 : S_.BroadcastsInDim S8x64x200x320 (![] : Fin 0 → Fin S8x64x200x320.rank)
  reducesTo_S8x64x200x320_S_d0_1_2_3 : S8x64x200x320.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S8x64x200x320 .f32) (main_arg1 : IVec S256x4 32) (main_arg2 : IVec S256 32) : IVec S_ 1 :=
  let main_v0 : FVec F S8x64x200x320 .f32 := Host.absf main_arg0
  let main_cst : FVec F S_ .f32 := constant S_ .f32 0x7F800000#32
  let main_v1 : FVec F S8x64x200x320 .f32 := broadcastInDim S8x64x200x320 ![] bcast_S_S8x64x200x320 main_cst
  let main_v2 : IVec S8x64x200x320 1 := cmpf .olt main_v0 main_v1
  let main_c : IVec S_ 1 := constantI S_ 1 1#1
  let main_v3 : IVec S_ 1 := (fun x v => Host.reduce IntOp.andi x v reducesTo_S8x64x200x320_S_d0_1_2_3 h_S_) main_v2 main_c
  let main_c_0 : IVec S_ 32 := constantI S_ 32 0#32
  let main_v4 : IVec S256 32 := broadcastInDim S256 ![] bcast_S_S256 main_c_0
  let main_v5 : IVec S256 1 := cmpi .sge main_arg2 main_v4
  let main_c_1 : IVec S_ 32 := constantI S_ 32 8#32
  let main_v6 : IVec S256 32 := broadcastInDim S256 ![] bcast_S_S256 main_c_1
  let main_v7 : IVec S256 1 := cmpi .slt main_arg2 main_v6
  let main_v8 : IVec S256 1 := andi main_v5 main_v7
  let main_c_2 : IVec S_ 1 := constantI S_ 1 1#1
  let main_v9 : IVec S_ 1 := (fun x v => Host.reduce IntOp.andi x v reducesTo_S256_S_d0 h_S_) main_v8 main_c_2
  let main_v10 : IVec S_ 1 := andi main_v3 main_v9
  main_v10
-- ==== Kernel.lean ====
abbrev S8x64x200x320 : Shape := ⟨4, ![8, 64, 200, 320]⟩
abbrev S256x4 : Shape := ⟨2, ![256, 4]⟩
abbrev S256 : Shape := ⟨1, ![256]⟩
abbrev S256x1 : Shape := ⟨2, ![256, 1]⟩
abbrev S_ : Shape := ⟨0, ![]⟩
abbrev S48 : Shape := ⟨1, ![48]⟩
abbrev S320 : Shape := ⟨1, ![320]⟩
abbrev S1x48 : Shape := ⟨2, ![1, 48]⟩
abbrev S256x48 : Shape := ⟨2, ![256, 48]⟩
abbrev S1x320 : Shape := ⟨2, ![1, 320]⟩
abbrev S256x320 : Shape := ⟨2, ![256, 320]⟩
abbrev S1 : Shape := ⟨1, ![1]⟩
abbrev S1x1 : Shape := ⟨2, ![1, 1]⟩
abbrev S256x64x48x320 : Shape := ⟨4, ![256, 64, 48, 320]⟩
abbrev S1x32x200x320 : Shape := ⟨4, ![1, 32, 200, 320]⟩
abbrev S1x32x48x320 : Shape := ⟨4, ![1, 32, 48, 320]⟩
abbrev S32x48x320 : Shape := ⟨3, ![32, 48, 320]⟩
abbrev S1x32x1x320 : Shape := ⟨4, ![1, 32, 1, 320]⟩
abbrev S32x1x320 : Shape := ⟨3, ![32, 1, 320]⟩
abbrev S320x320 : Shape := ⟨2, ![320, 320]⟩
abbrev S1536x320 : Shape := ⟨2, ![1536, 320]⟩

abbrev nBuf : Space → Nat
  | .hbm => 171
  | .vmem => 6
  | .smem => 3
  | _ => 0

abbrev hbmTy0_0 (i : Nat) : BufTy := match i % 128 with
  | 0 => ⟨S8x64x200x320, .f32⟩
  | 1 => ⟨S256x4, .i32⟩
  | 2 => ⟨S256, .i32⟩
  | 3 => ⟨S256x1, .i32⟩
  | 4 => ⟨S256, .i32⟩
  | 5 => ⟨S_, .i32⟩
  | 6 => ⟨S_, .i32⟩
  | 7 => ⟨S_, .i32⟩
  | 8 => ⟨S256, .i32⟩
  | 9 => ⟨S256, .i32⟩
  | 10 => ⟨S_, .i32⟩
  | 11 => ⟨S256, .i32⟩
  | 12 => ⟨S256, .i32⟩
  | 13 => ⟨S256x1, .i32⟩
  | 14 => ⟨S256, .i32⟩
  | 15 => ⟨S_, .i32⟩
  | 16 => ⟨S_, .i32⟩
  | 17 => ⟨S_, .i32⟩
  | 18 => ⟨S256, .i32⟩
  | 19 => ⟨S256, .i32⟩
  | 20 => ⟨S_, .i32⟩
  | 21 => ⟨S256, .i32⟩
  | 22 => ⟨S256, .i32⟩
  | 23 => ⟨S256x1, .i32⟩
  | 24 => ⟨S256, .i32⟩
  | 25 => ⟨S_, .i32⟩
  | 26 => ⟨S_, .i32⟩
  | 27 => ⟨S_, .i32⟩
  | 28 => ⟨S256, .i32⟩
  | 29 => ⟨S256, .i32⟩
  | 30 => ⟨S_, .i32⟩
  | 31 => ⟨S256, .i32⟩
  | 32 => ⟨S256, .i32⟩
  | 33 => ⟨S256x1, .i32⟩
  | 34 => ⟨S256, .i32⟩
  | 35 => ⟨S_, .i32⟩
  | 36 => ⟨S_, .i32⟩
  | 37 => ⟨S_, .i32⟩
  | 38 => ⟨S256, .i32⟩
  | 39 => ⟨S256, .i32⟩
  | 40 => ⟨S_, .i32⟩
  | 41 => ⟨S256, .i32⟩
  | 42 => ⟨S256, .i32⟩
  | 43 => ⟨S256, .i32⟩
  | 44 => ⟨S256, .i32⟩
  | 45 => ⟨S256, .i32⟩
  | 46 => ⟨S_, .i32⟩
  | 47 => ⟨S256, .i32⟩
  | 48 => ⟨S256, .i32⟩
  | 49 => ⟨S256, .i32⟩
  | 50 => ⟨S_, .i32⟩
  | 51 => ⟨S256, .i32⟩
  | 52 => ⟨S256, .i32⟩
  | 53 => ⟨S48, .i32⟩
  | 54 => ⟨S320, .i32⟩
  | 55 => ⟨S256x1, .i32⟩
  | 56 => ⟨S1x48, .i32⟩
  | 57 => ⟨S256x1, .i32⟩
  | 58 => ⟨S256x48, .i32⟩
  | 59 => ⟨S256x48, .i32⟩
  | 60 => ⟨S256x48, .i32⟩
  | 61 => ⟨S_, .i32⟩
  | 62 => ⟨S_, .i32⟩
  | 63 => ⟨S256x48, .i32⟩
  | 64 => ⟨S256x48, .i32⟩
  | 65 => ⟨S256x48, .i32⟩
  | 66 => ⟨S_, .i32⟩
  | 67 => ⟨S256x48, .i32⟩
  | 68 => ⟨S256x48, .i1⟩
  | 69 => ⟨S256x48, .i32⟩
  | 70 => ⟨S256x48, .i32⟩
  | 71 => ⟨S_, .i32⟩
  | 72 => ⟨S256x48, .i32⟩
  | 73 => ⟨S256x48, .i1⟩
  | 74 => ⟨S256x48, .i1⟩
  | 75 => ⟨S_, .i32⟩
  | 76 => ⟨S256x48, .i32⟩
  | 77 => ⟨S256x48, .i32⟩
  | 78 => ⟨S256x48, .i32⟩
  | 79 => ⟨S256x48, .i32⟩
  | 80 => ⟨S256x48, .i32⟩
  | 81 => ⟨S256x1, .i32⟩
  | 82 => ⟨S1x320, .i32⟩
  | 83 => ⟨S256x1, .i32⟩
  | 84 => ⟨S256x320, .i32⟩
  | 85 => ⟨S256x320, .i32⟩
  | 86 => ⟨S256x320, .i32⟩
  | 87 => ⟨S_, .i32⟩
  | 88 => ⟨S_, .i32⟩
  | 89 => ⟨S256x320, .i32⟩
  | 90 => ⟨S256x320, .i32⟩
  | 91 => ⟨S256x320, .i32⟩
  | 92 => ⟨S_, .i32⟩
  | 93 => ⟨S256x320, .i32⟩
  | 94 => ⟨S256x320, .i1⟩
  | 95 => ⟨S256x320, .i32⟩
  | 96 => ⟨S256x320, .i32⟩
  | 97 => ⟨S_, .i32⟩
  | 98 => ⟨S256x320, .i32⟩
  | 99 => ⟨S256x320, .i1⟩
  | 100 => ⟨S256x320, .i1⟩
  | 101 => ⟨S_, .i32⟩
  | 102 => ⟨S256x320, .i32⟩
  | 103 => ⟨S256x320, .i32⟩
  | 104 => ⟨S256x320, .i32⟩
  | 105 => ⟨S256x320, .i32⟩
  | 106 => ⟨S256x320, .i32⟩
  | 107 => ⟨S_, .i32⟩
  | 108 => ⟨S_, .i32⟩
  | 109 => ⟨S_, .i32⟩
  | 110 => ⟨S256, .i32⟩
  | 111 => ⟨S256, .i32⟩
  | 112 => ⟨S_, .i32⟩
  | 113 => ⟨S256, .i32⟩
  | 114 => ⟨S256, .i32⟩
  | 115 => ⟨S256, .i32⟩
  | 116 => ⟨S256, .i32⟩
  | 117 => ⟨S_, .i32⟩
  | 118 => ⟨S256, .i32⟩
  | 119 => ⟨S256, .i1⟩
  | 120 => ⟨S_, .i32⟩
  | 121 => ⟨S256, .i32⟩
  | 122 => ⟨S256, .i32⟩
  | 123 => ⟨S256, .i32⟩
  | 124 => ⟨S256x1, .i32⟩
  | 125 => ⟨S_, .i32⟩
  | 126 => ⟨S256, .i32⟩
  | 127 => ⟨S256, .i1⟩
  | _ => ⟨S8x64x200x320, .f32⟩

abbrev hbmTy0_1 (i : Nat) : BufTy := match i % 128 with
  | 0 => ⟨S_, .i32⟩
  | 1 => ⟨S256, .i32⟩
  | 2 => ⟨S256, .i32⟩
  | 3 => ⟨S256, .i32⟩
  | 4 => ⟨S256x1, .i32⟩
  | 5 => ⟨S1, .i32⟩
  | 6 => ⟨S_, .i32⟩
  | 7 => ⟨S256x1, .i32⟩
  | 8 => ⟨S256x1, .i1⟩
  | 9 => ⟨S1x1, .i32⟩
  | 10 => ⟨S256x1, .i32⟩
  | 11 => ⟨S256x1, .i1⟩
  | 12 => ⟨S256x1, .i1⟩
  | 13 => ⟨S_, .i1⟩
  | 14 => ⟨S256, .i1⟩
  | 15 => ⟨S256x48, .i32⟩
  | 16 => ⟨S256x48, .i1⟩
  | 17 => ⟨S_, .i32⟩
  | 18 => ⟨S256x48, .i32⟩
  | 19 => ⟨S_, .i32⟩
  | 20 => ⟨S256, .i32⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S1, .i32⟩
  | 28 => ⟨S_, .i32⟩
  | 29 => ⟨S256x1, .i32⟩
  | 30 => ⟨S256x1, .i1⟩
  | 31 => ⟨S1x1, .i32⟩
  | 32 => ⟨S256x1, .i32⟩
  | 33 => ⟨S256x1, .i1⟩
  | 34 => ⟨S256x1, .i1⟩
  | 35 => ⟨S_, .i1⟩
  | 36 => ⟨S256, .i1⟩
  | 37 => ⟨S256x320, .i32⟩
  | 38 => ⟨S256x320, .i1⟩
  | 39 => ⟨S_, .i32⟩
  | 40 => ⟨S256x320, .i32⟩
  | 41 => ⟨S256x320, .i32⟩
  | 42 => ⟨S256x64x48x320, .f32⟩
  | _ => ⟨S8x64x200x320, .f32⟩

abbrev hbmTy (i : Nat) : BufTy := match i / 128 with
  | 0 => hbmTy0_0 i
  | 1 => hbmTy0_1 i
  | _ => ⟨S8x64x200x320, .f32⟩

abbrev bufTy : (tb : Table) → Fin (tcTables nBuf tb) → BufTy
  | .hbm, ⟨i, _⟩ => hbmTy i
  | .local _ .vmem, ⟨0, _⟩ => ⟨S1x32x200x320, .f32⟩
  | .local _ .vmem, ⟨1, _⟩ => ⟨S1x32x200x320, .f32⟩
  | .local _ .vmem, ⟨2, _⟩ => ⟨S256x320, .i32⟩
  | .local _ .vmem, ⟨3, _⟩ => ⟨S1x32x48x320, .f32⟩
  | .local _ .vmem, ⟨4, _⟩ => ⟨S1x32x48x320, .f32⟩
  | .local _ .vmem, ⟨5, _⟩ => ⟨S32x48x320, .f32⟩
  | .local _ .smem, ⟨0, _⟩ => ⟨S256, .i32⟩
  | .local _ .smem, ⟨1, _⟩ => ⟨S256, .i32⟩
  | .local _ .smem, ⟨2, _⟩ => ⟨S256x48, .i32⟩
  | _, _ => ⟨S8x64x200x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_3 : Ref sig .tc := ⟨.hbm, 25, rfl⟩
abbrev main_c_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_5 : Ref sig .tc := ⟨.hbm, 35, rfl⟩
abbrev main_c_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_7 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_8 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_9 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_v5 : Ref sig .tc := ⟨.hbm, 67, rfl⟩
abbrev main_call4_v6 : Ref sig .tc := ⟨.hbm, 68, rfl⟩
abbrev main_call4_v7 : Ref sig .tc := ⟨.hbm, 69, rfl⟩
abbrev main_call4_v8 : Ref sig .tc := ⟨.hbm, 70, rfl⟩
abbrev main_call4_c : Ref sig .tc := ⟨.hbm, 71, rfl⟩
abbrev main_call4_v9 : Ref sig .tc := ⟨.hbm, 72, rfl⟩
abbrev main_call4_v10 : Ref sig .tc := ⟨.hbm, 73, rfl⟩
abbrev main_call4_v11 : Ref sig .tc := ⟨.hbm, 74, rfl⟩
abbrev main_call4_c_0 : Ref sig .tc := ⟨.hbm, 75, rfl⟩
abbrev main_call4_v12 : Ref sig .tc := ⟨.hbm, 76, rfl⟩
abbrev main_call4_v13 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_c_10 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_v6 : Ref sig .tc := ⟨.hbm, 94, rfl⟩
abbrev main_call5_v7 : Ref sig .tc := ⟨.hbm, 95, rfl⟩
abbrev main_call5_v8 : Ref sig .tc := ⟨.hbm, 96, rfl⟩
abbrev main_call5_c : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_0 : Ref sig .tc := ⟨.hbm, 101, rfl⟩
abbrev main_call5_v12 : Ref sig .tc := ⟨.hbm, 102, rfl⟩
abbrev main_call5_v13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_c_11 : Ref sig .tc := ⟨.hbm, 107, rfl⟩
abbrev main_c_12 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_v40 : Ref sig .tc := ⟨.hbm, 114, rfl⟩
abbrev main_call7_v0 : Ref sig .tc := ⟨.hbm, 115, rfl⟩
abbrev main_call7_v1_0 : Ref sig .tc := ⟨.hbm, 116, rfl⟩
abbrev main_c_13 : Ref sig .tc := ⟨.hbm, 117, rfl⟩
abbrev main_v42 : Ref sig .tc := ⟨.hbm, 118, rfl⟩
abbrev main_v43 : Ref sig .tc := ⟨.hbm, 119, rfl⟩
abbrev main_c_14 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_call8_c : Ref sig .tc := ⟨.hbm, 125, rfl⟩
abbrev main_call8_v0 : Ref sig .tc := ⟨.hbm, 126, rfl⟩
abbrev main_call8_v1 : Ref sig .tc := ⟨.hbm, 127, rfl⟩
abbrev main_call8_c_0 : Ref sig .tc := ⟨.hbm, 128, rfl⟩
abbrev main_call8_v2 : Ref sig .tc := ⟨.hbm, 129, rfl⟩
abbrev main_call8_v3 : Ref sig .tc := ⟨.hbm, 130, rfl⟩
abbrev main_call8_v4 : Ref sig .tc := ⟨.hbm, 131, rfl⟩
abbrev main_call8_v5 : Ref sig .tc := ⟨.hbm, 132, rfl⟩
abbrev main_call8_c_1 : Ref sig .tc := ⟨.hbm, 133, rfl⟩
abbrev main_call8_c_2 : Ref sig .tc := ⟨.hbm, 134, rfl⟩
abbrev main_call8_v6 : Ref sig .tc := ⟨.hbm, 135, rfl⟩
abbrev main_call8_v7 : Ref sig .tc := ⟨.hbm, 136, rfl⟩
abbrev main_call8_v8 : Ref sig .tc := ⟨.hbm, 137, rfl⟩
abbrev main_call8_v9 : Ref sig .tc := ⟨.hbm, 138, rfl⟩
abbrev main_call8_v10 : Ref sig .tc := ⟨.hbm, 139, rfl⟩
abbrev main_call8_v11 : Ref sig .tc := ⟨.hbm, 140, rfl⟩
abbrev main_call8_c_3 : Ref sig .tc := ⟨.hbm, 141, rfl⟩
abbrev main_call8_v12 : Ref sig .tc := ⟨.hbm, 142, rfl⟩
abbrev main_call8_v13 : Ref sig .tc := ⟨.hbm, 143, rfl⟩
abbrev main_call8_v14 : Ref sig .tc := ⟨.hbm, 144, rfl⟩
abbrev main_call8_c_4 : Ref sig .tc := ⟨.hbm, 145, rfl⟩
abbrev main_call8_v15 : Ref sig .tc := ⟨.hbm, 146, rfl⟩
abbrev main_call9_c : Ref sig .tc := ⟨.hbm, 147, rfl⟩
abbrev main_call9_v0 : Ref sig .tc := ⟨.hbm, 148, rfl⟩
abbrev main_call9_v1 : Ref sig .tc := ⟨.hbm, 149, rfl⟩
abbrev main_call9_c_0 : Ref sig .tc := ⟨.hbm, 150, rfl⟩
abbrev main_call9_v2 : Ref sig .tc := ⟨.hbm, 151, rfl⟩
abbrev main_call9_v3 : Ref sig .tc := ⟨.hbm, 152, rfl⟩
abbrev main_call9_v4 : Ref sig .tc := ⟨.hbm, 153, rfl⟩
abbrev main_call9_v5 : Ref sig .tc := ⟨.hbm, 154, rfl⟩
abbrev main_call9_c_1 : Ref sig .tc := ⟨.hbm, 155, rfl⟩
abbrev main_call9_c_2 : Ref sig .tc := ⟨.hbm, 156, rfl⟩
abbrev main_call9_v6 : Ref sig .tc := ⟨.hbm, 157, rfl⟩
abbrev main_call9_v7 : Ref sig .tc := ⟨.hbm, 158, rfl⟩
abbrev main_call9_v8 : Ref sig .tc := ⟨.hbm, 159, rfl⟩
abbrev main_call9_v9 : Ref sig .tc := ⟨.hbm, 160, rfl⟩
abbrev main_call9_v10 : Ref sig .tc := ⟨.hbm, 161, rfl⟩
abbrev main_call9_v11 : Ref sig .tc := ⟨.hbm, 162, rfl⟩
abbrev main_call9_c_3 : Ref sig .tc := ⟨.hbm, 163, rfl⟩
abbrev main_call9_v12 : Ref sig .tc := ⟨.hbm, 164, rfl⟩
abbrev main_call9_v13 : Ref sig .tc := ⟨.hbm, 165, rfl⟩
abbrev main_call9_v14 : Ref sig .tc := ⟨.hbm, 166, rfl⟩
abbrev main_call9_c_4 : Ref sig .tc := ⟨.hbm, 167, rfl⟩
abbrev main_call9_v15 : Ref sig .tc := ⟨.hbm, 168, rfl⟩
abbrev main_v50 : Ref sig .tc := ⟨.hbm, 169, rfl⟩
abbrev main_v51 : Ref sig .tc := ⟨.hbm, 170, rfl⟩
abbrev main_v48 : Ref sig .tc := ⟨.smem, 0, rfl⟩
abbrev main_v41 : Ref sig .tc := ⟨.smem, 1, rfl⟩
abbrev main_v49 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![256, 2], ![false, false]⟩

abbrev pre0 : Pipeline.Prefetch sig := ⟨3, ![main_v48.idx, main_v41.idx, main_v49.idx], fun | 0 => main_v48.names | 1 => main_v41.names | 2 => main_v49.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v0 : Index := Scalar.indexCast arg0
  let c0 : Index := 0#32
  ![v0.toNat, 0]
def k0_off3 (v1 : BitVec 32) : Fin 4 → Nat :=
  let c0_0 : Index := 0#32
  let c0_1 : Index := 0#32
  let v2 : Index := Scalar.indexCast v1
  let c0_2 : Index := 0#32
  ![0, 0, v2.toNat, 0]

def k0_chk1 (v1 : BitVec 32) : Prop :=
  (∀ a, (k0_off3 v1) a + S1x32x1x320.size a ≤ S1x32x200x320.size a)
instance k0_chk1.dec : ∀ (v1 : BitVec 32), Decidable (k0_chk1 v1) := fun v1 => decidable_of_iff' _ (Iff.of_eq (k0_chk1.eq_1 v1))
theorem k0_off3_inb : ∀ (v1 : BitVec 32) (k0_hw1 : k0_chk1 v1), ∀ a, (k0_off3 v1) a + S1x32x1x320.size a ≤ S1x32x200x320.size a := fun v1 k0_hw1 => k0_hw1

def k0_off4 (i : grid0.Coords) : Fin 2 → Nat :=
  let arg0 : BitVec 32 := BitVec.ofNat 32 (i 0).val
  let v8 : Index := Scalar.indexCast arg0
  let c1 : Index := 1#32
  ![v8.toNat, 1]
def k0_off5 (v9 : BitVec 32) : Fin 4 → Nat :=
  let c0_6 : Index := 0#32
  let c0_7 : Index := 0#32
  let v10 : Index := Scalar.indexCast v9
  let c0_8 : Index := 0#32
  ![0, 0, v10.toNat, 0]

def k0_chk2 (v9 : BitVec 32) : Prop :=
  (∀ a, (k0_off5 v9) a + S1x32x1x320.size a ≤ S1x32x200x320.size a)
instance k0_chk2.dec : ∀ (v9 : BitVec 32), Decidable (k0_chk2 v9) := fun v9 => decidable_of_iff' _ (Iff.of_eq (k0_chk2.eq_1 v9))
theorem k0_off5_inb : ∀ (v9 : BitVec 32) (k0_hw2 : k0_chk2 v9), ∀ a, (k0_off5 v9) a + S1x32x1x320.size a ≤ S1x32x200x320.size a := fun v9 k0_hw2 => k0_hw2

def k0_off6 (i : grid0.Coords) : Fin 2 → Nat :=
  let arg0 : BitVec 32 := BitVec.ofNat 32 (i 0).val
  let v16 : Index := Scalar.indexCast arg0
  let c2 : Index := 2#32
  ![v16.toNat, 2]
def k0_off7 (v17 : BitVec 32) : Fin 4 → Nat :=
  let c0_12 : Index := 0#32
  let c0_13 : Index := 0#32
  let v18 : Index := Scalar.indexCast v17
  let c0_14 : Index := 0#32
  ![0, 0, v18.toNat, 0]

def k0_chk3 (v17 : BitVec 32) : Prop :=
  (∀ a, (k0_off7 v17) a + S1x32x1x320.size a ≤ S1x32x200x320.size a)
instance k0_chk3.dec : ∀ (v17 : BitVec 32), Decidable (k0_chk3 v17) := fun v17 => decidable_of_iff' _ (Iff.of_eq (k0_chk3.eq_1 v17))
theorem k0_off7_inb : ∀ (v17 : BitVec 32) (k0_hw3 : k0_chk3 v17), ∀ a, (k0_off7 v17) a + S1x32x1x320.size a ≤ S1x32x200x320.size a := fun v17 k0_hw3 => k0_hw3

def k0_off8 (i : grid0.Coords) : Fin 2 → Nat :=
  let arg0 : BitVec 32 := BitVec.ofNat 32 (i 0).val
  let v24 : Index := Scalar.indexCast arg0
  let c3 : Index := 3#32
  ![v24.toNat, 3]
def k0_off9 (v25 : BitVec 32) : Fin 4 → Nat :=
  let c0_18 : Index := 0#32
  let c0_19 : Index := 0#32
  let v26 : Index := Scalar.indexCast v25
  let c0_20 : Index := 0#32
  ![0, 0, v26.toNat, 0]

def k0_chk4 (v25 : BitVec 32) : Prop :=
  (∀ a, (k0_off9 v25) a + S1x32x1x320.size a ≤ S1x32x200x320.size a)
instance k0_chk4.dec : ∀ (v25 : BitVec 32), Decidable (k0_chk4 v25) := fun v25 => decidable_of_iff' _ (Iff.of_eq (k0_chk4.eq_1 v25))
theorem k0_off9_inb : ∀ (v25 : BitVec 32) (k0_hw4 : k0_chk4 v25), ∀ a, (k0_off9 v25) a + S1x32x1x320.size a ≤ S1x32x200x320.size a := fun v25 k0_hw4 => k0_hw4

def k0_off10 (i : grid0.Coords) : Fin 2 → Nat :=
  let arg0 : BitVec 32 := BitVec.ofNat 32 (i 0).val
  let v32 : Index := Scalar.indexCast arg0
  let c4 : Index := 4#32
  ![v32.toNat, 4]
def k0_off11 (v33 : BitVec 32) : Fin 4 → Nat :=
  let c0_24 : Index := 0#32
  let c0_25 : Index := 0#32
  let v34 : Index := Scalar.indexCast v33
  let c0_26 : Index := 0#32
  ![0, 0, v34.toNat, 0]

def k0_chk5 (v33 : BitVec 32) : Prop :=
  (∀ a, (k0_off11 v33) a + S1x32x1x320.size a ≤ S1x32x200x320.size a)
instance k0_chk5.dec : ∀ (v33 : BitVec 32), Decidable (k0_chk5 v33) := fun v33 => decidable_of_iff' _ (Iff.of_eq (k0_chk5.eq_1 v33))
theorem k0_off11_inb : ∀ (v33 : BitVec 32) (k0_hw5 : k0_chk5 v33), ∀ a, (k0_off11 v33) a + S1x32x1x320.size a ≤ S1x32x200x320.size a := fun v33 k0_hw5 => k0_hw5

def k0_off12 (i : grid0.Coords) : Fin 2 → Nat :=
  let arg0 : BitVec 32 := BitVec.ofNat 32 (i 0).val
  let v40 : Index := Scalar.indexCast arg0
  let c5 : Index := 5#32
  ![v40.toNat, 5]
def k0_off13 (v41 : BitVec 32) : Fin 4 → Nat :=
  let c0_30 : Index := 0#32
  let c0_31 : Index := 0#32
  let v42 : Index := Scalar.indexCast v41
  let c0_32 : Index := 0#32
  ![0, 0, v42.toNat, 0]

def k0_chk6 (v41 : BitVec 32) : Prop :=
  (∀ a, (k0_off13 v41) a + S1x32x1x320.size a ≤ S1x32x200x320.size a)
instance k0_chk6.dec : ∀ (v41 : BitVec 32), Decidable (k0_chk6 v41) := fun v41 => decidable_of_iff' _ (Iff.of_eq (k0_chk6.eq_1 v41))
theorem k0_off13_inb : ∀ (v41 : BitVec 32) (k0_hw6 : k0_chk6 v41), ∀ a, (k0_off13 v41) a + S1x32x1x320.size a ≤ S1x32x200x320.size a := fun v41 k0_hw6 => k0_hw6

def k0_off14 (i : grid0.Coords) : Fin 2 → Nat :=
  let arg0 : BitVec 32 := BitVec.ofNat 32 (i 0).val
  let v48 : Index := Scalar.indexCast arg0
  let c6 : Index := 6#32
  ![v48.toNat, 6]
def k0_off15 (v49 : BitVec 32) : Fin 4 → Nat :=
  let c0_36 : Index := 0#32
  let c0_37 : Index := 0#32
  let v50 : Index := Scalar.indexCast v49
  let c0_38 : Index := 0#32
  ![0, 0, v50.toNat, 0]

def k0_chk7 (v49 : BitVec 32) : Prop :=
  (∀ a, (k0_off15 v49) a + S1x32x1x320.size a ≤ S1x32x200x320.size a)
instance k0_chk7.dec : ∀ (v49 : BitVec 32), Decidable (k0_chk7 v49) := fun v49 => decidable_of_iff' _ (Iff.of_eq (k0_chk7.eq_1 v49))
theorem k0_off15_inb : ∀ (v49 : BitVec 32) (k0_hw7 : k0_chk7 v49), ∀ a, (k0_off15 v49) a + S1x32x1x320.size a ≤ S1x32x200x320.size a := fun v49 k0_hw7 => k0_hw7

def k0_off16 (i : grid0.Coords) : Fin 2 → Nat :=
  let arg0 : BitVec 32 := BitVec.ofNat 32 (i 0).val
  let v56 : Index := Scalar.indexCast arg0
  let c7 : Index := 7#32
  ![v56.toNat, 7]
def k0_off17 (v57 : BitVec 32) : Fin 4 → Nat :=
  let c0_42 : Index := 0#32
  let c0_43 : Index := 0#32
  let v58 : Index := Scalar.indexCast v57
  let c0_44 : Index := 0#32
  ![0, 0, v58.toNat, 0]

def k0_chk8 (v57 : BitVec 32) : Prop :=
  (∀ a, (k0_off17 v57) a + S1x32x1x320.size a ≤ S1x32x200x320.size a)
instance k0_chk8.dec : ∀ (v57 : BitVec 32), Decidable (k0_chk8 v57) := fun v57 => decidable_of_iff' _ (Iff.of_eq (k0_chk8.eq_1 v57))
theorem k0_off17_inb : ∀ (v57 : BitVec 32) (k0_hw8 : k0_chk8 v57), ∀ a, (k0_off17 v57) a + S1x32x1x320.size a ≤ S1x32x200x320.size a := fun v57 k0_hw8 => k0_hw8

def k0_off18 (i : grid0.Coords) : Fin 2 → Nat :=
  let arg0 : BitVec 32 := BitVec.ofNat 32 (i 0).val
  let v64 : Index := Scalar.indexCast arg0
  let c8 : Index := 8#32
  ![v64.toNat, 8]
def k0_off19 (v65 : BitVec 32) : Fin 4 → Nat :=
  let c0_48 : Index := 0#32
  let c0_49 : Index := 0#32
  let v66 : Index := Scalar.indexCast v65
  let c0_50 : Index := 0#32
  ![0, 0, v66.toNat, 0]

def k0_chk9 (v65 : BitVec 32) : Prop :=
  (∀ a, (k0_off19 v65) a + S1x32x1x320.size a ≤ S1x32x200x320.size a)
instance k0_chk9.dec : ∀ (v65 : BitVec 32), Decidable (k0_chk9 v65) := fun v65 => decidable_of_iff' _ (Iff.of_eq (k0_chk9.eq_1 v65))
theorem k0_off19_inb : ∀ (v65 : BitVec 32) (k0_hw9 : k0_chk9 v65), ∀ a, (k0_off19 v65) a + S1x32x1x320.size a ≤ S1x32x200x320.size a := fun v65 k0_hw9 => k0_hw9

def k0_off20 (i : grid0.Coords) : Fin 2 → Nat :=
  let arg0 : BitVec 32 := BitVec.ofNat 32 (i 0).val
  let v72 : Index := Scalar.indexCast arg0
  let c9 : Index := 9#32
  ![v72.toNat, 9]
def k0_off21 (v73 : BitVec 32) : Fin 4 → Nat :=
  let c0_54 : Index := 0#32
  let c0_55 : Index := 0#32
  let v74 : Index := Scalar.indexCast v73
  let c0_56 : Index := 0#32
  ![0, 0, v74.toNat, 0]

def k0_chk10 (v73 : BitVec 32) : Prop :=
  (∀ a, (k0_off21 v73) a + S1x32x1x320.size a ≤ S1x32x200x320.size a)
instance k0_chk10.dec : ∀ (v73 : BitVec 32), Decidable (k0_chk10 v73) := fun v73 => decidable_of_iff' _ (Iff.of_eq (k0_chk10.eq_1 v73))
theorem k0_off21_inb : ∀ (v73 : BitVec 32) (k0_hw10 : k0_chk10 v73), ∀ a, (k0_off21 v73) a + S1x32x1x320.size a ≤ S1x32x200x320.size a := fun v73 k0_hw10 => k0_hw10

def k0_off22 (i : grid0.Coords) : Fin 2 → Nat :=
  let arg0 : BitVec 32 := BitVec.ofNat 32 (i 0).val
  let v80 : Index := Scalar.indexCast arg0
  let c10 : Index := 10#32
  ![v80.toNat, 10]
def k0_off23 (v81 : BitVec 32) : Fin 4 → Nat :=
  let c0_60 : Index := 0#32
  let c0_61 : Index := 0#32
  let v82 : Index := Scalar.indexCast v81
  let c0_62 : Index := 0#32
  ![0, 0, v82.toNat, 0]

def k0_chk11 (v81 : BitVec 32) : Prop :=
  (∀ a, (k0_off23 v81) a + S1x32x1x320.size a ≤ S1x32x200x320.size a)
instance k0_chk11.dec : ∀ (v81 : BitVec 32), Decidable (k0_chk11 v81) := fun v81 => decidable_of_iff' _ (Iff.of_eq (k0_chk11.eq_1 v81))
theorem k0_off23_inb : ∀ (v81 : BitVec 32) (k0_hw11 : k0_chk11 v81), ∀ a, (k0_off23 v81) a + S1x32x1x320.size a ≤ S1x32x200x320.size a := fun v81 k0_hw11 => k0_hw11

def k0_off24 (i : grid0.Coords) : Fin 2 → Nat :=
  let arg0 : BitVec 32 := BitVec.ofNat 32 (i 0).val
  let v88 : Index := Scalar.indexCast arg0
  let c11 : Index := 11#32
  ![v88.toNat, 11]
def k0_off25 (v89 : BitVec 32) : Fin 4 → Nat :=
  let c0_66 : Index := 0#32
  let c0_67 : Index := 0#32
  let v90 : Index := Scalar.indexCast v89
  let c0_68 : Index := 0#32
  ![0, 0, v90.toNat, 0]

def k0_chk12 (v89 : BitVec 32) : Prop :=
  (∀ a, (k0_off25 v89) a + S1x32x1x320.size a ≤ S1x32x200x320.size a)
instance k0_chk12.dec : ∀ (v89 : BitVec 32), Decidable (k0_chk12 v89) := fun v89 => decidable_of_iff' _ (Iff.of_eq (k0_chk12.eq_1 v89))
theorem k0_off25_inb : ∀ (v89 : BitVec 32) (k0_hw12 : k0_chk12 v89), ∀ a, (k0_off25 v89) a + S1x32x1x320.size a ≤ S1x32x200x320.size a := fun v89 k0_hw12 => k0_hw12

def k0_off26 (i : grid0.Coords) : Fin 2 → Nat :=
  let arg0 : BitVec 32 := BitVec.ofNat 32 (i 0).val
  let v96 : Index := Scalar.indexCast arg0
  let c12 : Index := 12#32
  ![v96.toNat, 12]
def k0_off27 (v97 : BitVec 32) : Fin 4 → Nat :=
  let c0_72 : Index := 0#32
  let c0_73 : Index := 0#32
  let v98 : Index := Scalar.indexCast v97
  let c0_74 : Index := 0#32
  ![0, 0, v98.toNat, 0]

def k0_chk13 (v97 : BitVec 32) : Prop :=
  (∀ a, (k0_off27 v97) a + S1x32x1x320.size a ≤ S1x32x200x320.size a)
instance k0_chk13.dec : ∀ (v97 : BitVec 32), Decidable (k0_chk13 v97) := fun v97 => decidable_of_iff' _ (Iff.of_eq (k0_chk13.eq_1 v97))
theorem k0_off27_inb : ∀ (v97 : BitVec 32) (k0_hw13 : k0_chk13 v97), ∀ a, (k0_off27 v97) a + S1x32x1x320.size a ≤ S1x32x200x320.size a := fun v97 k0_hw13 => k0_hw13

def k0_off28 (i : grid0.Coords) : Fin 2 → Nat :=
  let arg0 : BitVec 32 := BitVec.ofNat 32 (i 0).val
  let v104 : Index := Scalar.indexCast arg0
  let c13 : Index := 13#32
  ![v104.toNat, 13]
def k0_off29 (v105 : BitVec 32) : Fin 4 → Nat :=
  let c0_78 : Index := 0#32
  let c0_79 : Index := 0#32
  let v106 : Index := Scalar.indexCast v105
  let c0_80 : Index := 0#32
  ![0, 0, v106.toNat, 0]

def k0_chk14 (v105 : BitVec 32) : Prop :=
  (∀ a, (k0_off29 v105) a + S1x32x1x320.size a ≤ S1x32x200x320.size a)
instance k0_chk14.dec : ∀ (v105 : BitVec 32), Decidable (k0_chk14 v105) := fun v105 => decidable_of_iff' _ (Iff.of_eq (k0_chk14.eq_1 v105))
theorem k0_off29_inb : ∀ (v105 : BitVec 32) (k0_hw14 : k0_chk14 v105), ∀ a, (k0_off29 v105) a + S1x32x1x320.size a ≤ S1x32x200x320.size a := fun v105 k0_hw14 => k0_hw14

def k0_off30 (i : grid0.Coords) : Fin 2 → Nat :=
  let arg0 : BitVec 32 := BitVec.ofNat 32 (i 0).val
  let v112 : Index := Scalar.indexCast arg0
  let c14 : Index := 14#32
  ![v112.toNat, 14]
def k0_off31 (v113 : BitVec 32) : Fin 4 → Nat :=
  let c0_84 : Index := 0#32
  let c0_85 : Index := 0#32
  let v114 : Index := Scalar.indexCast v113
  let c0_86 : Index := 0#32
  ![0, 0, v114.toNat, 0]

def k0_chk15 (v113 : BitVec 32) : Prop :=
  (∀ a, (k0_off31 v113) a + S1x32x1x320.size a ≤ S1x32x200x320.size a)
instance k0_chk15.dec : ∀ (v113 : BitVec 32), Decidable (k0_chk15 v113) := fun v113 => decidable_of_iff' _ (Iff.of_eq (k0_chk15.eq_1 v113))
theorem k0_off31_inb : ∀ (v113 : BitVec 32) (k0_hw15 : k0_chk15 v113), ∀ a, (k0_off31 v113) a + S1x32x1x320.size a ≤ S1x32x200x320.size a := fun v113 k0_hw15 => k0_hw15

def k0_off32 (i : grid0.Coords) : Fin 2 → Nat :=
  let arg0 : BitVec 32 := BitVec.ofNat 32 (i 0).val
  let v120 : Index := Scalar.indexCast arg0
  let c15 : Index := 15#32
  ![v120.toNat, 15]
def k0_off33 (v121 : BitVec 32) : Fin 4 → Nat :=
  let c0_90 : Index := 0#32
  let c0_91 : Index := 0#32
  let v122 : Index := Scalar.indexCast v121
  let c0_92 : Index := 0#32
  ![0, 0, v122.toNat, 0]

def k0_chk16 (v121 : BitVec 32) : Prop :=
  (∀ a, (k0_off33 v121) a + S1x32x1x320.size a ≤ S1x32x200x320.size a)
instance k0_chk16.dec : ∀ (v121 : BitVec 32), Decidable (k0_chk16 v121) := fun v121 => decidable_of_iff' _ (Iff.of_eq (k0_chk16.eq_1 v121))
theorem k0_off33_inb : ∀ (v121 : BitVec 32) (k0_hw16 : k0_chk16 v121), ∀ a, (k0_off33 v121) a + S1x32x1x320.size a ≤ S1x32x200x320.size a := fun v121 k0_hw16 => k0_hw16

def k0_off34 (i : grid0.Coords) : Fin 2 → Nat :=
  let arg0 : BitVec 32 := BitVec.ofNat 32 (i 0).val
  let v128 : Index := Scalar.indexCast arg0
  let c16 : Index := 16#32
  ![v128.toNat, 16]
def k0_off35 (v129 : BitVec 32) : Fin 4 → Nat :=
  let c0_96 : Index := 0#32
  let c0_97 : Index := 0#32
  let v130 : Index := Scalar.indexCast v129
  let c0_98 : Index := 0#32
  ![0, 0, v130.toNat, 0]

def k0_chk17 (v129 : BitVec 32) : Prop :=
  (∀ a, (k0_off35 v129) a + S1x32x1x320.size a ≤ S1x32x200x320.size a)
instance k0_chk17.dec : ∀ (v129 : BitVec 32), Decidable (k0_chk17 v129) := fun v129 => decidable_of_iff' _ (Iff.of_eq (k0_chk17.eq_1 v129))
theorem k0_off35_inb : ∀ (v129 : BitVec 32) (k0_hw17 : k0_chk17 v129), ∀ a, (k0_off35 v129) a + S1x32x1x320.size a ≤ S1x32x200x320.size a := fun v129 k0_hw17 => k0_hw17

def k0_off36 (i : grid0.Coords) : Fin 2 → Nat :=
  let arg0 : BitVec 32 := BitVec.ofNat 32 (i 0).val
  let v136 : Index := Scalar.indexCast arg0
  let c17 : Index := 17#32
  ![v136.toNat, 17]
def k0_off37 (v137 : BitVec 32) : Fin 4 → Nat :=
  let c0_102 : Index := 0#32
  let c0_103 : Index := 0#32
  let v138 : Index := Scalar.indexCast v137
  let c0_104 : Index := 0#32
  ![0, 0, v138.toNat, 0]

def k0_chk18 (v137 : BitVec 32) : Prop :=
  (∀ a, (k0_off37 v137) a + S1x32x1x320.size a ≤ S1x32x200x320.size a)
instance k0_chk18.dec : ∀ (v137 : BitVec 32), Decidable (k0_chk18 v137) := fun v137 => decidable_of_iff' _ (Iff.of_eq (k0_chk18.eq_1 v137))
theorem k0_off37_inb : ∀ (v137 : BitVec 32) (k0_hw18 : k0_chk18 v137), ∀ a, (k0_off37 v137) a + S1x32x1x320.size a ≤ S1x32x200x320.size a := fun v137 k0_hw18 => k0_hw18

def k0_off38 (i : grid0.Coords) : Fin 2 → Nat :=
  let arg0 : BitVec 32 := BitVec.ofNat 32 (i 0).val
  let v144 : Index := Scalar.indexCast arg0
  let c18 : Index := 18#32
  ![v144.toNat, 18]
def k0_off39 (v145 : BitVec 32) : Fin 4 → Nat :=
  let c0_108 : Index := 0#32
  let c0_109 : Index := 0#32
  let v146 : Index := Scalar.indexCast v145
  let c0_110 : Index := 0#32
  ![0, 0, v146.toNat, 0]

def k0_chk19 (v145 : BitVec 32) : Prop :=
  (∀ a, (k0_off39 v145) a + S1x32x1x320.size a ≤ S1x32x200x320.size a)
instance k0_chk19.dec : ∀ (v145 : BitVec 32), Decidable (k0_chk19 v145) := fun v145 => decidable_of_iff' _ (Iff.of_eq (k0_chk19.eq_1 v145))
theorem k0_off39_inb : ∀ (v145 : BitVec 32) (k0_hw19 : k0_chk19 v145), ∀ a, (k0_off39 v145) a + S1x32x1x320.size a ≤ S1x32x200x320.size a := fun v145 k0_hw19 => k0_hw19

def k0_off40 (i : grid0.Coords) : Fin 2 → Nat :=
  let arg0 : BitVec 32 := BitVec.ofNat 32 (i 0).val
  let v152 : Index := Scalar.indexCast arg0
  let c19 : Index := 19#32
  ![v152.toNat, 19]
def k0_off41 (v153 : BitVec 32) : Fin 4 → Nat :=
  let c0_114 : Index := 0#32
  let c0_115 : Index := 0#32
  let v154 : Index := Scalar.indexCast v153
  let c0_116 : Index := 0#32
  ![0, 0, v154.toNat, 0]

def k0_chk20 (v153 : BitVec 32) : Prop :=
  (∀ a, (k0_off41 v153) a + S1x32x1x320.size a ≤ S1x32x200x320.size a)
instance k0_chk20.dec : ∀ (v153 : BitVec 32), Decidable (k0_chk20 v153) := fun v153 => decidable_of_iff' _ (Iff.of_eq (k0_chk20.eq_1 v153))
theorem k0_off41_inb : ∀ (v153 : BitVec 32) (k0_hw20 : k0_chk20 v153), ∀ a, (k0_off41 v153) a + S1x32x1x320.size a ≤ S1x32x200x320.size a := fun v153 k0_hw20 => k0_hw20

def k0_off42 (i : grid0.Coords) : Fin 2 → Nat :=
  let arg0 : BitVec 32 := BitVec.ofNat 32 (i 0).val
  let v160 : Index := Scalar.indexCast arg0
  let c20 : Index := 20#32
  ![v160.toNat, 20]
def k0_off43 (v161 : BitVec 32) : Fin 4 → Nat :=
  let c0_120 : Index := 0#32
  let c0_121 : Index := 0#32
  let v162 : Index := Scalar.indexCast v161
  let c0_122 : Index := 0#32
  ![0, 0, v162.toNat, 0]

def k0_chk21 (v161 : BitVec 32) : Prop :=
  (∀ a, (k0_off43 v161) a + S1x32x1x320.size a ≤ S1x32x200x320.size a)
instance k0_chk21.dec : ∀ (v161 : BitVec 32), Decidable (k0_chk21 v161) := fun v161 => decidable_of_iff' _ (Iff.of_eq (k0_chk21.eq_1 v161))
theorem k0_off43_inb : ∀ (v161 : BitVec 32) (k0_hw21 : k0_chk21 v161), ∀ a, (k0_off43 v161) a + S1x32x1x320.size a ≤ S1x32x200x320.size a := fun v161 k0_hw21 => k0_hw21

def k0_off44 (i : grid0.Coords) : Fin 2 → Nat :=
  let arg0 : BitVec 32 := BitVec.ofNat 32 (i 0).val
  let v168 : Index := Scalar.indexCast arg0
  let c21 : Index := 21#32
  ![v168.toNat, 21]
def k0_off45 (v169 : BitVec 32) : Fin 4 → Nat :=
  let c0_126 : Index := 0#32
  let c0_127 : Index := 0#32
  let v170 : Index := Scalar.indexCast v169
  let c0_128 : Index := 0#32
  ![0, 0, v170.toNat, 0]

def k0_chk22 (v169 : BitVec 32) : Prop :=
  (∀ a, (k0_off45 v169) a + S1x32x1x320.size a ≤ S1x32x200x320.size a)
instance k0_chk22.dec : ∀ (v169 : BitVec 32), Decidable (k0_chk22 v169) := fun v169 => decidable_of_iff' _ (Iff.of_eq (k0_chk22.eq_1 v169))
theorem k0_off45_inb : ∀ (v169 : BitVec 32) (k0_hw22 : k0_chk22 v169), ∀ a, (k0_off45 v169) a + S1x32x1x320.size a ≤ S1x32x200x320.size a := fun v169 k0_hw22 => k0_hw22

def k0_off46 (i : grid0.Coords) : Fin 2 → Nat :=
  let arg0 : BitVec 32 := BitVec.ofNat 32 (i 0).val
  let v176 : Index := Scalar.indexCast arg0
  let c22 : Index := 22#32
  ![v176.toNat, 22]
def k0_off47 (v177 : BitVec 32) : Fin 4 → Nat :=
  let c0_132 : Index := 0#32
  let c0_133 : Index := 0#32
  let v178 : Index := Scalar.indexCast v177
  let c0_134 : Index := 0#32
  ![0, 0, v178.toNat, 0]

def k0_chk23 (v177 : BitVec 32) : Prop :=
  (∀ a, (k0_off47 v177) a + S1x32x1x320.size a ≤ S1x32x200x320.size a)
instance k0_chk23.dec : ∀ (v177 : BitVec 32), Decidable (k0_chk23 v177) := fun v177 => decidable_of_iff' _ (Iff.of_eq (k0_chk23.eq_1 v177))
theorem k0_off47_inb : ∀ (v177 : BitVec 32) (k0_hw23 : k0_chk23 v177), ∀ a, (k0_off47 v177) a + S1x32x1x320.size a ≤ S1x32x200x320.size a := fun v177 k0_hw23 => k0_hw23

def k0_off48 (i : grid0.Coords) : Fin 2 → Nat :=
  let arg0 : BitVec 32 := BitVec.ofNat 32 (i 0).val
  let v184 : Index := Scalar.indexCast arg0
  let c23 : Index := 23#32
  ![v184.toNat, 23]
def k0_off49 (v185 : BitVec 32) : Fin 4 → Nat :=
  let c0_138 : Index := 0#32
  let c0_139 : Index := 0#32
  let v186 : Index := Scalar.indexCast v185
  let c0_140 : Index := 0#32
  ![0, 0, v186.toNat, 0]

def k0_chk24 (v185 : BitVec 32) : Prop :=
  (∀ a, (k0_off49 v185) a + S1x32x1x320.size a ≤ S1x32x200x320.size a)
instance k0_chk24.dec : ∀ (v185 : BitVec 32), Decidable (k0_chk24 v185) := fun v185 => decidable_of_iff' _ (Iff.of_eq (k0_chk24.eq_1 v185))
theorem k0_off49_inb : ∀ (v185 : BitVec 32) (k0_hw24 : k0_chk24 v185), ∀ a, (k0_off49 v185) a + S1x32x1x320.size a ≤ S1x32x200x320.size a := fun v185 k0_hw24 => k0_hw24

def k0_off50 (i : grid0.Coords) : Fin 2 → Nat :=
  let arg0 : BitVec 32 := BitVec.ofNat 32 (i 0).val
  let v192 : Index := Scalar.indexCast arg0
  let c24 : Index := 24#32
  ![v192.toNat, 24]
def k0_off51 (v193 : BitVec 32) : Fin 4 → Nat :=
  let c0_144 : Index := 0#32
  let c0_145 : Index := 0#32
  let v194 : Index := Scalar.indexCast v193
  let c0_146 : Index := 0#32
  ![0, 0, v194.toNat, 0]

def k0_chk25 (v193 : BitVec 32) : Prop :=
  (∀ a, (k0_off51 v193) a + S1x32x1x320.size a ≤ S1x32x200x320.size a)
instance k0_chk25.dec : ∀ (v193 : BitVec 32), Decidable (k0_chk25 v193) := fun v193 => decidable_of_iff' _ (Iff.of_eq (k0_chk25.eq_1 v193))
theorem k0_off51_inb : ∀ (v193 : BitVec 32) (k0_hw25 : k0_chk25 v193), ∀ a, (k0_off51 v193) a + S1x32x1x320.size a ≤ S1x32x200x320.size a := fun v193 k0_hw25 => k0_hw25

def k0_off52 (i : grid0.Coords) : Fin 2 → Nat :=
  let arg0 : BitVec 32 := BitVec.ofNat 32 (i 0).val
  let v200 : Index := Scalar.indexCast arg0
  let c25 : Index := 25#32
  ![v200.toNat, 25]
def k0_off53 (v201 : BitVec 32) : Fin 4 → Nat :=
  let c0_150 : Index := 0#32
  let c0_151 : Index := 0#32
  let v202 : Index := Scalar.indexCast v201
  let c0_152 : Index := 0#32
  ![0, 0, v202.toNat, 0]

def k0_chk26 (v201 : BitVec 32) : Prop :=
  (∀ a, (k0_off53 v201) a + S1x32x1x320.size a ≤ S1x32x200x320.size a)
instance k0_chk26.dec : ∀ (v201 : BitVec 32), Decidable (k0_chk26 v201) := fun v201 => decidable_of_iff' _ (Iff.of_eq (k0_chk26.eq_1 v201))
theorem k0_off53_inb : ∀ (v201 : BitVec 32) (k0_hw26 : k0_chk26 v201), ∀ a, (k0_off53 v201) a + S1x32x1x320.size a ≤ S1x32x200x320.size a := fun v201 k0_hw26 => k0_hw26

def k0_off54 (i : grid0.Coords) : Fin 2 → Nat :=
  let arg0 : BitVec 32 := BitVec.ofNat 32 (i 0).val
  let v208 : Index := Scalar.indexCast arg0
  let c26 : Index := 26#32
  ![v208.toNat, 26]
def k0_off55 (v209 : BitVec 32) : Fin 4 → Nat :=
  let c0_156 : Index := 0#32
  let c0_157 : Index := 0#32
  let v210 : Index := Scalar.indexCast v209
  let c0_158 : Index := 0#32
  ![0, 0, v210.toNat, 0]

def k0_chk27 (v209 : BitVec 32) : Prop :=
  (∀ a, (k0_off55 v209) a + S1x32x1x320.size a ≤ S1x32x200x320.size a)
instance k0_chk27.dec : ∀ (v209 : BitVec 32), Decidable (k0_chk27 v209) := fun v209 => decidable_of_iff' _ (Iff.of_eq (k0_chk27.eq_1 v209))
theorem k0_off55_inb : ∀ (v209 : BitVec 32) (k0_hw27 : k0_chk27 v209), ∀ a, (k0_off55 v209) a + S1x32x1x320.size a ≤ S1x32x200x320.size a := fun v209 k0_hw27 => k0_hw27

def k0_off56 (i : grid0.Coords) : Fin 2 → Nat :=
  let arg0 : BitVec 32 := BitVec.ofNat 32 (i 0).val
  let v216 : Index := Scalar.indexCast arg0
  let c27 : Index := 27#32
  ![v216.toNat, 27]
def k0_off57 (v217 : BitVec 32) : Fin 4 → Nat :=
  let c0_162 : Index := 0#32
  let c0_163 : Index := 0#32
  let v218 : Index := Scalar.indexCast v217
  let c0_164 : Index := 0#32
  ![0, 0, v218.toNat, 0]

def k0_chk28 (v217 : BitVec 32) : Prop :=
  (∀ a, (k0_off57 v217) a + S1x32x1x320.size a ≤ S1x32x200x320.size a)
instance k0_chk28.dec : ∀ (v217 : BitVec 32), Decidable (k0_chk28 v217) := fun v217 => decidable_of_iff' _ (Iff.of_eq (k0_chk28.eq_1 v217))
theorem k0_off57_inb : ∀ (v217 : BitVec 32) (k0_hw28 : k0_chk28 v217), ∀ a, (k0_off57 v217) a + S1x32x1x320.size a ≤ S1x32x200x320.size a := fun v217 k0_hw28 => k0_hw28

def k0_off58 (i : grid0.Coords) : Fin 2 → Nat :=
  let arg0 : BitVec 32 := BitVec.ofNat 32 (i 0).val
  let v224 : Index := Scalar.indexCast arg0
  let c28 : Index := 28#32
  ![v224.toNat, 28]
def k0_off59 (v225 : BitVec 32) : Fin 4 → Nat :=
  let c0_168 : Index := 0#32
  let c0_169 : Index := 0#32
  let v226 : Index := Scalar.indexCast v225
  let c0_170 : Index := 0#32
  ![0, 0, v226.toNat, 0]

def k0_chk29 (v225 : BitVec 32) : Prop :=
  (∀ a, (k0_off59 v225) a + S1x32x1x320.size a ≤ S1x32x200x320.size a)
instance k0_chk29.dec : ∀ (v225 : BitVec 32), Decidable (k0_chk29 v225) := fun v225 => decidable_of_iff' _ (Iff.of_eq (k0_chk29.eq_1 v225))
theorem k0_off59_inb : ∀ (v225 : BitVec 32) (k0_hw29 : k0_chk29 v225), ∀ a, (k0_off59 v225) a + S1x32x1x320.size a ≤ S1x32x200x320.size a := fun v225 k0_hw29 => k0_hw29

def k0_off60 (i : grid0.Coords) : Fin 2 → Nat :=
  let arg0 : BitVec 32 := BitVec.ofNat 32 (i 0).val
  let v232 : Index := Scalar.indexCast arg0
  let c29 : Index := 29#32
  ![v232.toNat, 29]
def k0_off61 (v233 : BitVec 32) : Fin 4 → Nat :=
  let c0_174 : Index := 0#32
  let c0_175 : Index := 0#32
  let v234 : Index := Scalar.indexCast v233
  let c0_176 : Index := 0#32
  ![0, 0, v234.toNat, 0]

def k0_chk30 (v233 : BitVec 32) : Prop :=
  (∀ a, (k0_off61 v233) a + S1x32x1x320.size a ≤ S1x32x200x320.size a)
instance k0_chk30.dec : ∀ (v233 : BitVec 32), Decidable (k0_chk30 v233) := fun v233 => decidable_of_iff' _ (Iff.of_eq (k0_chk30.eq_1 v233))
theorem k0_off61_inb : ∀ (v233 : BitVec 32) (k0_hw30 : k0_chk30 v233), ∀ a, (k0_off61 v233) a + S1x32x1x320.size a ≤ S1x32x200x320.size a := fun v233 k0_hw30 => k0_hw30

def k0_off62 (i : grid0.Coords) : Fin 2 → Nat :=
  let arg0 : BitVec 32 := BitVec.ofNat 32 (i 0).val
  let v240 : Index := Scalar.indexCast arg0
  let c30 : Index := 30#32
  ![v240.toNat, 30]
def k0_off63 (v241 : BitVec 32) : Fin 4 → Nat :=
  let c0_180 : Index := 0#32
  let c0_181 : Index := 0#32
  let v242 : Index := Scalar.indexCast v241
  let c0_182 : Index := 0#32
  ![0, 0, v242.toNat, 0]

def k0_chk31 (v241 : BitVec 32) : Prop :=
  (∀ a, (k0_off63 v241) a + S1x32x1x320.size a ≤ S1x32x200x320.size a)
instance k0_chk31.dec : ∀ (v241 : BitVec 32), Decidable (k0_chk31 v241) := fun v241 => decidable_of_iff' _ (Iff.of_eq (k0_chk31.eq_1 v241))
theorem k0_off63_inb : ∀ (v241 : BitVec 32) (k0_hw31 : k0_chk31 v241), ∀ a, (k0_off63 v241) a + S1x32x1x320.size a ≤ S1x32x200x320.size a := fun v241 k0_hw31 => k0_hw31

def k0_off64 (i : grid0.Coords) : Fin 2 → Nat :=
  let arg0 : BitVec 32 := BitVec.ofNat 32 (i 0).val
  let v248 : Index := Scalar.indexCast arg0
  let c31 : Index := 31#32
  ![v248.toNat, 31]
def k0_off65 (v249 : BitVec 32) : Fin 4 → Nat :=
  let c0_186 : Index := 0#32
  let c0_187 : Index := 0#32
  let v250 : Index := Scalar.indexCast v249
  let c0_188 : Index := 0#32
  ![0, 0, v250.toNat, 0]

def k0_chk32 (v249 : BitVec 32) : Prop :=
  (∀ a, (k0_off65 v249) a + S1x32x1x320.size a ≤ S1x32x200x320.size a)
instance k0_chk32.dec : ∀ (v249 : BitVec 32), Decidable (k0_chk32 v249) := fun v249 => decidable_of_iff' _ (Iff.of_eq (k0_chk32.eq_1 v249))
theorem k0_off65_inb : ∀ (v249 : BitVec 32) (k0_hw32 : k0_chk32 v249), ∀ a, (k0_off65 v249) a + S1x32x1x320.size a ≤ S1x32x200x320.size a := fun v249 k0_hw32 => k0_hw32

def k0_off66 (i : grid0.Coords) : Fin 2 → Nat :=
  let arg0 : BitVec 32 := BitVec.ofNat 32 (i 0).val
  let v256 : Index := Scalar.indexCast arg0
  let c32 : Index := 32#32
  ![v256.toNat, 32]
def k0_off67 (v257 : BitVec 32) : Fin 4 → Nat :=
  let c0_192 : Index := 0#32
  let c0_193 : Index := 0#32
  let v258 : Index := Scalar.indexCast v257
  let c0_194 : Index := 0#32
  ![0, 0, v258.toNat, 0]

def k0_chk33 (v257 : BitVec 32) : Prop :=
  (∀ a, (k0_off67 v257) a + S1x32x1x320.size a ≤ S1x32x200x320.size a)
instance k0_chk33.dec : ∀ (v257 : BitVec 32), Decidable (k0_chk33 v257) := fun v257 => decidable_of_iff' _ (Iff.of_eq (k0_chk33.eq_1 v257))
theorem k0_off67_inb : ∀ (v257 : BitVec 32) (k0_hw33 : k0_chk33 v257), ∀ a, (k0_off67 v257) a + S1x32x1x320.size a ≤ S1x32x200x320.size a := fun v257 k0_hw33 => k0_hw33

def k0_off68 (i : grid0.Coords) : Fin 2 → Nat :=
  let arg0 : BitVec 32 := BitVec.ofNat 32 (i 0).val
  let v264 : Index := Scalar.indexCast arg0
  let c33 : Index := 33#32
  ![v264.toNat, 33]
def k0_off69 (v265 : BitVec 32) : Fin 4 → Nat :=
  let c0_198 : Index := 0#32
  let c0_199 : Index := 0#32
  let v266 : Index := Scalar.indexCast v265
  let c0_200 : Index := 0#32
  ![0, 0, v266.toNat, 0]

def k0_chk34 (v265 : BitVec 32) : Prop :=
  (∀ a, (k0_off69 v265) a + S1x32x1x320.size a ≤ S1x32x200x320.size a)
instance k0_chk34.dec : ∀ (v265 : BitVec 32), Decidable (k0_chk34 v265) := fun v265 => decidable_of_iff' _ (Iff.of_eq (k0_chk34.eq_1 v265))
theorem k0_off69_inb : ∀ (v265 : BitVec 32) (k0_hw34 : k0_chk34 v265), ∀ a, (k0_off69 v265) a + S1x32x1x320.size a ≤ S1x32x200x320.size a := fun v265 k0_hw34 => k0_hw34

def k0_off70 (i : grid0.Coords) : Fin 2 → Nat :=
  let arg0 : BitVec 32 := BitVec.ofNat 32 (i 0).val
  let v272 : Index := Scalar.indexCast arg0
  let c34 : Index := 34#32
  ![v272.toNat, 34]
def k0_off71 (v273 : BitVec 32) : Fin 4 → Nat :=
  let c0_204 : Index := 0#32
  let c0_205 : Index := 0#32
  let v274 : Index := Scalar.indexCast v273
  let c0_206 : Index := 0#32
  ![0, 0, v274.toNat, 0]

def k0_chk35 (v273 : BitVec 32) : Prop :=
  (∀ a, (k0_off71 v273) a + S1x32x1x320.size a ≤ S1x32x200x320.size a)
instance k0_chk35.dec : ∀ (v273 : BitVec 32), Decidable (k0_chk35 v273) := fun v273 => decidable_of_iff' _ (Iff.of_eq (k0_chk35.eq_1 v273))
theorem k0_off71_inb : ∀ (v273 : BitVec 32) (k0_hw35 : k0_chk35 v273), ∀ a, (k0_off71 v273) a + S1x32x1x320.size a ≤ S1x32x200x320.size a := fun v273 k0_hw35 => k0_hw35

def k0_off72 (i : grid0.Coords) : Fin 2 → Nat :=
  let arg0 : BitVec 32 := BitVec.ofNat 32 (i 0).val
  let v280 : Index := Scalar.indexCast arg0
  let c35 : Index := 35#32
  ![v280.toNat, 35]
def k0_off73 (v281 : BitVec 32) : Fin 4 → Nat :=
  let c0_210 : Index := 0#32
  let c0_211 : Index := 0#32
  let v282 : Index := Scalar.indexCast v281
  let c0_212 : Index := 0#32
  ![0, 0, v282.toNat, 0]

def k0_chk36 (v281 : BitVec 32) : Prop :=
  (∀ a, (k0_off73 v281) a + S1x32x1x320.size a ≤ S1x32x200x320.size a)
instance k0_chk36.dec : ∀ (v281 : BitVec 32), Decidable (k0_chk36 v281) := fun v281 => decidable_of_iff' _ (Iff.of_eq (k0_chk36.eq_1 v281))
theorem k0_off73_inb : ∀ (v281 : BitVec 32) (k0_hw36 : k0_chk36 v281), ∀ a, (k0_off73 v281) a + S1x32x1x320.size a ≤ S1x32x200x320.size a := fun v281 k0_hw36 => k0_hw36

def k0_off74 (i : grid0.Coords) : Fin 2 → Nat :=
  let arg0 : BitVec 32 := BitVec.ofNat 32 (i 0).val
  let v288 : Index := Scalar.indexCast arg0
  let c36 : Index := 36#32
  ![v288.toNat, 36]
def k0_off75 (v289 : BitVec 32) : Fin 4 → Nat :=
  let c0_216 : Index := 0#32
  let c0_217 : Index := 0#32
  let v290 : Index := Scalar.indexCast v289
  let c0_218 : Index := 0#32
  ![0, 0, v290.toNat, 0]

def k0_chk37 (v289 : BitVec 32) : Prop :=
  (∀ a, (k0_off75 v289) a + S1x32x1x320.size a ≤ S1x32x200x320.size a)
instance k0_chk37.dec : ∀ (v289 : BitVec 32), Decidable (k0_chk37 v289) := fun v289 => decidable_of_iff' _ (Iff.of_eq (k0_chk37.eq_1 v289))
theorem k0_off75_inb : ∀ (v289 : BitVec 32) (k0_hw37 : k0_chk37 v289), ∀ a, (k0_off75 v289) a + S1x32x1x320.size a ≤ S1x32x200x320.size a := fun v289 k0_hw37 => k0_hw37

def k0_off76 (i : grid0.Coords) : Fin 2 → Nat :=
  let arg0 : BitVec 32 := BitVec.ofNat 32 (i 0).val
  let v296 : Index := Scalar.indexCast arg0
  let c37 : Index := 37#32
  ![v296.toNat, 37]
def k0_off77 (v297 : BitVec 32) : Fin 4 → Nat :=
  let c0_222 : Index := 0#32
  let c0_223 : Index := 0#32
  let v298 : Index := Scalar.indexCast v297
  let c0_224 : Index := 0#32
  ![0, 0, v298.toNat, 0]

def k0_chk38 (v297 : BitVec 32) : Prop :=
  (∀ a, (k0_off77 v297) a + S1x32x1x320.size a ≤ S1x32x200x320.size a)
instance k0_chk38.dec : ∀ (v297 : BitVec 32), Decidable (k0_chk38 v297) := fun v297 => decidable_of_iff' _ (Iff.of_eq (k0_chk38.eq_1 v297))
theorem k0_off77_inb : ∀ (v297 : BitVec 32) (k0_hw38 : k0_chk38 v297), ∀ a, (k0_off77 v297) a + S1x32x1x320.size a ≤ S1x32x200x320.size a := fun v297 k0_hw38 => k0_hw38

def k0_off78 (i : grid0.Coords) : Fin 2 → Nat :=
  let arg0 : BitVec 32 := BitVec.ofNat 32 (i 0).val
  let v304 : Index := Scalar.indexCast arg0
  let c38 : Index := 38#32
  ![v304.toNat, 38]
def k0_off79 (v305 : BitVec 32) : Fin 4 → Nat :=
  let c0_228 : Index := 0#32
  let c0_229 : Index := 0#32
  let v306 : Index := Scalar.indexCast v305
  let c0_230 : Index := 0#32
  ![0, 0, v306.toNat, 0]

def k0_chk39 (v305 : BitVec 32) : Prop :=
  (∀ a, (k0_off79 v305) a + S1x32x1x320.size a ≤ S1x32x200x320.size a)
instance k0_chk39.dec : ∀ (v305 : BitVec 32), Decidable (k0_chk39 v305) := fun v305 => decidable_of_iff' _ (Iff.of_eq (k0_chk39.eq_1 v305))
theorem k0_off79_inb : ∀ (v305 : BitVec 32) (k0_hw39 : k0_chk39 v305), ∀ a, (k0_off79 v305) a + S1x32x1x320.size a ≤ S1x32x200x320.size a := fun v305 k0_hw39 => k0_hw39

def k0_off80 (i : grid0.Coords) : Fin 2 → Nat :=
  let arg0 : BitVec 32 := BitVec.ofNat 32 (i 0).val
  let v312 : Index := Scalar.indexCast arg0
  let c39 : Index := 39#32
  ![v312.toNat, 39]
def k0_off81 (v313 : BitVec 32) : Fin 4 → Nat :=
  let c0_234 : Index := 0#32
  let c0_235 : Index := 0#32
  let v314 : Index := Scalar.indexCast v313
  let c0_236 : Index := 0#32
  ![0, 0, v314.toNat, 0]

def k0_chk40 (v313 : BitVec 32) : Prop :=
  (∀ a, (k0_off81 v313) a + S1x32x1x320.size a ≤ S1x32x200x320.size a)
instance k0_chk40.dec : ∀ (v313 : BitVec 32), Decidable (k0_chk40 v313) := fun v313 => decidable_of_iff' _ (Iff.of_eq (k0_chk40.eq_1 v313))
theorem k0_off81_inb : ∀ (v313 : BitVec 32) (k0_hw40 : k0_chk40 v313), ∀ a, (k0_off81 v313) a + S1x32x1x320.size a ≤ S1x32x200x320.size a := fun v313 k0_hw40 => k0_hw40

def k0_off82 (i : grid0.Coords) : Fin 2 → Nat :=
  let arg0 : BitVec 32 := BitVec.ofNat 32 (i 0).val
  let v320 : Index := Scalar.indexCast arg0
  let c40 : Index := 40#32
  ![v320.toNat, 40]
def k0_off83 (v321 : BitVec 32) : Fin 4 → Nat :=
  let c0_240 : Index := 0#32
  let c0_241 : Index := 0#32
  let v322 : Index := Scalar.indexCast v321
  let c0_242 : Index := 0#32
  ![0, 0, v322.toNat, 0]

def k0_chk41 (v321 : BitVec 32) : Prop :=
  (∀ a, (k0_off83 v321) a + S1x32x1x320.size a ≤ S1x32x200x320.size a)
instance k0_chk41.dec : ∀ (v321 : BitVec 32), Decidable (k0_chk41 v321) := fun v321 => decidable_of_iff' _ (Iff.of_eq (k0_chk41.eq_1 v321))
theorem k0_off83_inb : ∀ (v321 : BitVec 32) (k0_hw41 : k0_chk41 v321), ∀ a, (k0_off83 v321) a + S1x32x1x320.size a ≤ S1x32x200x320.size a := fun v321 k0_hw41 => k0_hw41

def k0_off84 (i : grid0.Coords) : Fin 2 → Nat :=
  let arg0 : BitVec 32 := BitVec.ofNat 32 (i 0).val
  let v328 : Index := Scalar.indexCast arg0
  let c41 : Index := 41#32
  ![v328.toNat, 41]
def k0_off85 (v329 : BitVec 32) : Fin 4 → Nat :=
  let c0_246 : Index := 0#32
  let c0_247 : Index := 0#32
  let v330 : Index := Scalar.indexCast v329
  let c0_248 : Index := 0#32
  ![0, 0, v330.toNat, 0]

def k0_chk42 (v329 : BitVec 32) : Prop :=
  (∀ a, (k0_off85 v329) a + S1x32x1x320.size a ≤ S1x32x200x320.size a)
instance k0_chk42.dec : ∀ (v329 : BitVec 32), Decidable (k0_chk42 v329) := fun v329 => decidable_of_iff' _ (Iff.of_eq (k0_chk42.eq_1 v329))
theorem k0_off85_inb : ∀ (v329 : BitVec 32) (k0_hw42 : k0_chk42 v329), ∀ a, (k0_off85 v329) a + S1x32x1x320.size a ≤ S1x32x200x320.size a := fun v329 k0_hw42 => k0_hw42

def k0_off86 (i : grid0.Coords) : Fin 2 → Nat :=
  let arg0 : BitVec 32 := BitVec.ofNat 32 (i 0).val
  let v336 : Index := Scalar.indexCast arg0
  let c42 : Index := 42#32
  ![v336.toNat, 42]
def k0_off87 (v337 : BitVec 32) : Fin 4 → Nat :=
  let c0_252 : Index := 0#32
  let c0_253 : Index := 0#32
  let v338 : Index := Scalar.indexCast v337
  let c0_254 : Index := 0#32
  ![0, 0, v338.toNat, 0]

def k0_chk43 (v337 : BitVec 32) : Prop :=
  (∀ a, (k0_off87 v337) a + S1x32x1x320.size a ≤ S1x32x200x320.size a)
instance k0_chk43.dec : ∀ (v337 : BitVec 32), Decidable (k0_chk43 v337) := fun v337 => decidable_of_iff' _ (Iff.of_eq (k0_chk43.eq_1 v337))
theorem k0_off87_inb : ∀ (v337 : BitVec 32) (k0_hw43 : k0_chk43 v337), ∀ a, (k0_off87 v337) a + S1x32x1x320.size a ≤ S1x32x200x320.size a := fun v337 k0_hw43 => k0_hw43

def k0_off88 (i : grid0.Coords) : Fin 2 → Nat :=
  let arg0 : BitVec 32 := BitVec.ofNat 32 (i 0).val
  let v344 : Index := Scalar.indexCast arg0
  let c43 : Index := 43#32
  ![v344.toNat, 43]
def k0_off89 (v345 : BitVec 32) : Fin 4 → Nat :=
  let c0_258 : Index := 0#32
  let c0_259 : Index := 0#32
  let v346 : Index := Scalar.indexCast v345
  let c0_260 : Index := 0#32
  ![0, 0, v346.toNat, 0]

def k0_chk44 (v345 : BitVec 32) : Prop :=
  (∀ a, (k0_off89 v345) a + S1x32x1x320.size a ≤ S1x32x200x320.size a)
instance k0_chk44.dec : ∀ (v345 : BitVec 32), Decidable (k0_chk44 v345) := fun v345 => decidable_of_iff' _ (Iff.of_eq (k0_chk44.eq_1 v345))
theorem k0_off89_inb : ∀ (v345 : BitVec 32) (k0_hw44 : k0_chk44 v345), ∀ a, (k0_off89 v345) a + S1x32x1x320.size a ≤ S1x32x200x320.size a := fun v345 k0_hw44 => k0_hw44

def k0_off90 (i : grid0.Coords) : Fin 2 → Nat :=
  let arg0 : BitVec 32 := BitVec.ofNat 32 (i 0).val
  let v352 : Index := Scalar.indexCast arg0
  let c44 : Index := 44#32
  ![v352.toNat, 44]
def k0_off91 (v353 : BitVec 32) : Fin 4 → Nat :=
  let c0_264 : Index := 0#32
  let c0_265 : Index := 0#32
  let v354 : Index := Scalar.indexCast v353
  let c0_266 : Index := 0#32
  ![0, 0, v354.toNat, 0]

def k0_chk45 (v353 : BitVec 32) : Prop :=
  (∀ a, (k0_off91 v353) a + S1x32x1x320.size a ≤ S1x32x200x320.size a)
instance k0_chk45.dec : ∀ (v353 : BitVec 32), Decidable (k0_chk45 v353) := fun v353 => decidable_of_iff' _ (Iff.of_eq (k0_chk45.eq_1 v353))
theorem k0_off91_inb : ∀ (v353 : BitVec 32) (k0_hw45 : k0_chk45 v353), ∀ a, (k0_off91 v353) a + S1x32x1x320.size a ≤ S1x32x200x320.size a := fun v353 k0_hw45 => k0_hw45

def k0_off92 (i : grid0.Coords) : Fin 2 → Nat :=
  let arg0 : BitVec 32 := BitVec.ofNat 32 (i 0).val
  let v360 : Index := Scalar.indexCast arg0
  let c45 : Index := 45#32
  ![v360.toNat, 45]
def k0_off93 (v361 : BitVec 32) : Fin 4 → Nat :=
  let c0_270 : Index := 0#32
  let c0_271 : Index := 0#32
  let v362 : Index := Scalar.indexCast v361
  let c0_272 : Index := 0#32
  ![0, 0, v362.toNat, 0]

def k0_chk46 (v361 : BitVec 32) : Prop :=
  (∀ a, (k0_off93 v361) a + S1x32x1x320.size a ≤ S1x32x200x320.size a)
instance k0_chk46.dec : ∀ (v361 : BitVec 32), Decidable (k0_chk46 v361) := fun v361 => decidable_of_iff' _ (Iff.of_eq (k0_chk46.eq_1 v361))
theorem k0_off93_inb : ∀ (v361 : BitVec 32) (k0_hw46 : k0_chk46 v361), ∀ a, (k0_off93 v361) a + S1x32x1x320.size a ≤ S1x32x200x320.size a := fun v361 k0_hw46 => k0_hw46

def k0_off94 (i : grid0.Coords) : Fin 2 → Nat :=
  let arg0 : BitVec 32 := BitVec.ofNat 32 (i 0).val
  let v368 : Index := Scalar.indexCast arg0
  let c46 : Index := 46#32
  ![v368.toNat, 46]
def k0_off95 (v369 : BitVec 32) : Fin 4 → Nat :=
  let c0_276 : Index := 0#32
  let c0_277 : Index := 0#32
  let v370 : Index := Scalar.indexCast v369
  let c0_278 : Index := 0#32
  ![0, 0, v370.toNat, 0]

def k0_chk47 (v369 : BitVec 32) : Prop :=
  (∀ a, (k0_off95 v369) a + S1x32x1x320.size a ≤ S1x32x200x320.size a)
instance k0_chk47.dec : ∀ (v369 : BitVec 32), Decidable (k0_chk47 v369) := fun v369 => decidable_of_iff' _ (Iff.of_eq (k0_chk47.eq_1 v369))
theorem k0_off95_inb : ∀ (v369 : BitVec 32) (k0_hw47 : k0_chk47 v369), ∀ a, (k0_off95 v369) a + S1x32x1x320.size a ≤ S1x32x200x320.size a := fun v369 k0_hw47 => k0_hw47

def k0_off96 (i : grid0.Coords) : Fin 2 → Nat :=
  let arg0 : BitVec 32 := BitVec.ofNat 32 (i 0).val
  let v376 : Index := Scalar.indexCast arg0
  let c47 : Index := 47#32
  ![v376.toNat, 47]
def k0_off97 (v377 : BitVec 32) : Fin 4 → Nat :=
  let c0_282 : Index := 0#32
  let c0_283 : Index := 0#32
  let v378 : Index := Scalar.indexCast v377
  let c0_284 : Index := 0#32
  ![0, 0, v378.toNat, 0]

def k0_chk48 (v377 : BitVec 32) : Prop :=
  (∀ a, (k0_off97 v377) a + S1x32x1x320.size a ≤ S1x32x200x320.size a)
instance k0_chk48.dec : ∀ (v377 : BitVec 32), Decidable (k0_chk48 v377) := fun v377 => decidable_of_iff' _ (Iff.of_eq (k0_chk48.eq_1 v377))
theorem k0_off97_inb : ∀ (v377 : BitVec 32) (k0_hw48 : k0_chk48 v377), ∀ a, (k0_off97 v377) a + S1x32x1x320.size a ≤ S1x32x200x320.size a := fun v377 k0_hw48 => k0_hw48

def k0_off98 (i : grid0.Coords) : Fin 2 → Nat :=
  let arg0 : BitVec 32 := BitVec.ofNat 32 (i 0).val
  let v384 : Index := Scalar.indexCast arg0
  let c0_288 : Index := 0#32
  ![v384.toNat, 0]
def cc0_transform_0 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, arg1.toNat, c0_i32.toNat, c0_i32_0.toNat]

abbrev stage0_0 : Fin 2 → Memref sig .tc .vmem S1x32x200x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x320 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x48x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S256x4_S256x1_0_0 : S256x4.Slices ![0, 0] S256x1
  shapeCasts_S256x1_S256 : S256x1.ShapeCasts S256
  bcast_S_S256 : S_.BroadcastsInDim S256 (![] : Fin 0 → Fin S256.rank)
  slices_S256x4_S256x1_0_1 : S256x4.Slices ![0, 1] S256x1
  slices_S256x4_S256x1_0_2 : S256x4.Slices ![0, 2] S256x1
  slices_S256x4_S256x1_0_3 : S256x4.Slices ![0, 3] S256x1
  bcast_S256_S256x1_0 : S256.BroadcastsInDim S256x1 (![0] : Fin 1 → Fin S256x1.rank)
  bcast_S48_S1x48_1 : S48.BroadcastsInDim S1x48 (![1] : Fin 1 → Fin S1x48.rank)
  bcast_S1x48_S256x48_0_1 : S1x48.BroadcastsInDim S256x48 (![0, 1] : Fin 2 → Fin S256x48.rank)
  bcast_S256x1_S256x48_0_1 : S256x1.BroadcastsInDim S256x48 (![0, 1] : Fin 2 → Fin S256x48.rank)
  bcast_S_S256x48 : S_.BroadcastsInDim S256x48 (![] : Fin 0 → Fin S256x48.rank)
  bcast_S320_S1x320_1 : S320.BroadcastsInDim S1x320 (![1] : Fin 1 → Fin S1x320.rank)
  bcast_S1x320_S256x320_0_1 : S1x320.BroadcastsInDim S256x320 (![0, 1] : Fin 2 → Fin S256x320.rank)
  bcast_S256x1_S256x320_0_1 : S256x1.BroadcastsInDim S256x320 (![0, 1] : Fin 2 → Fin S256x320.rank)
  bcast_S_S256x320 : S_.BroadcastsInDim S256x320 (![] : Fin 0 → Fin S256x320.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  h_S_ : 0 < S_.numel
  bcast_S256_S256x48_0 : S256.BroadcastsInDim S256x48 (![0] : Fin 1 → Fin S256x48.rank)
  bcast_S256_S256x320_0 : S256.BroadcastsInDim S256x320 (![0] : Fin 1 → Fin S256x320.rank)
  numel1_S1 : S1.numel = 1
  numel1_S1x1 : S1x1.numel = 1
  h_S1x32x1x320 : 0 < S1x32x1x320.numel
  shapeCasts_S1x32x1x320_S32x1x320 : S1x32x1x320.ShapeCasts S32x1x320
  inb_S32x48x320_S32x1x320_0_0_0 : ∀ a, (![0, 0, 0] : Fin 3 → Nat) a + S32x1x320.size a ≤ S32x48x320.size a
  h_S32x1x320 : 0 < S32x1x320.numel
  shapeCasts_S32x1x320_S32x1x320 : S32x1x320.ShapeCasts S32x1x320
  inb_S32x48x320_S32x1x320_0_1_0 : ∀ a, (![0, 1, 0] : Fin 3 → Nat) a + S32x1x320.size a ≤ S32x48x320.size a
  inb_S32x48x320_S32x1x320_0_2_0 : ∀ a, (![0, 2, 0] : Fin 3 → Nat) a + S32x1x320.size a ≤ S32x48x320.size a
  inb_S32x48x320_S32x1x320_0_3_0 : ∀ a, (![0, 3, 0] : Fin 3 → Nat) a + S32x1x320.size a ≤ S32x48x320.size a
  inb_S32x48x320_S32x1x320_0_4_0 : ∀ a, (![0, 4, 0] : Fin 3 → Nat) a + S32x1x320.size a ≤ S32x48x320.size a
  inb_S32x48x320_S32x1x320_0_5_0 : ∀ a, (![0, 5, 0] : Fin 3 → Nat) a + S32x1x320.size a ≤ S32x48x320.size a
  inb_S32x48x320_S32x1x320_0_6_0 : ∀ a, (![0, 6, 0] : Fin 3 → Nat) a + S32x1x320.size a ≤ S32x48x320.size a
  inb_S32x48x320_S32x1x320_0_7_0 : ∀ a, (![0, 7, 0] : Fin 3 → Nat) a + S32x1x320.size a ≤ S32x48x320.size a
  inb_S32x48x320_S32x1x320_0_8_0 : ∀ a, (![0, 8, 0] : Fin 3 → Nat) a + S32x1x320.size a ≤ S32x48x320.size a
  inb_S32x48x320_S32x1x320_0_9_0 : ∀ a, (![0, 9, 0] : Fin 3 → Nat) a + S32x1x320.size a ≤ S32x48x320.size a
  inb_S32x48x320_S32x1x320_0_10_0 : ∀ a, (![0, 10, 0] : Fin 3 → Nat) a + S32x1x320.size a ≤ S32x48x320.size a
  inb_S32x48x320_S32x1x320_0_11_0 : ∀ a, (![0, 11, 0] : Fin 3 → Nat) a + S32x1x320.size a ≤ S32x48x320.size a
  inb_S32x48x320_S32x1x320_0_12_0 : ∀ a, (![0, 12, 0] : Fin 3 → Nat) a + S32x1x320.size a ≤ S32x48x320.size a
  inb_S32x48x320_S32x1x320_0_13_0 : ∀ a, (![0, 13, 0] : Fin 3 → Nat) a + S32x1x320.size a ≤ S32x48x320.size a
  inb_S32x48x320_S32x1x320_0_14_0 : ∀ a, (![0, 14, 0] : Fin 3 → Nat) a + S32x1x320.size a ≤ S32x48x320.size a
  inb_S32x48x320_S32x1x320_0_15_0 : ∀ a, (![0, 15, 0] : Fin 3 → Nat) a + S32x1x320.size a ≤ S32x48x320.size a
  inb_S32x48x320_S32x1x320_0_16_0 : ∀ a, (![0, 16, 0] : Fin 3 → Nat) a + S32x1x320.size a ≤ S32x48x320.size a
  inb_S32x48x320_S32x1x320_0_17_0 : ∀ a, (![0, 17, 0] : Fin 3 → Nat) a + S32x1x320.size a ≤ S32x48x320.size a
  inb_S32x48x320_S32x1x320_0_18_0 : ∀ a, (![0, 18, 0] : Fin 3 → Nat) a + S32x1x320.size a ≤ S32x48x320.size a
  inb_S32x48x320_S32x1x320_0_19_0 : ∀ a, (![0, 19, 0] : Fin 3 → Nat) a + S32x1x320.size a ≤ S32x48x320.size a
  inb_S32x48x320_S32x1x320_0_20_0 : ∀ a, (![0, 20, 0] : Fin 3 → Nat) a + S32x1x320.size a ≤ S32x48x320.size a
  inb_S32x48x320_S32x1x320_0_21_0 : ∀ a, (![0, 21, 0] : Fin 3 → Nat) a + S32x1x320.size a ≤ S32x48x320.size a
  inb_S32x48x320_S32x1x320_0_22_0 : ∀ a, (![0, 22, 0] : Fin 3 → Nat) a + S32x1x320.size a ≤ S32x48x320.size a
  inb_S32x48x320_S32x1x320_0_23_0 : ∀ a, (![0, 23, 0] : Fin 3 → Nat) a + S32x1x320.size a ≤ S32x48x320.size a
  inb_S32x48x320_S32x1x320_0_24_0 : ∀ a, (![0, 24, 0] : Fin 3 → Nat) a + S32x1x320.size a ≤ S32x48x320.size a
  inb_S32x48x320_S32x1x320_0_25_0 : ∀ a, (![0, 25, 0] : Fin 3 → Nat) a + S32x1x320.size a ≤ S32x48x320.size a
  inb_S32x48x320_S32x1x320_0_26_0 : ∀ a, (![0, 26, 0] : Fin 3 → Nat) a + S32x1x320.size a ≤ S32x48x320.size a
  inb_S32x48x320_S32x1x320_0_27_0 : ∀ a, (![0, 27, 0] : Fin 3 → Nat) a + S32x1x320.size a ≤ S32x48x320.size a
  inb_S32x48x320_S32x1x320_0_28_0 : ∀ a, (![0, 28, 0] : Fin 3 → Nat) a + S32x1x320.size a ≤ S32x48x320.size a
  inb_S32x48x320_S32x1x320_0_29_0 : ∀ a, (![0, 29, 0] : Fin 3 → Nat) a + S32x1x320.size a ≤ S32x48x320.size a
  inb_S32x48x320_S32x1x320_0_30_0 : ∀ a, (![0, 30, 0] : Fin 3 → Nat) a + S32x1x320.size a ≤ S32x48x320.size a
  inb_S32x48x320_S32x1x320_0_31_0 : ∀ a, (![0, 31, 0] : Fin 3 → Nat) a + S32x1x320.size a ≤ S32x48x320.size a
  inb_S32x48x320_S32x1x320_0_32_0 : ∀ a, (![0, 32, 0] : Fin 3 → Nat) a + S32x1x320.size a ≤ S32x48x320.size a
  inb_S32x48x320_S32x1x320_0_33_0 : ∀ a, (![0, 33, 0] : Fin 3 → Nat) a + S32x1x320.size a ≤ S32x48x320.size a
  inb_S32x48x320_S32x1x320_0_34_0 : ∀ a, (![0, 34, 0] : Fin 3 → Nat) a + S32x1x320.size a ≤ S32x48x320.size a
  inb_S32x48x320_S32x1x320_0_35_0 : ∀ a, (![0, 35, 0] : Fin 3 → Nat) a + S32x1x320.size a ≤ S32x48x320.size a
  inb_S32x48x320_S32x1x320_0_36_0 : ∀ a, (![0, 36, 0] : Fin 3 → Nat) a + S32x1x320.size a ≤ S32x48x320.size a
  inb_S32x48x320_S32x1x320_0_37_0 : ∀ a, (![0, 37, 0] : Fin 3 → Nat) a + S32x1x320.size a ≤ S32x48x320.size a
  inb_S32x48x320_S32x1x320_0_38_0 : ∀ a, (![0, 38, 0] : Fin 3 → Nat) a + S32x1x320.size a ≤ S32x48x320.size a
  inb_S32x48x320_S32x1x320_0_39_0 : ∀ a, (![0, 39, 0] : Fin 3 → Nat) a + S32x1x320.size a ≤ S32x48x320.size a
  inb_S32x48x320_S32x1x320_0_40_0 : ∀ a, (![0, 40, 0] : Fin 3 → Nat) a + S32x1x320.size a ≤ S32x48x320.size a
  inb_S32x48x320_S32x1x320_0_41_0 : ∀ a, (![0, 41, 0] : Fin 3 → Nat) a + S32x1x320.size a ≤ S32x48x320.size a
  inb_S32x48x320_S32x1x320_0_42_0 : ∀ a, (![0, 42, 0] : Fin 3 → Nat) a + S32x1x320.size a ≤ S32x48x320.size a
  inb_S32x48x320_S32x1x320_0_43_0 : ∀ a, (![0, 43, 0] : Fin 3 → Nat) a + S32x1x320.size a ≤ S32x48x320.size a
  inb_S32x48x320_S32x1x320_0_44_0 : ∀ a, (![0, 44, 0] : Fin 3 → Nat) a + S32x1x320.size a ≤ S32x48x320.size a
  inb_S32x48x320_S32x1x320_0_45_0 : ∀ a, (![0, 45, 0] : Fin 3 → Nat) a + S32x1x320.size a ≤ S32x48x320.size a
  inb_S32x48x320_S32x1x320_0_46_0 : ∀ a, (![0, 46, 0] : Fin 3 → Nat) a + S32x1x320.size a ≤ S32x48x320.size a
  inb_S32x48x320_S32x1x320_0_47_0 : ∀ a, (![0, 47, 0] : Fin 3 → Nat) a + S32x1x320.size a ≤ S32x48x320.size a
  h_S1x320 : 0 < S1x320.numel
  shapeCasts_S1x320_S320 : S1x320.ShapeCasts S320
  iota_S320x320_d0_w32 : S320x320.Iotas .tc 32 [0]
  shapeCasts_S320_S1x320 : S320.ShapeCasts S1x320
  broadcasts_S1x320_S320x320 : S1x320.Broadcasts S320x320
  natLt_1_32 : 1 < 32
  inb_S32x48x320_S32x48x320_0_0_0 : ∀ a, (![0, 0, 0] : Fin 3 → Nat) a + S32x48x320.size a ≤ S32x48x320.size a
  h_S32x48x320 : 0 < S32x48x320.numel
  shapeCasts_S32x48x320_S1536x320 : S32x48x320.ShapeCasts S1536x320
  shapeCasts_S1536x320_S32x48x320 : S1536x320.ShapeCasts S32x48x320
  inb_S1x32x48x320_S1x32x48x320_0_0_0_0 : ∀ a, (![0, 0, 0, 0] : Fin 4 → Nat) a + S1x32x48x320.size a ≤ S1x32x48x320.size a
  h_S1x32x48x320 : 0 < S1x32x48x320.numel
  shapeCasts_S1x32x48x320_S32x48x320 : S1x32x48x320.ShapeCasts S32x48x320
  shapeCasts_S32x48x320_S1x32x48x320 : S32x48x320.ShapeCasts S1x32x48x320
  gather_S256_S256x1_S256_n_0_n_n_0_1_1_wf : GatherDims.WF S256 S256x1 S256 [] [0] [] [0] [] 1 ![1]
  gather_S256x48_S256x1_S256x48_1_0_n_n_0_1_148_wf : GatherDims.WF S256x48 S256x1 S256x48 [1] [0] [] [0] [] 1 ![1, 48]
  gather_S256x320_S256x1_S256x320_1_0_n_n_0_1_1320_wf : GatherDims.WF S256x320 S256x1 S256x320 [1] [0] [] [0] [] 1 ![1, 320]
  dot_S1536x320_S320x320_S1536x320_1_0_0_1_n_n_wf : DotDims.WF S1536x320 S320x320 S1536x320 [1] [0] [0] [1] [] []
  hrank0 : 0 < grid0.rank
  k0_off1_inb : ∀ i : grid0.Coords, ∀ a, (k0_off1 i) a + S1.size a ≤ S256.size a
  k0_off2_inb : ∀ i : grid0.Coords, ∀ a, (k0_off2 i) a + S1x1.size a ≤ S256x48.size a
  k0_off4_inb : ∀ i : grid0.Coords, ∀ a, (k0_off4 i) a + S1x1.size a ≤ S256x48.size a
  k0_off6_inb : ∀ i : grid0.Coords, ∀ a, (k0_off6 i) a + S1x1.size a ≤ S256x48.size a
  k0_off8_inb : ∀ i : grid0.Coords, ∀ a, (k0_off8 i) a + S1x1.size a ≤ S256x48.size a
  k0_off10_inb : ∀ i : grid0.Coords, ∀ a, (k0_off10 i) a + S1x1.size a ≤ S256x48.size a
  k0_off12_inb : ∀ i : grid0.Coords, ∀ a, (k0_off12 i) a + S1x1.size a ≤ S256x48.size a
  k0_off14_inb : ∀ i : grid0.Coords, ∀ a, (k0_off14 i) a + S1x1.size a ≤ S256x48.size a
  k0_off16_inb : ∀ i : grid0.Coords, ∀ a, (k0_off16 i) a + S1x1.size a ≤ S256x48.size a
  k0_off18_inb : ∀ i : grid0.Coords, ∀ a, (k0_off18 i) a + S1x1.size a ≤ S256x48.size a
  k0_off20_inb : ∀ i : grid0.Coords, ∀ a, (k0_off20 i) a + S1x1.size a ≤ S256x48.size a
  k0_off22_inb : ∀ i : grid0.Coords, ∀ a, (k0_off22 i) a + S1x1.size a ≤ S256x48.size a
  k0_off24_inb : ∀ i : grid0.Coords, ∀ a, (k0_off24 i) a + S1x1.size a ≤ S256x48.size a
  k0_off26_inb : ∀ i : grid0.Coords, ∀ a, (k0_off26 i) a + S1x1.size a ≤ S256x48.size a
  k0_off28_inb : ∀ i : grid0.Coords, ∀ a, (k0_off28 i) a + S1x1.size a ≤ S256x48.size a
  k0_off30_inb : ∀ i : grid0.Coords, ∀ a, (k0_off30 i) a + S1x1.size a ≤ S256x48.size a
  k0_off32_inb : ∀ i : grid0.Coords, ∀ a, (k0_off32 i) a + S1x1.size a ≤ S256x48.size a
  k0_off34_inb : ∀ i : grid0.Coords, ∀ a, (k0_off34 i) a + S1x1.size a ≤ S256x48.size a
  k0_off36_inb : ∀ i : grid0.Coords, ∀ a, (k0_off36 i) a + S1x1.size a ≤ S256x48.size a
  k0_off38_inb : ∀ i : grid0.Coords, ∀ a, (k0_off38 i) a + S1x1.size a ≤ S256x48.size a
  k0_off40_inb : ∀ i : grid0.Coords, ∀ a, (k0_off40 i) a + S1x1.size a ≤ S256x48.size a
  k0_off42_inb : ∀ i : grid0.Coords, ∀ a, (k0_off42 i) a + S1x1.size a ≤ S256x48.size a
  k0_off44_inb : ∀ i : grid0.Coords, ∀ a, (k0_off44 i) a + S1x1.size a ≤ S256x48.size a
  k0_off46_inb : ∀ i : grid0.Coords, ∀ a, (k0_off46 i) a + S1x1.size a ≤ S256x48.size a
  k0_off48_inb : ∀ i : grid0.Coords, ∀ a, (k0_off48 i) a + S1x1.size a ≤ S256x48.size a
  k0_off50_inb : ∀ i : grid0.Coords, ∀ a, (k0_off50 i) a + S1x1.size a ≤ S256x48.size a
  k0_off52_inb : ∀ i : grid0.Coords, ∀ a, (k0_off52 i) a + S1x1.size a ≤ S256x48.size a
  k0_off54_inb : ∀ i : grid0.Coords, ∀ a, (k0_off54 i) a + S1x1.size a ≤ S256x48.size a
  k0_off56_inb : ∀ i : grid0.Coords, ∀ a, (k0_off56 i) a + S1x1.size a ≤ S256x48.size a
  k0_off58_inb : ∀ i : grid0.Coords, ∀ a, (k0_off58 i) a + S1x1.size a ≤ S256x48.size a
  k0_off60_inb : ∀ i : grid0.Coords, ∀ a, (k0_off60 i) a + S1x1.size a ≤ S256x48.size a
  k0_off62_inb : ∀ i : grid0.Coords, ∀ a, (k0_off62 i) a + S1x1.size a ≤ S256x48.size a
  k0_off64_inb : ∀ i : grid0.Coords, ∀ a, (k0_off64 i) a + S1x1.size a ≤ S256x48.size a
  k0_off66_inb : ∀ i : grid0.Coords, ∀ a, (k0_off66 i) a + S1x1.size a ≤ S256x48.size a
  k0_off68_inb : ∀ i : grid0.Coords, ∀ a, (k0_off68 i) a + S1x1.size a ≤ S256x48.size a
  k0_off70_inb : ∀ i : grid0.Coords, ∀ a, (k0_off70 i) a + S1x1.size a ≤ S256x48.size a
  k0_off72_inb : ∀ i : grid0.Coords, ∀ a, (k0_off72 i) a + S1x1.size a ≤ S256x48.size a
  k0_off74_inb : ∀ i : grid0.Coords, ∀ a, (k0_off74 i) a + S1x1.size a ≤ S256x48.size a
  k0_off76_inb : ∀ i : grid0.Coords, ∀ a, (k0_off76 i) a + S1x1.size a ≤ S256x48.size a
  k0_off78_inb : ∀ i : grid0.Coords, ∀ a, (k0_off78 i) a + S1x1.size a ≤ S256x48.size a
  k0_off80_inb : ∀ i : grid0.Coords, ∀ a, (k0_off80 i) a + S1x1.size a ≤ S256x48.size a
  k0_off82_inb : ∀ i : grid0.Coords, ∀ a, (k0_off82 i) a + S1x1.size a ≤ S256x48.size a
  k0_off84_inb : ∀ i : grid0.Coords, ∀ a, (k0_off84 i) a + S1x1.size a ≤ S256x48.size a
  k0_off86_inb : ∀ i : grid0.Coords, ∀ a, (k0_off86 i) a + S1x1.size a ≤ S256x48.size a
  k0_off88_inb : ∀ i : grid0.Coords, ∀ a, (k0_off88 i) a + S1x1.size a ≤ S256x48.size a
  k0_off90_inb : ∀ i : grid0.Coords, ∀ a, (k0_off90 i) a + S1x1.size a ≤ S256x48.size a
  k0_off92_inb : ∀ i : grid0.Coords, ∀ a, (k0_off92 i) a + S1x1.size a ≤ S256x48.size a
  k0_off94_inb : ∀ i : grid0.Coords, ∀ a, (k0_off94 i) a + S1x1.size a ≤ S256x48.size a
  k0_off96_inb : ∀ i : grid0.Coords, ∀ a, (k0_off96 i) a + S1x1.size a ≤ S256x48.size a
  k0_off98_inb : ∀ i : grid0.Coords, ∀ a, (k0_off98 i) a + S1x320.size a ≤ S256x320.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x320.size a ≤ S256x320.size a
  hwx0_1 : ∀ i : grid0.Coords, EltTy.bits .i32 = 32 ∨ (Rect.block (s := S256x320) S256x320.size (cc0_transform_1 i) (hinb0_1 i)).WholeWords (EltTy.packing .i32)
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S256_S256x1_S256_n_0_n_n_0_1_1 : GatherDims S256 S256x1 S256 where
  offsetDims := []
  collapsedSliceDims := [0]
  operandBatchingDims := []
  startIndicesBatchingDims := []
  startIndexMap := [0]
  indexVectorDim := 1
  sliceSizes := ![1]
  wf := gather_S256_S256x1_S256_n_0_n_n_0_1_1_wf
def gather_S256x48_S256x1_S256x48_1_0_n_n_0_1_148 : GatherDims S256x48 S256x1 S256x48 where
  offsetDims := [1]
  collapsedSliceDims := [0]
  operandBatchingDims := []
  startIndicesBatchingDims := []
  startIndexMap := [0]
  indexVectorDim := 1
  sliceSizes := ![1, 48]
  wf := gather_S256x48_S256x1_S256x48_1_0_n_n_0_1_148_wf
def gather_S256x320_S256x1_S256x320_1_0_n_n_0_1_1320 : GatherDims S256x320 S256x1 S256x320 where
  offsetDims := [1]
  collapsedSliceDims := [0]
  operandBatchingDims := []
  startIndicesBatchingDims := []
  startIndexMap := [0]
  indexVectorDim := 1
  sliceSizes := ![1, 320]
  wf := gather_S256x320_S256x1_S256x320_1_0_n_n_0_1_1320_wf
def dot_S1536x320_S320x320_S1536x320_1_0_0_1_n_n : DotDims S1536x320 S320x320 S1536x320 where
  lhsContracting := [1]
  rhsContracting := [0]
  lhsNonContracting := [0]
  rhsNonContracting := [1]
  lhsBatch := []
  rhsBatch := []
  wf := dot_S1536x320_S320x320_S1536x320_1_0_0_1_n_n_wf

abbrev spec0_0 : Pipeline.WinSpec sig grid0.rank :=
  Pipeline.WinSpec.ofSpec (Memref.whole main_arg0) S1x32x200x320.size reads0_0 false false 2 stage0_0 sem0_0 nbuf0_0 hstage0_0

abbrev spec0_1 : Pipeline.WinSpec sig grid0.rank :=
  Pipeline.WinSpec.ofSpec (Memref.whole main_v50) S256x320.size reads0_1 false true 1 stage0_1 sem0_1 nbuf0_1 hstage0_1

abbrev spec0_2 : Pipeline.WinSpec sig grid0.rank :=
  Pipeline.WinSpec.ofSpec (Memref.whole main_v51) S1x32x48x320.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 | 2 => cc0_transform_2 k0_off1_inb numel1_S1 pf | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 pf | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x32x200x320.size a ≤ S8x64x200x320.size a), EltTy.bits .f32 = 32 ∨ (Rect.block (s := S8x64x200x320) S1x32x200x320.size (cc0_transform_0 k0_off1_inb numel1_S1 pf i) h).WholeWords (EltTy.packing .f32)) ∧
  (∀ i : grid0.Coords, ∃ h : (∀ a, (cc0_transform_2 k0_off1_inb numel1_S1 pf i a + 1) * S1x32x48x320.size a ≤ S256x64x48x320.size a), EltTy.bits .f32 = 32 ∨ (Rect.block (s := S256x64x48x320) S1x32x48x320.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => hinb0_1 | 2 => fun i a => (hok.2 i).elim fun h _ => h a | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => hwx0_1 | 2 => fun i => (hok.2 i).elim fun _ h => h | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x64x200x320 : Shape := ⟨4, ![8, 64, 200, 320]⟩
abbrev S256x4 : Shape := ⟨2, ![256, 4]⟩
abbrev S256 : Shape := ⟨1, ![256]⟩
abbrev S256x1 : Shape := ⟨2, ![256, 1]⟩
abbrev S_ : Shape := ⟨0, ![]⟩
abbrev S48 : Shape := ⟨1, ![48]⟩
abbrev S320 : Shape := ⟨1, ![320]⟩
abbrev S1x48 : Shape := ⟨2, ![1, 48]⟩
abbrev S256x48 : Shape := ⟨2, ![256, 48]⟩
abbrev S1x320 : Shape := ⟨2, ![1, 320]⟩
abbrev S256x320 : Shape := ⟨2, ![256, 320]⟩
abbrev S256x1x1 : Shape := ⟨3, ![256, 1, 1]⟩
abbrev S256x48x1 : Shape := ⟨3, ![256, 48, 1]⟩
abbrev S256x1x320 : Shape := ⟨3, ![256, 1, 320]⟩
abbrev S256x48x320 : Shape := ⟨3, ![256, 48, 320]⟩
abbrev S256x48x320x1 : Shape := ⟨4, ![256, 48, 320, 1]⟩
abbrev S256x48x320x3 : Shape := ⟨4, ![256, 48, 320, 3]⟩
abbrev S256x48x320x64 : Shape := ⟨4, ![256, 48, 320, 64]⟩
abbrev S256x64x48x320 : Shape := ⟨4, ![256, 64, 48, 320]⟩

abbrev nBuf : Space → Nat
  | .hbm => 140
  | .vmem => 0
  | .smem => 0
  | _ => 0

abbrev hbmTy0_0 (i : Nat) : BufTy := match i % 128 with
  | 0 => ⟨S8x64x200x320, .f32⟩
  | 1 => ⟨S256x4, .i32⟩
  | 2 => ⟨S256, .i32⟩
  | 3 => ⟨S256x1, .i32⟩
  | 4 => ⟨S256, .i32⟩
  | 5 => ⟨S_, .i32⟩
  | 6 => ⟨S_, .i32⟩
  | 7 => ⟨S_, .i32⟩
  | 8 => ⟨S256, .i32⟩
  | 9 => ⟨S256, .i32⟩
  | 10 => ⟨S_, .i32⟩
  | 11 => ⟨S256, .i32⟩
  | 12 => ⟨S256, .i32⟩
  | 13 => ⟨S256x1, .i32⟩
  | 14 => ⟨S256, .i32⟩
  | 15 => ⟨S_, .i32⟩
  | 16 => ⟨S_, .i32⟩
  | 17 => ⟨S_, .i32⟩
  | 18 => ⟨S256, .i32⟩
  | 19 => ⟨S256, .i32⟩
  | 20 => ⟨S_, .i32⟩
  | 21 => ⟨S256, .i32⟩
  | 22 => ⟨S256, .i32⟩
  | 23 => ⟨S256x1, .i32⟩
  | 24 => ⟨S256, .i32⟩
  | 25 => ⟨S_, .i32⟩
  | 26 => ⟨S_, .i32⟩
  | 27 => ⟨S_, .i32⟩
  | 28 => ⟨S256, .i32⟩
  | 29 => ⟨S256, .i32⟩
  | 30 => ⟨S_, .i32⟩
  | 31 => ⟨S256, .i32⟩
  | 32 => ⟨S256, .i32⟩
  | 33 => ⟨S256x1, .i32⟩
  | 34 => ⟨S256, .i32⟩
  | 35 => ⟨S_, .i32⟩
  | 36 => ⟨S_, .i32⟩
  | 37 => ⟨S_, .i32⟩
  | 38 => ⟨S256, .i32⟩
  | 39 => ⟨S256, .i32⟩
  | 40 => ⟨S_, .i32⟩
  | 41 => ⟨S256, .i32⟩
  | 42 => ⟨S256, .i32⟩
  | 43 => ⟨S256, .i32⟩
  | 44 => ⟨S256, .i32⟩
  | 45 => ⟨S256, .i32⟩
  | 46 => ⟨S_, .i32⟩
  | 47 => ⟨S256, .i32⟩
  | 48 => ⟨S256, .i32⟩
  | 49 => ⟨S256, .i32⟩
  | 50 => ⟨S_, .i32⟩
  | 51 => ⟨S256, .i32⟩
  | 52 => ⟨S256, .i32⟩
  | 53 => ⟨S48, .i32⟩
  | 54 => ⟨S320, .i32⟩
  | 55 => ⟨S256x1, .i32⟩
  | 56 => ⟨S1x48, .i32⟩
  | 57 => ⟨S256x1, .i32⟩
  | 58 => ⟨S256x48, .i32⟩
  | 59 => ⟨S256x48, .i32⟩
  | 60 => ⟨S256x48, .i32⟩
  | 61 => ⟨S_, .i32⟩
  | 62 => ⟨S_, .i32⟩
  | 63 => ⟨S256x48, .i32⟩
  | 64 => ⟨S256x48, .i32⟩
  | 65 => ⟨S256x48, .i32⟩
  | 66 => ⟨S_, .i32⟩
  | 67 => ⟨S256x48, .i32⟩
  | 68 => ⟨S256x48, .i1⟩
  | 69 => ⟨S256x48, .i32⟩
  | 70 => ⟨S256x48, .i32⟩
  | 71 => ⟨S_, .i32⟩
  | 72 => ⟨S256x48, .i32⟩
  | 73 => ⟨S256x48, .i1⟩
  | 74 => ⟨S256x48, .i1⟩
  | 75 => ⟨S_, .i32⟩
  | 76 => ⟨S256x48, .i32⟩
  | 77 => ⟨S256x48, .i32⟩
  | 78 => ⟨S256x48, .i32⟩
  | 79 => ⟨S256x48, .i32⟩
  | 80 => ⟨S256x48, .i32⟩
  | 81 => ⟨S256x1, .i32⟩
  | 82 => ⟨S1x320, .i32⟩
  | 83 => ⟨S256x1, .i32⟩
  | 84 => ⟨S256x320, .i32⟩
  | 85 => ⟨S256x320, .i32⟩
  | 86 => ⟨S256x320, .i32⟩
  | 87 => ⟨S_, .i32⟩
  | 88 => ⟨S_, .i32⟩
  | 89 => ⟨S256x320, .i32⟩
  | 90 => ⟨S256x320, .i32⟩
  | 91 => ⟨S256x320, .i32⟩
  | 92 => ⟨S_, .i32⟩
  | 93 => ⟨S256x320, .i32⟩
  | 94 => ⟨S256x320, .i1⟩
  | 95 => ⟨S256x320, .i32⟩
  | 96 => ⟨S256x320, .i32⟩
  | 97 => ⟨S_, .i32⟩
  | 98 => ⟨S256x320, .i32⟩
  | 99 => ⟨S256x320, .i1⟩
  | 100 => ⟨S256x320, .i1⟩
  | 101 => ⟨S_, .i32⟩
  | 102 => ⟨S256x320, .i32⟩
  | 103 => ⟨S256x320, .i32⟩
  | 104 => ⟨S256x320, .i32⟩
  | 105 => ⟨S256x320, .i32⟩
  | 106 => ⟨S256x320, .i32⟩
  | 107 => ⟨S256x1x1, .i32⟩
  | 108 => ⟨S256x48x1, .i32⟩
  | 109 => ⟨S256x1x320, .i32⟩
  | 110 => ⟨S_, .i32⟩
  | 111 => ⟨S256x1x1, .i32⟩
  | 112 => ⟨S256x1x1, .i1⟩
  | 113 => ⟨S_, .i32⟩
  | 114 => ⟨S256x1x1, .i32⟩
  | 115 => ⟨S256x1x1, .i32⟩
  | 116 => ⟨S256x1x1, .i32⟩
  | 117 => ⟨S_, .i32⟩
  | 118 => ⟨S256x48x1, .i32⟩
  | 119 => ⟨S256x48x1, .i1⟩
  | 120 => ⟨S_, .i32⟩
  | 121 => ⟨S256x48x1, .i32⟩
  | 122 => ⟨S256x48x1, .i32⟩
  | 123 => ⟨S256x48x1, .i32⟩
  | 124 => ⟨S_, .i32⟩
  | 125 => ⟨S256x1x320, .i32⟩
  | 126 => ⟨S256x1x320, .i1⟩
  | 127 => ⟨S_, .i32⟩
  | _ => ⟨S8x64x200x320, .f32⟩

abbrev hbmTy0_1 (i : Nat) : BufTy := match i % 128 with
  | 0 => ⟨S256x1x320, .i32⟩
  | 1 => ⟨S256x1x320, .i32⟩
  | 2 => ⟨S256x1x320, .i32⟩
  | 3 => ⟨S256x48x320, .i32⟩
  | 4 => ⟨S256x48x320, .i32⟩
  | 5 => ⟨S256x48x320, .i32⟩
  | 6 => ⟨S256x48x320x1, .i32⟩
  | 7 => ⟨S256x48x320x1, .i32⟩
  | 8 => ⟨S256x48x320x1, .i32⟩
  | 9 => ⟨S256x48x320x3, .i32⟩
  | 10 => ⟨S256x48x320x64, .f32⟩
  | 11 => ⟨S256x64x48x320, .f32⟩
  | _ => ⟨S8x64x200x320, .f32⟩

abbrev hbmTy (i : Nat) : BufTy := match i / 128 with
  | 0 => hbmTy0_0 i
  | 1 => hbmTy0_1 i
  | _ => ⟨S8x64x200x320, .f32⟩

abbrev bufTy : (tb : Table) → Fin (tcTables nBuf tb) → BufTy
  | .hbm, ⟨i, _⟩ => hbmTy i
  | _, _ => ⟨S8x64x200x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_3 : Ref sig .tc := ⟨.hbm, 25, rfl⟩
abbrev main_c_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_5 : Ref sig .tc := ⟨.hbm, 35, rfl⟩
abbrev main_c_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_7 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_8 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_9 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_v5 : Ref sig .tc := ⟨.hbm, 67, rfl⟩
abbrev main_call4_v6 : Ref sig .tc := ⟨.hbm, 68, rfl⟩
abbrev main_call4_v7 : Ref sig .tc := ⟨.hbm, 69, rfl⟩
abbrev main_call4_v8 : Ref sig .tc := ⟨.hbm, 70, rfl⟩
abbrev main_call4_c : Ref sig .tc := ⟨.hbm, 71, rfl⟩
abbrev main_call4_v9 : Ref sig .tc := ⟨.hbm, 72, rfl⟩
abbrev main_call4_v10 : Ref sig .tc := ⟨.hbm, 73, rfl⟩
abbrev main_call4_v11 : Ref sig .tc := ⟨.hbm, 74, rfl⟩
abbrev main_call4_c_0 : Ref sig .tc := ⟨.hbm, 75, rfl⟩
abbrev main_call4_v12 : Ref sig .tc := ⟨.hbm, 76, rfl⟩
abbrev main_call4_v13 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_c_10 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_v6 : Ref sig .tc := ⟨.hbm, 94, rfl⟩
abbrev main_call5_v7 : Ref sig .tc := ⟨.hbm, 95, rfl⟩
abbrev main_call5_v8 : Ref sig .tc := ⟨.hbm, 96, rfl⟩
abbrev main_call5_c : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_0 : Ref sig .tc := ⟨.hbm, 101, rfl⟩
abbrev main_call5_v12 : Ref sig .tc := ⟨.hbm, 102, rfl⟩
abbrev main_call5_v13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_c_11 : Ref sig .tc := ⟨.hbm, 110, rfl⟩
abbrev main_v43 : Ref sig .tc := ⟨.hbm, 111, rfl⟩
abbrev main_v44 : Ref sig .tc := ⟨.hbm, 112, rfl⟩
abbrev main_c_12 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_c_13 : Ref sig .tc := ⟨.hbm, 117, rfl⟩
abbrev main_v48 : Ref sig .tc := ⟨.hbm, 118, rfl⟩
abbrev main_v49 : Ref sig .tc := ⟨.hbm, 119, rfl⟩
abbrev main_c_14 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_c_15 : Ref sig .tc := ⟨.hbm, 124, rfl⟩
abbrev main_v53 : Ref sig .tc := ⟨.hbm, 125, rfl⟩
abbrev main_v54 : Ref sig .tc := ⟨.hbm, 126, rfl⟩
abbrev main_c_16 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩

abbrev nD : Nat := 1
abbrev τ : Topo := Topo.v7x

variable {F : FTy → Type} [FloatOps F]

class Facts₀ : Prop where
  slices_S256x4_S256x1_0_0 : S256x4.Slices ![0, 0] S256x1
  shapeCasts_S256x1_S256 : S256x1.ShapeCasts S256
  bcast_S_S256 : S_.BroadcastsInDim S256 (![] : Fin 0 → Fin S256.rank)
  slices_S256x4_S256x1_0_1 : S256x4.Slices ![0, 1] S256x1
  slices_S256x4_S256x1_0_2 : S256x4.Slices ![0, 2] S256x1
  slices_S256x4_S256x1_0_3 : S256x4.Slices ![0, 3] S256x1
  bcast_S256_S256x1_0 : S256.BroadcastsInDim S256x1 (![0] : Fin 1 → Fin S256x1.rank)
  bcast_S48_S1x48_1 : S48.BroadcastsInDim S1x48 (![1] : Fin 1 → Fin S1x48.rank)
  bcast_S1x48_S256x48_0_1 : S1x48.BroadcastsInDim S256x48 (![0, 1] : Fin 2 → Fin S256x48.rank)
  bcast_S256x1_S256x48_0_1 : S256x1.BroadcastsInDim S256x48 (![0, 1] : Fin 2 → Fin S256x48.rank)
  bcast_S_S256x48 : S_.BroadcastsInDim S256x48 (![] : Fin 0 → Fin S256x48.rank)
  bcast_S320_S1x320_1 : S320.BroadcastsInDim S1x320 (![1] : Fin 1 → Fin S1x320.rank)
  bcast_S1x320_S256x320_0_1 : S1x320.BroadcastsInDim S256x320 (![0, 1] : Fin 2 → Fin S256x320.rank)
  bcast_S256x1_S256x320_0_1 : S256x1.BroadcastsInDim S256x320 (![0, 1] : Fin 2 → Fin S256x320.rank)
  bcast_S_S256x320 : S_.BroadcastsInDim S256x320 (![] : Fin 0 → Fin S256x320.rank)
  bcast_S256_S256x1x1_0 : S256.BroadcastsInDim S256x1x1 (![0] : Fin 1 → Fin S256x1x1.rank)
  bcast_S256x48_S256x48x1_0_1 : S256x48.BroadcastsInDim S256x48x1 (![0, 1] : Fin 2 → Fin S256x48x1.rank)
  bcast_S256x320_S256x1x320_0_2 : S256x320.BroadcastsInDim S256x1x320 (![0, 2] : Fin 2 → Fin S256x1x320.rank)
  bcast_S_S256x1x1 : S_.BroadcastsInDim S256x1x1 (![] : Fin 0 → Fin S256x1x1.rank)
  bcast_S_S256x48x1 : S_.BroadcastsInDim S256x48x1 (![] : Fin 0 → Fin S256x48x1.rank)
  bcast_S_S256x1x320 : S_.BroadcastsInDim S256x1x320 (![] : Fin 0 → Fin S256x1x320.rank)
  bcast_S256x1x1_S256x48x320_0_1_2 : S256x1x1.BroadcastsInDim S256x48x320 (![0, 1, 2] : Fin 3 → Fin S256x48x320.rank)
  bcast_S256x48x1_S256x48x320_0_1_2 : S256x48x1.BroadcastsInDim S256x48x320 (![0, 1, 2] : Fin 3 → Fin S256x48x320.rank)
  bcast_S256x1x320_S256x48x320_0_1_2 : S256x1x320.BroadcastsInDim S256x48x320 (![0, 1, 2] : Fin 3 → Fin S256x48x320.rank)
  bcast_S256x48x320_S256x48x320x1_0_1_2 : S256x48x320.BroadcastsInDim S256x48x320x1 (![0, 1, 2] : Fin 3 → Fin S256x48x320x1.rank)
  concatenates_S256x48x320x1_S256x48x320x1_S256x48x320x1_S256x48x320x3_d3 : Shape.Concatenates [S256x48x320x1, S256x48x320x1, S256x48x320x1] S256x48x320x3 3
  transposes_S256x48x320x64_S256x64x48x320_0_3_1_2 : S256x48x320x64.Transposes [0, 3, 1, 2] S256x64x48x320
  gather_S8x64x200x320_S256x48x320x3_S256x48x320x64_3_023_n_n_023_3_16411_wf : GatherDims.WF S8x64x200x320 S256x48x320x3 S256x48x320x64 [3] [0, 2, 3] [] [0, 2, 3] [] 3 ![1, 64, 1, 1]

variable [Facts₀]

def gather_S8x64x200x320_S256x48x320x3_S256x48x320x64_3_023_n_n_023_3_16411 : GatherDims S8x64x200x320 S256x48x320x3 S256x48x320x64 where
  offsetDims := [3]
  collapsedSliceDims := [0, 2, 3]
  operandBatchingDims := []
  startIndicesBatchingDims := []
  startIndexMap := [0, 2, 3]
  indexVectorDim := 3
  sliceSizes := ![1, 64, 1, 1]
  wf := gather_S8x64x200x320_S256x48x320x3_S256x48x320x64_3_023_n_n_023_3_16411_wf

class Facts : Prop extends Facts₀ where

variable [Facts]
-- ==== Proof.Spec.lean ====
/-
  The integer side of crop-and-resize, as one set of pure functions over 32-bit words, and the result as ONE function
  of the argument arrays.

  A box table row is (x0, y0, x1, y1). Each corner is clipped into the image (columns into [0, 319], rows into
  [0, 199]), the far corner is raised to the near one, and the crop has h = y1 − y0 + 1 lines and w = x1 − x0 + 1
  columns. Output line k of 48 takes source line y0 + ⌊k·h / 48⌋, output column j of 320 takes source column
  x0 + ⌊j·w / 320⌋ (nearest-neighbour resampling with the floor). Output box b is read from image box_img[b].

  The functions below spell these steps operation by operation, in the order and with the operands the two programs
  apply them, so that each program's host prefix is one of these terms. The kernel's program additionally clips the image
  index into [0, 7], sorts the boxes by it (a stable argsort: a permutation of the 256 boxes) and carries the tables
  through that permutation; `permW`, `imgSortedW`, `takeRowsW` are those steps.
-/
import Idealize.ShloMosaic.PureOps
import Idealize.ShloMosaic.PureOps.Ideal
import Idealize.ShloMosaic.Lib.ValueIdx

noncomputable section

namespace Cert.Crop

open Idealize.ShloMosaic Idealize.ShloMosaic.ValueIdx

abbrev S_ : Shape := ⟨0, ![]⟩
abbrev S1 : Shape := ⟨1, ![1]⟩
abbrev S48 : Shape := ⟨1, ![48]⟩
abbrev S256 : Shape := ⟨1, ![256]⟩
abbrev S320 : Shape := ⟨1, ![320]⟩
abbrev S1x1 : Shape := ⟨2, ![1, 1]⟩
abbrev S1x48 : Shape := ⟨2, ![1, 48]⟩
abbrev S1x320 : Shape := ⟨2, ![1, 320]⟩
abbrev S256x1 : Shape := ⟨2, ![256, 1]⟩
abbrev S256x4 : Shape := ⟨2, ![256, 4]⟩
abbrev S256x48 : Shape := ⟨2, ![256, 48]⟩
abbrev S256x320 : Shape := ⟨2, ![256, 320]⟩
abbrev S8x64x200x320 : Shape := ⟨4, ![8, 64, 200, 320]⟩
abbrev S256x64x48x320 : Shape := ⟨4, ![256, 64, 48, 320]⟩

/-! ## The shape relations the operations take -/

theorem sl0 : S256x4.Slices ![0, 0] S256x1 := by decide
theorem sl1 : S256x4.Slices ![0, 1] S256x1 := by decide
theorem sl2 : S256x4.Slices ![0, 2] S256x1 := by decide
theorem sl3 : S256x4.Slices ![0, 3] S256x1 := by decide
theorem sc256 : S256x1.ShapeCasts S256 := by decide
theorem b_256 : S_.BroadcastsInDim S256 (![] : Fin 0 → Fin S256.rank) := by decide
theorem b_256x1 : S_.BroadcastsInDim S256x1 (![] : Fin 0 → Fin S256x1.rank) := by decide
theorem b_256x48 : S_.BroadcastsInDim S256x48 (![] : Fin 0 → Fin S256x48.rank) := by decide
theorem b_256x320 : S_.BroadcastsInDim S256x320 (![] : Fin 0 → Fin S256x320.rank) := by decide
theorem b_col : S256.BroadcastsInDim S256x1 (![0] : Fin 1 → Fin S256x1.rank) := by decide
theorem b_row48 : S48.BroadcastsInDim S1x48 (![1] : Fin 1 → Fin S1x48.rank) := by decide
theorem b_row320 : S320.BroadcastsInDim S1x320 (![1] : Fin 1 → Fin S1x320.rank) := by decide
theorem b_row48_all : S1x48.BroadcastsInDim S256x48 (![0, 1] : Fin 2 → Fin S256x48.rank) := by decide
theorem b_row320_all : S1x320.BroadcastsInDim S256x320 (![0, 1] : Fin 2 → Fin S256x320.rank) := by decide
theorem b_col_48 : S256x1.BroadcastsInDim S256x48 (![0, 1] : Fin 2 → Fin S256x48.rank) := by decide
theorem b_col_320 : S256x1.BroadcastsInDim S256x320 (![0, 1] : Fin 2 → Fin S256x320.rank) := by decide
theorem b_1_1x1 : S1.BroadcastsInDim S1x1 (![1] : Fin 1 → Fin S1x1.rank) := by decide
theorem b_1x1_col : S1x1.BroadcastsInDim S256x1 (![0, 1] : Fin 2 → Fin S256x1.rank) := by decide
theorem b_256_48 : S256.BroadcastsInDim S256x48 (![0] : Fin 1 → Fin S256x48.rank) := by decide
theorem b_256_320 : S256.BroadcastsInDim S256x320 (![0] : Fin 1 → Fin S256x320.rank) := by decide
theorem red_col : S256x1.ReducesTo [1] S256 := by decide
theorem pos_S_ : 0 < S_.numel := by decide

/-! ## The corners, the extents, the source lines and columns -/

/-- A scalar word as a 256-vector. -/
def splat256 (v : BitVec 32) : IVec S256 32 := broadcastInDim S256 ![] b_256 (constantI S_ 32 v)

/-- jnp.clip(v, lo, hi), as both programs print it: min(hi, max(lo, v)), signed. -/
def clipW (lo hi : BitVec 32) (v : IVec S256 32) : IVec S256 32 :=
  minsi (broadcastInDim S256 ![] b_256 (id (constantI S_ 32 hi)))
    (maxsi (broadcastInDim S256 ![] b_256 (id (constantI S_ 32 lo))) v)

/-- Column `off 1` of the box table as a 256-vector. -/
def boxCol (bb : IVec S256x4 32) (off : Fin 2 → Nat) (h : S256x4.Slices off S256x1) : IVec S256 32 :=
  shapeCast S256 (extractStridedSlice S256x1 off bb h) sc256

def x0W (bb : IVec S256x4 32) : IVec S256 32 := clipW 0#32 319#32 (boxCol bb ![0, 0] sl0)
def y0W (bb : IVec S256x4 32) : IVec S256 32 := clipW 0#32 199#32 (boxCol bb ![0, 1] sl1)
/-- The far corner, clipped, then raised to the near corner. -/
def x1W (bb : IVec S256x4 32) : IVec S256 32 := maxsi (clipW 0#32 319#32 (boxCol bb ![0, 2] sl2)) (x0W bb)
def y1W (bb : IVec S256x4 32) : IVec S256 32 := maxsi (clipW 0#32 199#32 (boxCol bb ![0, 3] sl3)) (y0W bb)
/-- The crop's height and width, far − near + 1. -/
def hW (bb : IVec S256x4 32) : IVec S256 32 := addi (subi (y1W bb) (y0W bb)) (splat256 1#32)
def wW (bb : IVec S256x4 32) : IVec S256 32 := addi (subi (x1W bb) (x0W bb)) (splat256 1#32)

/-- jnp.floor_divide(v, d) on signed words, as printed: the truncated quotient, lowered by one where the signs of
    dividend and divisor differ and the remainder is not zero. -/
def floorDivW (S : Shape) (hb : S_.BroadcastsInDim S (![] : Fin 0 → Fin S.rank)) (v : IVec S 32) (d : BitVec 32) : IVec S 32 :=
  let d0 : IVec S_ 32 := id (constantI S_ 32 d)
  let q : IVec S 32 := Host.divsi v (broadcastInDim S ![] hb d0)
  let sgn : IVec S 1 := cmpi .ne (signi v) (broadcastInDim S ![] hb (signi d0))
  let r : IVec S 32 := Host.remsi v (broadcastInDim S ![] hb d0)
  let nz : IVec S 1 := cmpi .ne r (broadcastInDim S ![] hb (constantI S_ 32 0#32))
  select (andi sgn nz) (subi q (broadcastInDim S ![] hb (constantI S_ 32 1#32))) q

/-- rows[b, k] = y0[b] + ⌊k · h[b] / 48⌋. -/
def rowsW (bb : IVec S256x4 32) : IVec S256x48 32 :=
  addi (broadcastInDim S256x48 ![0, 1] b_col_48 (broadcastInDim S256x1 ![0] b_col (y0W bb)))
    (floorDivW S256x48 b_256x48
      (muli (broadcastInDim S256x48 ![0, 1] b_row48_all (broadcastInDim S1x48 ![1] b_row48 (iotaInDim S48 32 0)))
        (broadcastInDim S256x48 ![0, 1] b_col_48 (broadcastInDim S256x1 ![0] b_col (hW bb)))) 48#32)

/-- cols[b, j] = x0[b] + ⌊j · w[b] / 320⌋. -/
def colsW (bb : IVec S256x4 32) : IVec S256x320 32 :=
  addi (broadcastInDim S256x320 ![0, 1] b_col_320 (broadcastInDim S256x1 ![0] b_col (x0W bb)))
    (floorDivW S256x320 b_256x320
      (muli (broadcastInDim S256x320 ![0, 1] b_row320_all (broadcastInDim S1x320 ![1] b_row320 (iotaInDim S320 32 0)))
        (broadcastInDim S256x320 ![0, 1] b_col_320 (broadcastInDim S256x1 ![0] b_col (wW bb)))) 320#32)

/-! ## The kernel's sorting of the boxes -/

/-- The image index clipped into [0, 7]. -/
def imgClipW (bi : IVec S256 32) : IVec S256 32 := clipW 0#32 7#32 bi

/-- The sort's order on (key, position) pairs: the keys compared signed. -/
def keyLt : BitVec 32 × BitVec 32 → BitVec 32 × BitVec 32 → BitVec 1 := fun l r => IntOp.cmpi .slt l.1 r.1

/-- The stable argsort of the clipped image indices: position n holds the box that comes n-th. -/
def permW (bi : IVec S256 32) : IVec S256 32 := (Host.sort2 S256 0 keyLt (imgClipW bi) (iotaInDim S256 32 0)).2

/-- A negative position counted from the end (jnp's index normalisation), as a column of start indices. -/
def startColW (p : IVec S256 32) : IVec S256x1 32 :=
  broadcastInDim S256x1 ![0] b_col (select (cmpi .slt p (splat256 0#32)) (addi p (splat256 256#32)) p)

/-- `table[idx]` over a 256-vector. -/
def take1Dims : GatherDims S256 S256x1 S256 where
  offsetDims := []
  collapsedSliceDims := [0]
  operandBatchingDims := []
  startIndicesBatchingDims := []
  startIndexMap := [0]
  indexVectorDim := 1
  sliceSizes := ![1]

/-- The clipped image indices in sorted order: entry n is the image of the n-th box. -/
def imgSortedW (bi : IVec S256 32) : IVec S256 32 := Host.gather take1Dims (imgClipW bi) (startColW (permW bi))

/-- `jnp.take(table, idx, axis = 0)` over a [256, C] table: the dimension numbers of its row gather. -/
def takeDims (C : Nat) (wf : GatherDims.WF ⟨2, ![256, C]⟩ S256x1 ⟨2, ![256, C]⟩ [1] [0] [] [0] [] 1 ![1, C]) :
    GatherDims ⟨2, ![256, C]⟩ S256x1 ⟨2, ![256, C]⟩ where
  offsetDims := [1]
  collapsedSliceDims := [0]
  operandBatchingDims := []
  startIndicesBatchingDims := []
  startIndexMap := [0]
  indexVectorDim := 1
  sliceSizes := ![1, C]
  wf := wf

theorem takeWF48 : GatherDims.WF S256x48 S256x1 S256x48 [1] [0] [] [0] [] 1 ![1, 48] := by decide
theorem takeWF320 : GatherDims.WF S256x320 S256x1 S256x320 [1] [0] [] [0] [] 1 ![1, 320] := by decide

/-- `jnp.take(table, p, axis = 0)` in its default "fill" mode, as printed: row n of the result is row p[n] of the
    table (p normalised), or the fill word where p[n] is outside [0, 255]. -/
def takeRowsW (C : Nat) (d : GatherDims ⟨2, ![256, C]⟩ S256x1 ⟨2, ![256, C]⟩)
    (hb1 : S256.BroadcastsInDim ⟨2, ![256, C]⟩ (![0] : Fin 1 → Fin 2))
    (hb0 : S_.BroadcastsInDim ⟨2, ![256, C]⟩ (![] : Fin 0 → Fin 2)) (tab : IVec ⟨2, ![256, C]⟩ 32) (p : IVec S256 32) :
    IVec ⟨2, ![256, C]⟩ 32 :=
  let st : IVec S256x1 32 := startColW p
  let ge : IVec S256x1 1 := cmpi .sge st (broadcastInDim S256x1 ![] b_256x1 (constantI S_ 32 0#32))
  let le : IVec S256x1 1 := cmpi .sle st (broadcastInDim S256x1 ![0, 1] b_1x1_col (broadcastInDim S1x1 ![1] b_1_1x1 (constantI S1 32 255#32)))
  let ok : IVec S256 1 := Host.reduce IntOp.andi (andi ge le) (constantI S_ 1 1#1) red_col pos_S_
  select (broadcastInDim ⟨2, ![256, C]⟩ ![0] hb1 ok) (Host.gather d tab st)
    (broadcastInDim ⟨2, ![256, C]⟩ ![] hb0 (constantI S_ 32 2147483648#32))

/-- The source lines in sorted order: entry [n, k] is the line output line k of the n-th box takes. -/
def rowsSortedW (bb : IVec S256x4 32) (bi : IVec S256 32) : IVec S256x48 32 :=
  takeRowsW 48 (takeDims 48 takeWF48) b_256_48 b_256x48 (rowsW bb) (permW bi)

/-- The source columns in sorted order. -/
def colsSortedW (bb : IVec S256x4 32) (bi : IVec S256 32) : IVec S256x320 32 :=
  takeRowsW 320 (takeDims 320 takeWF320) b_256_320 b_256x320 (colsW bb) (permW bi)

/-! ## The result as one function of the arguments -/

/-- The image box b is cut from (the image index read as a natural number; in range under the precondition). -/
def imgOf (bi : IVec S256 32) (b : Fin 256) : Fin 8 := ⟨(bi (ix1 b)).toNat % 8, Nat.mod_lt _ (by decide)⟩
/-- The source line of output line k of box b (in range for every box table: `rowsW_lt`). -/
def rowOf (bb : IVec S256x4 32) (b : Fin 256) (k : Fin 48) : Fin 200 := ⟨(rowsW bb (ix2 b k)).toNat % 200, Nat.mod_lt _ (by decide)⟩
/-- The source column of output column j of box b. -/
def colOf (bb : IVec S256x4 32) (b : Fin 256) (j : Fin 320) : Fin 320 := ⟨(colsW bb (ix2 b j)).toNat % 320, Nat.mod_lt _ (by decide)⟩

/-- out[b, ch, k, j] = x[img(b), ch, row(b, k), col(b, j)]: the crop of box b resampled to 48 × 320, channel by channel. -/
def G (x : S8x64x200x320.Idx → EReal) (bb : IVec S256x4 32) (bi : IVec S256 32) : S256x64x48x320.Idx → EReal :=
  fun i => x (ix4 (imgOf bi (i 0)) (i 1) (rowOf bb (i 0) (i 2)) (colOf bb (i 0) (i 3)))

end Cert.Crop

end
-- ==== Proof.KernelHost.lean ====
/-
  What the host operations before the kernel's launch leave in the buffers the launch reads, as functions of the
  argument arrays: the three prefetched tables — the clipped image indices in sorted order, the argsort itself, the
  source lines in sorted order — and the array of source columns in sorted order that the launch stages whole. Each is
  the fold of the host operations read at its buffer, which is the corresponding term of the specification.
-/
import proofs.«423708_j84104049590479_3_alg».proof.Proof.KernelFrame
import proofs.«423708_j84104049590479_3_alg».proof.Proof.Spec
import Idealize.ShloMosaic.Lib.StableHlo.Run

set_option maxRecDepth 16384

noncomputable section

namespace Cert.Kernel.HostK

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ)

/-- Running one line after another is running their concatenation. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-! ## The terms a stretch computes, over what it reads -/

/-- An extent from the clipped far corner and the near corner: the far corner raised to the near one, far − near + 1. -/
def extOf (far near : IVec Cert.Crop.S256 32) : IVec Cert.Crop.S256 32 :=
  addi (subi (maxsi far near) near) (Cert.Crop.splat256 1#32)

open Cert.Crop in
/-- The source lines from the near line and the height. -/
def rowsOf (y0 h : IVec Cert.Crop.S256 32) : IVec Cert.Crop.S256x48 32 :=
  addi (broadcastInDim Cert.Crop.S256x48 ![0, 1] b_col_48 (broadcastInDim Cert.Crop.S256x1 ![0] b_col y0))
    (floorDivW Cert.Crop.S256x48 b_256x48
      (muli (broadcastInDim Cert.Crop.S256x48 ![0, 1] b_row48_all (broadcastInDim Cert.Crop.S1x48 ![1] b_row48 (iotaInDim Cert.Crop.S48 32 0)))
        (broadcastInDim Cert.Crop.S256x48 ![0, 1] b_col_48 (broadcastInDim Cert.Crop.S256x1 ![0] b_col h))) 48#32)

open Cert.Crop in
/-- The source columns from the near column and the width. -/
def colsOf (x0 w : IVec Cert.Crop.S256 32) : IVec Cert.Crop.S256x320 32 :=
  addi (broadcastInDim Cert.Crop.S256x320 ![0, 1] b_col_320 (broadcastInDim Cert.Crop.S256x1 ![0] b_col x0))
    (floorDivW Cert.Crop.S256x320 b_256x320
      (muli (broadcastInDim Cert.Crop.S256x320 ![0, 1] b_row320_all (broadcastInDim Cert.Crop.S1x320 ![1] b_row320 (iotaInDim Cert.Crop.S320 32 0)))
        (broadcastInDim Cert.Crop.S256x320 ![0, 1] b_col_320 (broadcastInDim Cert.Crop.S256x1 ![0] b_col w))) 320#32)

/-- The stable argsort of a vector of keys. -/
def permOf (k : IVec Cert.Crop.S256 32) : IVec Cert.Crop.S256 32 :=
  (Host.sort2 Cert.Crop.S256 0 Cert.Crop.keyLt k (iotaInDim Cert.Crop.S256 32 0)).2

theorem hW_eq (bb : IVec Cert.Crop.S256x4 32) :
    Cert.Crop.hW bb = extOf (Cert.Crop.clipW 0#32 199#32 (Cert.Crop.boxCol bb ![0, 3] Cert.Crop.sl3)) (Cert.Crop.y0W bb) := rfl
theorem wW_eq (bb : IVec Cert.Crop.S256x4 32) :
    Cert.Crop.wW bb = extOf (Cert.Crop.clipW 0#32 319#32 (Cert.Crop.boxCol bb ![0, 2] Cert.Crop.sl2)) (Cert.Crop.x0W bb) := rfl
theorem rowsW_eq (bb : IVec Cert.Crop.S256x4 32) : Cert.Crop.rowsW bb = rowsOf (Cert.Crop.y0W bb) (Cert.Crop.hW bb) := rfl
theorem colsW_eq (bb : IVec Cert.Crop.S256x4 32) : Cert.Crop.colsW bb = colsOf (Cert.Crop.x0W bb) (Cert.Crop.wW bb) := rfl
theorem permW_eq (bi : IVec Cert.Crop.S256 32) : Cert.Crop.permW bi = permOf (Cert.Crop.imgClipW bi) := rfl
theorem imgSortedW_eq (bi : IVec Cert.Crop.S256 32) :
    Cert.Crop.imgSortedW bi
      = Host.gather Cert.Crop.take1Dims (Cert.Crop.imgClipW bi) (Cert.Crop.startColW (permOf (Cert.Crop.imgClipW bi))) := rfl

/-! ## What each group of stretches leaves in the buffers the later ones read

Each group is read from an arbitrary valuation `W`: the fold over its operations at one buffer is that buffer's
operation applied to the fold at its operands, and at a buffer the group does not write it is `W` there. -/

/-! ### The four corner columns, each cut out, flattened and clipped -/

theorem GA_v2 (W : Valuation τ sig (Elt F)) :
    StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))) (main_v2 : DevRef τ sig)
      = Cert.Crop.x0W (W (main_arg1 : DevRef τ sig)) := by
  after_results_simp
  rfl
theorem GA_v5 (W : Valuation τ sig (Elt F)) :
    StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))) (main_v5 : DevRef τ sig)
      = Cert.Crop.y0W (W (main_arg1 : DevRef τ sig)) := by
  after_results_simp
  rfl
theorem GA_v8 (W : Valuation τ sig (Elt F)) :
    StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))) (main_v8 : DevRef τ sig)
      = Cert.Crop.clipW 0#32 319#32 (Cert.Crop.boxCol (W (main_arg1 : DevRef τ sig)) ![0, 2] Cert.Crop.sl2) := by
  after_results_simp
  rfl
theorem GA_v11 (W : Valuation τ sig (Elt F)) :
    StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))) (main_v11 : DevRef τ sig)
      = Cert.Crop.clipW 0#32 199#32 (Cert.Crop.boxCol (W (main_arg1 : DevRef τ sig)) ![0, 3] Cert.Crop.sl3) := by
  after_results_simp
  rfl
theorem GA_arg2 (W : Valuation τ sig (Elt F)) :
    StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))) (main_arg2 : DevRef τ sig)
      = W (main_arg2 : DevRef τ sig) := by after_results_simp

/-! ### The extents, the source lines and columns, the clipped image indices -/

attribute [local irreducible] Host.sort2 Host.gather Host.reduce Host.divsi Host.remsi in
theorem GBC_v30 (W : Valuation τ sig (Elt F)) :
    StableHlo.after hostOps0_13 (StableHlo.after hostOps0_12 (StableHlo.after hostOps0_11 (StableHlo.after hostOps0_10 (StableHlo.after hostOps0_9 (StableHlo.after hostOps0_8 W))))) (main_v30 : DevRef τ sig)
      = rowsOf (W (main_v5 : DevRef τ sig)) (extOf (W (main_v11 : DevRef τ sig)) (W (main_v5 : DevRef τ sig))) := by
  after_results_simp
  rfl
attribute [local irreducible] Host.sort2 Host.gather Host.reduce Host.divsi Host.remsi in
theorem GBC_v39 (W : Valuation τ sig (Elt F)) :
    StableHlo.after hostOps0_13 (StableHlo.after hostOps0_12 (StableHlo.after hostOps0_11 (StableHlo.after hostOps0_10 (StableHlo.after hostOps0_9 (StableHlo.after hostOps0_8 W))))) (main_v39 : DevRef τ sig)
      = colsOf (W (main_v2 : DevRef τ sig)) (extOf (W (main_v8 : DevRef τ sig)) (W (main_v2 : DevRef τ sig))) := by
  after_results_simp
  rfl
theorem GBC_v40 (W : Valuation τ sig (Elt F)) :
    StableHlo.after hostOps0_13 (StableHlo.after hostOps0_12 (StableHlo.after hostOps0_11 (StableHlo.after hostOps0_10 (StableHlo.after hostOps0_9 (StableHlo.after hostOps0_8 W))))) (main_v40 : DevRef τ sig)
      = Cert.Crop.imgClipW (W (main_arg2 : DevRef τ sig)) := by
  after_results_simp
  rfl

/-! ### The argsort, and the clipped image indices gathered through it -/

attribute [local irreducible] Host.sort2 Host.gather Host.reduce Host.divsi Host.remsi in
theorem GD_v41 (W : Valuation τ sig (Elt F)) :
    StableHlo.after hostOps0_15 (StableHlo.after hostOps0_14 W) (main_v41 : DevRef τ sig)
      = permOf (W (main_v40 : DevRef τ sig)) := by
  after_results_simp
  rfl
attribute [local irreducible] Host.sort2 Host.gather Host.reduce Host.divsi Host.remsi in
theorem GD_v48 (W : Valuation τ sig (Elt F)) :
    StableHlo.after hostOps0_15 (StableHlo.after hostOps0_14 W) (main_v48 : DevRef τ sig)
      = Host.gather Cert.Crop.take1Dims (W (main_v40 : DevRef τ sig)) (Cert.Crop.startColW (permOf (W (main_v40 : DevRef τ sig)))) := by
  after_results_simp
  rfl
theorem GD_v30 (W : Valuation τ sig (Elt F)) :
    StableHlo.after hostOps0_15 (StableHlo.after hostOps0_14 W) (main_v30 : DevRef τ sig)
      = W (main_v30 : DevRef τ sig) := by after_results_simp
theorem GD_v39 (W : Valuation τ sig (Elt F)) :
    StableHlo.after hostOps0_15 (StableHlo.after hostOps0_14 W) (main_v39 : DevRef τ sig)
      = W (main_v39 : DevRef τ sig) := by after_results_simp

/-! ### The source lines taken through the argsort -/

attribute [local irreducible] Host.sort2 Host.gather Host.reduce Host.divsi Host.remsi in
theorem GE_v49 (W : Valuation τ sig (Elt F)) :
    StableHlo.after hostOps0_16 W (main_v49 : DevRef τ sig)
      = Cert.Crop.takeRowsW 48 (Cert.Crop.takeDims 48 Cert.Crop.takeWF48) Cert.Crop.b_256_48 Cert.Crop.b_256x48 (W (main_v30 : DevRef τ sig)) (W (main_v41 : DevRef τ sig)) := by
  after_results_simp
  rfl
theorem GE_v41 (W : Valuation τ sig (Elt F)) :
    StableHlo.after hostOps0_16 W (main_v41 : DevRef τ sig)
      = W (main_v41 : DevRef τ sig) := by after_results_simp
theorem GE_v48 (W : Valuation τ sig (Elt F)) :
    StableHlo.after hostOps0_16 W (main_v48 : DevRef τ sig)
      = W (main_v48 : DevRef τ sig) := by after_results_simp
theorem GE_v39 (W : Valuation τ sig (Elt F)) :
    StableHlo.after hostOps0_16 W (main_v39 : DevRef τ sig)
      = W (main_v39 : DevRef τ sig) := by after_results_simp

/-! ### The source columns taken through the argsort -/

attribute [local irreducible] Host.sort2 Host.gather Host.reduce Host.divsi Host.remsi in
theorem GF_v50 (W : Valuation τ sig (Elt F)) :
    StableHlo.after hostOps0_17 W (main_v50 : DevRef τ sig)
      = Cert.Crop.takeRowsW 320 (Cert.Crop.takeDims 320 Cert.Crop.takeWF320) Cert.Crop.b_256_320 Cert.Crop.b_256x320 (W (main_v39 : DevRef τ sig)) (W (main_v41 : DevRef τ sig)) := by
  after_results_simp
  rfl
theorem GF_v41 (W : Valuation τ sig (Elt F)) :
    StableHlo.after hostOps0_17 W (main_v41 : DevRef τ sig)
      = W (main_v41 : DevRef τ sig) := by after_results_simp
theorem GF_v48 (W : Valuation τ sig (Elt F)) :
    StableHlo.after hostOps0_17 W (main_v48 : DevRef τ sig)
      = W (main_v48 : DevRef τ sig) := by after_results_simp
theorem GF_v49 (W : Valuation τ sig (Elt F)) :
    StableHlo.after hostOps0_17 W (main_v49 : DevRef τ sig)
      = W (main_v49 : DevRef τ sig) := by after_results_simp

/-! ## The four buffers the launch reads, after all the stretches -/

/-- The argsort of the clipped image indices. -/
theorem v41_eq (c : Dev nD) : V m c main_v41 = Cert.Crop.permW (m ((c : Thread nD τ).loc main_arg2)) := by
  dsimp only [V]
  simp only [List.flatten_cons, List.flatten_nil, List.append_nil, after_app]
  rw [GF_v41, GE_v41, GD_v41, GBC_v40, GA_arg2, permW_eq]

/-- The clipped image indices carried through the argsort. -/
theorem v48_eq (c : Dev nD) : V m c main_v48 = Cert.Crop.imgSortedW (m ((c : Thread nD τ).loc main_arg2)) := by
  dsimp only [V]
  simp only [List.flatten_cons, List.flatten_nil, List.append_nil, after_app]
  rw [GF_v48, GE_v48, GD_v48, GBC_v40, GA_arg2, imgSortedW_eq]

/-- The source lines carried through the argsort. -/
theorem v49_eq (c : Dev nD) : V m c main_v49
    = Cert.Crop.rowsSortedW (m ((c : Thread nD τ).loc main_arg1)) (m ((c : Thread nD τ).loc main_arg2)) := by
  dsimp only [V]
  simp only [List.flatten_cons, List.flatten_nil, List.append_nil, after_app]
  rw [GF_v49, GE_v49, GD_v30, GD_v41, GBC_v30, GBC_v40, GA_v5, GA_v11, GA_arg2]
  unfold Cert.Crop.rowsSortedW
  rw [rowsW_eq, hW_eq, permW_eq]

/-- The source columns carried through the argsort. -/
theorem v50_eq (c : Dev nD) : V m c main_v50
    = Cert.Crop.colsSortedW (m ((c : Thread nD τ).loc main_arg1)) (m ((c : Thread nD τ).loc main_arg2)) := by
  dsimp only [V]
  simp only [List.flatten_cons, List.flatten_nil, List.append_nil, after_app]
  rw [GF_v50, GE_v39, GE_v41, GD_v39, GD_v41, GBC_v39, GBC_v40, GA_v2, GA_v8, GA_arg2]
  unfold Cert.Crop.colsSortedW
  rw [colsW_eq, wW_eq, permW_eq]

end Cert.Kernel.HostK

end
-- ==== Proof.SortPerm.lean ====
/-
  The stable argsort of the clipped image indices is a permutation of the 256 box positions: every entry of the
  sorted position vector is a position below 256, and every position occurs.
-/
import proofs.«423708_j84104049590479_3_alg».proof.Proof.Spec
import Idealize.ShloMosaic.Lib.SortFacts

noncomputable section

namespace Cert.Crop

open Idealize.ShloMosaic Idealize.ShloMosaic.ValueIdx

/-- On a rank-1 shape, the second component of a two-operand stable sort along axis 0 reads the second operand
    through one self-map of the positions: the stable sorting permutation of the (first, second) pairs. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The argsort of an abstract key vector over n positions (the keys sorted together with the table of positions,
    under any comparator): there is a map σ of the positions onto themselves such that entry j of the sorted
    position table is the word of σ j. -/
theorem argsort_entry {n : Nat} (cmp : BitVec 32 × BitVec 32 → BitVec 32 × BitVec 32 → BitVec 1)
    (key : IVec ⟨1, ![n]⟩ 32) :
    ∃ σ : Fin n → Fin n, Function.Surjective σ ∧
      ∀ j : (⟨1, ![n]⟩ : Shape).Idx,
        (Host.sort2 ⟨1, ![n]⟩ 0 cmp key (iotaInDim ⟨1, ![n]⟩ 32 0)).2 j = BitVec.ofNat 32 (σ (j 0)).val := by
  refine ⟨sortedFrom (fun k k' => cmp (key (Shape.Idx.ofFin k), iotaInDim ⟨1, ![n]⟩ 32 0 (Shape.Idx.ofFin k))
          (key (Shape.Idx.ofFin k'), iotaInDim ⟨1, ![n]⟩ 32 0 (Shape.Idx.ofFin k')) == 1#1), sortedFrom_surjective _, ?_⟩
  intro j
  rw [sort2_snd_rank1]
  unfold iotaInDim
  simp only [Shape.Idx.ofFin_zero]

/-- The argsort of the clipped image indices: entry n is the word of σ n, for one map σ of the 256 positions onto
    themselves. The keys stay an abstract vector throughout. -/
theorem permW_entry (bi : IVec S256 32) :
    ∃ σ : Fin 256 → Fin 256, Function.Surjective σ ∧ ∀ n : Fin 256, permW bi (ix1 n) = BitVec.ofNat 32 (σ n).val := by
  unfold permW
  generalize imgClipW bi = key
  obtain ⟨σ, hs, h⟩ := argsort_entry (n := 256) keyLt key
  exact ⟨σ, hs, fun n => h (ix1 n)⟩

/-- Every entry of the argsort is one of the positions 0 … 255. -/
theorem permW_lt (bi : IVec S256 32) (n : Fin 256) : (permW bi (ix1 n)).toNat < 256 := by
  obtain ⟨σ, _, h⟩ := permW_entry bi
  rw [h n, BitVec.toNat_ofNat]
  exact lt_of_le_of_lt (Nat.mod_le _ _) (σ n).isLt

/-- Every position 0 … 255 is an entry of the argsort. -/
theorem permW_surj (bi : IVec S256 32) (b : Fin 256) : ∃ n : Fin 256, (permW bi (ix1 n)).toNat = b.val := by
  obtain ⟨σ, hs, h⟩ := permW_entry bi
  obtain ⟨n, hn⟩ := hs b
  refine ⟨n, ?_⟩
  rw [h n, hn, BitVec.toNat_ofNat]
  exact Nat.mod_eq_of_lt (lt_trans b.isLt (by decide))

/-- The box that comes n-th in the sorted order. -/
def permIdx (bi : IVec S256 32) (n : Fin 256) : Fin 256 := ⟨(permW bi (ix1 n)).toNat, permW_lt bi n⟩

end Cert.Crop

end
-- ==== Proof.TakeReads.lean ====
/-
  Reading a table through a vector of positions. A position p[n] that is a natural number below 256 is not moved by
  the index normalisation (it is not negative), passes the range test of the "fill" mode, and is not moved by the
  gather's clamp: row n of `take(table, p)` is row p[n] of the table, and entry n of `table[p]` is entry p[n].
-/
import proofs.«423708_j84104049590479_3_alg».proof.Proof.Spec
import Idealize.ShloMosaic.Lib.StableHlo.Predicate
import Idealize.ShloMosaic.Lib.ReduceAll

noncomputable section

namespace Cert.Crop

open Idealize.ShloMosaic Idealize.ShloMosaic.ValueIdx

namespace TakeReads

/-! ## Words below 256 -/

/-- A word below 256 reads the same signed and unsigned. -/
theorem toInt_of_lt256 {v : BitVec 32} (h : v.toNat < 256) : v.toInt = (v.toNat : Int) :=
  BitVec.toInt_eq_toNat_of_lt (by omega)

/-- A word below 256 does not test negative. -/
theorem slt_zero_of_lt256 {v : BitVec 32} (h : v.toNat < 256) : IntOp.cmpi .slt v 0#32 = 0#1 := by
  apply eq_zero_of_ne_one
  rw [IntOp.cmpi_slt, toInt_of_lt256 h, show (0#32 : BitVec 32).toInt = 0 from by decide]
  omega

/-- A word below 256 tests nonnegative. -/
theorem sge_zero_of_lt256 {v : BitVec 32} (h : v.toNat < 256) : IntOp.cmpi .sge v 0#32 = 1#1 := by
  rw [IntOp.cmpi_sge, toInt_of_lt256 h, show (0#32 : BitVec 32).toInt = 0 from by decide]
  omega

/-- A word below 256 tests at most 255. -/
theorem sle_255_of_lt256 {v : BitVec 32} (h : v.toNat < 256) : IntOp.cmpi .sle v 255#32 = 1#1 := by
  rw [IntOp.cmpi_sle, toInt_of_lt256 h, show (255#32 : BitVec 32).toInt = 255 from by decide]
  omega

/-- The gather's clamp into [0, 255] does not move a word below 256. -/
theorem clamp_of_lt256 {v : BitVec 32} (h : v.toNat < 256) : min v.toInt.toNat (256 - 1) = v.toNat := by
  rw [toInt_of_lt256 h, Int.toNat_natCast]
  omega

/-! ## Reading a column and a row-constant rectangle -/

/-- A 256-vector laid as a [256 × 1] column reads, at (n, 0), the vector at n. -/
theorem bcol_apply {α : Type} (v : S256.Idx → α) (n : Fin 256) :
    broadcastInDim S256x1 ![0] b_col v (ix2 n (0 : Fin 1)) = v (ix1 n) := by
  simp only [broadcastInDim]
  congr 1
  funext a
  obtain rfl : a = 0 := Subsingleton.elim _ _
  apply Fin.ext
  rw [dif_neg (by decide)]
  rfl

end TakeReads

open TakeReads

/-- The start-index column holds p[n] itself when p[n] is below 256 (so not negative as a signed word). -/
theorem startColW_apply (p : IVec S256 32) (n : Fin 256) (h : (p (ix1 n)).toNat < 256) :
    startColW p (ix2 n (0 : Fin 1)) = p (ix1 n) := by
  unfold startColW
  rw [bcol_apply, select_apply]
  show Scalar.select (IntOp.cmpi .slt (p (ix1 n)) 0#32) _ _ = _
  rw [slt_zero_of_lt256 h, select_zero]

/-- `table[p]` over a 256-vector at n, for a position p[n] below 256. -/
theorem take1_apply (tab p : IVec S256 32) (n : Fin 256) (h : (p (ix1 n)).toNat < 256) :
    Host.gather take1Dims tab (startColW p) (ix1 n) = tab (ix1 ⟨(p (ix1 n)).toNat, h⟩) := by
  have e1 : (ix1 n : S256.Idx) = Shape.Idx.ofFin n := by
    funext a; obtain rfl : a = 0 := Subsingleton.elim _ _; rfl
  have e2 : (StableHlo.Predicate.ixP n : S256x1.Idx) = ix2 n (0 : Fin 1) := by
    funext a; match a with | ⟨0, _⟩ => rfl | ⟨1, _⟩ => rfl
  have hg := StableHlo.Predicate.gather_take take1Dims rfl rfl rfl rfl tab (startColW p) n (by decide)
  rw [← e1] at hg
  rw [hg]
  congr 1
  funext a
  obtain rfl : a = 0 := Subsingleton.elim _ _
  apply Fin.ext
  show min (startColW p (StableHlo.Predicate.ixP n)).toInt.toNat (256 - 1) = (p (ix1 n)).toNat
  rw [e2, startColW_apply p n h, clamp_of_lt256 h]

namespace TakeReads

/-! ## The range test and the row gather -/

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1) (1#1) = 1#1 := by decide
    rw [List.foldl_cons, h a List.mem_cons_self, e]
    exact foldl_andi_ones f l (fun n hn => h n (List.mem_cons_of_mem _ hn))

/-- The range test of the "fill" mode, and-reduced over the column's one entry, is 1 at a position below 256. -/
theorem rangeOk_apply (p : IVec S256 32) (n : Fin 256) (h : (p (ix1 n)).toNat < 256) :
    Host.reduce IntOp.andi
      (andi (cmpi .sge (startColW p) (broadcastInDim S256x1 ![] b_256x1 (constantI S_ 32 0#32)))
        (cmpi .sle (startColW p)
          (broadcastInDim S256x1 ![0, 1] b_1x1_col (broadcastInDim S1x1 ![1] b_1_1x1 (constantI S1 32 255#32)))))
      (constantI S_ 1 1#1) red_col pos_S_ (ix1 n) = 1#1 := by
  rw [Host.reduce_eq_foldl]
  apply foldl_andi_ones
  intro i hi
  have hd : red_col.drop i = ix1 n := by simpa using (List.mem_filter.1 hi).2
  have hv : (red_col.drop i 0 : Nat) = i 0 := Shape.ReducesTo.drop_apply_val red_col i 0
  rw [hd] at hv
  have h0 : i 0 = n := Fin.ext hv.symm
  have h1 : i 1 = (0 : Fin 1) := Fin.ext (show (i 1).val = 0 from by have := idx2_lt1 i; omega)
  have hi' : i = ix2 n (0 : Fin 1) := (eq_ix2 i).trans (by rw [h0, h1]; rfl)
  subst hi'
  show IntOp.andi (IntOp.cmpi .sge (startColW p (ix2 n (0 : Fin 1))) 0#32)
    (IntOp.cmpi .sle (startColW p (ix2 n (0 : Fin 1))) 255#32) = 1#1
  rw [startColW_apply p n h, sge_zero_of_lt256 h, sle_255_of_lt256 h]
  decide

/-- A 256-vector laid along the first axis of a [256 × C] rectangle reads, at (n, q), the vector at n. -/
theorem brow_apply {α : Type} (C : Nat) (hb1 : S256.BroadcastsInDim ⟨2, ![256, C]⟩ (![0] : Fin 1 → Fin 2))
    (v : S256.Idx → α) (n : Fin 256) (q : Fin C) :
    broadcastInDim ⟨2, ![256, C]⟩ ![0] hb1 v (ix2 n q) = v (ix1 n) := by
  simp only [broadcastInDim]
  congr 1
  funext a
  obtain rfl : a = 0 := Subsingleton.elim _ _
  apply Fin.ext
  rw [dif_neg (by decide)]
  rfl

/-- The row gather read at (n, q): row `start[n, 0]` (read signed, clamped into [0, 255]) of the table, column q. -/
theorem gatherRows_apply (C : Nat) (wf : GatherDims.WF ⟨2, ![256, C]⟩ S256x1 ⟨2, ![256, C]⟩ [1] [0] [] [0] [] 1 ![1, C])
    (tab : IVec ⟨2, ![256, C]⟩ 32) (st : IVec S256x1 32) (n : Fin 256) (q : Fin C) :
    Host.gather (takeDims C wf) tab st (ix2 n q)
      = tab (ix2 ⟨min (st (ix2 n (0 : Fin 1))).toInt.toNat (256 - 1), by omega⟩ q) := by
  unfold Host.gather
  congr 1
  funext a
  refine Fin.ext ?_
  match a with
  | ⟨0, _⟩ =>
    show (takeDims C wf).start (ix2 n q) st 0 + (takeDims C wf).batchCoord (ix2 n q) 0
      + (takeDims C wf).offCoord (ix2 n q) 0 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ (takeDims C wf).startIndexMap from List.mem_singleton.mpr rfl)]
    have hsi : (takeDims C wf).siIdx (ix2 n q) ⟨List.idxOf (0 : Fin 2) (takeDims C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (takeDims C wf).start (ix2 n q) st 1 + (takeDims C wf).batchCoord (ix2 n q) 1
      + (takeDims C wf).offCoord (ix2 n q) 1 = q.val
    have hs : (takeDims C wf).start (ix2 n q) st 1 = 0 := by
      unfold GatherDims.start
      rw [dif_neg (show (1 : Fin 2) ∉ (takeDims C wf).startIndexMap from
        (by decide : (1 : Fin 2) ∉ ([0] : List (Fin 2))))]
    have hk : (1 : Fin 2) ∈ (takeDims C wf).sKept :=
      (GatherDims.mem_sKept _ _).mpr ⟨(by decide : (1 : Fin 2) ∉ ([0] : List (Fin 2))), List.not_mem_nil⟩
    have ho : (takeDims C wf).offCoord (ix2 n q) 1 = q.val := by
      unfold GatherDims.offCoord
      rw [dif_pos hk]
      rfl
    rw [hs, GatherDims.batchCoord_eq_zero _ _ _ List.not_mem_nil, ho]
    omega

end TakeReads

/-- `take(table, p, axis = 0)` at [n, q], for a position p[n] below 256: row p[n] of the table, column q. -/
theorem takeRowsW_apply (C : Nat) (wf : GatherDims.WF ⟨2, ![256, C]⟩ S256x1 ⟨2, ![256, C]⟩ [1] [0] [] [0] [] 1 ![1, C])
    (hb1 : S256.BroadcastsInDim ⟨2, ![256, C]⟩ (![0] : Fin 1 → Fin 2))
    (hb0 : S_.BroadcastsInDim ⟨2, ![256, C]⟩ (![] : Fin 0 → Fin 2)) (tab : IVec ⟨2, ![256, C]⟩ 32) (p : IVec S256 32)
    (n : Fin 256) (q : Fin C) (h : (p (ix1 n)).toNat < 256) :
    takeRowsW C (takeDims C wf) hb1 hb0 tab p (ix2 n q) = tab (ix2 ⟨(p (ix1 n)).toNat, h⟩ q) := by
  unfold takeRowsW
  rw [select_apply, brow_apply, rangeOk_apply p n h, select_one, gatherRows_apply]
  congr 1
  funext a
  refine Fin.ext ?_
  match a with
  | ⟨0, _⟩ =>
    show min (startColW p (ix2 n (0 : Fin 1))).toInt.toNat (256 - 1) = (p (ix1 n)).toNat
    rw [startColW_apply p n h, clamp_of_lt256 h]
  | ⟨1, _⟩ => rfl

end Cert.Crop

end
-- ==== Proof.SortedTables.lean ====
/-
  The kernel's tables at an entry. The argsort's entries are positions below 256, so each table carried through it
  reads, at its n-th entry, the unsorted table at the box that comes n-th.
-/
import proofs.«423708_j84104049590479_3_alg».proof.Proof.SortPerm
import proofs.«423708_j84104049590479_3_alg».proof.Proof.TakeReads

noncomputable section

namespace Cert.Crop

open Idealize.ShloMosaic Idealize.ShloMosaic.ValueIdx

/-- The n-th sorted image index is the clipped image index of the n-th box. -/
theorem imgSortedW_apply (bi : IVec S256 32) (n : Fin 256) :
    imgSortedW bi (ix1 n) = imgClipW bi (ix1 (permIdx bi n)) :=
  take1_apply (imgClipW bi) (permW bi) n (permW_lt bi n)

/-- The n-th sorted row of source lines is the row of the n-th box. -/
theorem rowsSortedW_apply (bb : IVec S256x4 32) (bi : IVec S256 32) (n : Fin 256) (k : Fin 48) :
    rowsSortedW bb bi (ix2 n k) = rowsW bb (ix2 (permIdx bi n) k) :=
  takeRowsW_apply 48 takeWF48 b_256_48 b_256x48 (rowsW bb) (permW bi) n k (permW_lt bi n)

/-- The n-th sorted row of source columns is the row of the n-th box. -/
theorem colsSortedW_apply (bb : IVec S256x4 32) (bi : IVec S256 32) (n : Fin 256) (j : Fin 320) :
    colsSortedW bb bi (ix2 n j) = colsW bb (ix2 (permIdx bi n) j) :=
  takeRowsW_apply 320 takeWF320 b_256_320 b_256x320 (colsW bb) (permW bi) n j (permW_lt bi n)

end Cert.Crop

end
-- ==== Proof.KernelTables.lean ====
/-
  The launch's tables and its array of source columns, entry by entry, in terms of the argument arrays: at the n-th grid
  position the kernel works on the box that comes n-th in the sorted order, reads that box's clipped image index, its
  48 source lines and its 320 source columns, and writes output block number permW[n].
-/
import proofs.«423708_j84104049590479_3_alg».proof.Proof.KernelHost
import proofs.«423708_j84104049590479_3_alg».proof.Proof.SortedTables

set_option maxRecDepth 16384

noncomputable section

namespace Cert.Kernel.Tables

open Cert.Kernel Cert.Kernel.Gen Cert.Kernel.GenP
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The box table and the image indices as the launch memory holds them on core c. -/
abbrev bbOf (c : Dev nD) : IVec Cert.Crop.S256x4 32 := m ((c : Thread nD τ).loc main_arg1)
abbrev biOf (c : Dev nD) : IVec Cert.Crop.S256 32 := m ((c : Thread nD τ).loc main_arg2)

theorem tbl0_eq : tbl m 0 = Cert.Crop.imgSortedW (biOf m 0) := HostK.v48_eq m 0
theorem tbl1_eq : tbl m 1 = Cert.Crop.permW (biOf m 0) := HostK.v41_eq m 0
theorem tbl2_eq : tbl m 2 = Cert.Crop.rowsSortedW (bbOf m 0) (biOf m 0) := HostK.v49_eq m 0

/-- Table 0 at n: the clipped image index of the n-th box. -/
theorem tbl0_apply (n : Fin 256) :
    tbl m 0 (ix1 n) = Cert.Crop.imgClipW (biOf m 0) (ix1 (Cert.Crop.permIdx (biOf m 0) n)) := by
  rw [tbl0_eq]; exact Cert.Crop.imgSortedW_apply _ n

/-- Table 1 at n: the n-th box itself. -/
theorem tbl1_apply (n : Fin 256) : BitVec.toNat (tbl m 1 (ix1 n)) = (Cert.Crop.permIdx (biOf m 0) n).val := by
  rw [tbl1_eq]; rfl

/-- Table 2 at [n, k]: source line k of the n-th box. -/
theorem tbl2_apply (n : Fin 256) (k : Fin 48) :
    tbl m 2 (ix2 n k) = Cert.Crop.rowsW (bbOf m 0) (ix2 (Cert.Crop.permIdx (biOf m 0) n) k) := by
  rw [tbl2_eq]; exact Cert.Crop.rowsSortedW_apply _ _ n k

/-- The staged column array at [n, j]: source column j of the n-th box. -/
theorem cols_apply (c : Dev nD) (n : Fin 256) (j : Fin 320) :
    V m c main_v50 (ix2 n j) = Cert.Crop.colsW (bbOf m c) (ix2 (Cert.Crop.permIdx (biOf m c) n) j) := by
  rw [HostK.v50_eq]; exact Cert.Crop.colsSortedW_apply _ _ n j

end Cert.Kernel.Tables

end
-- ==== Proof.CropArith.lean ====
/-
  Nearest-neighbour resampling of an inclusive crop never leaves the crop: for a crop of h ≥ 1 source lines
  starting at line y0, output line i of n takes source line y0 + ⌊i·h / n⌋, and since i < n gives i·h < n·h, the
  quotient is at most h − 1: the source line lies in [y0, y0 + h − 1].
-/
import Mathlib.Tactic.Ring
import Mathlib.Tactic.Linarith

namespace Cert.Crop

/-- ⌊i·h / n⌋ ≤ h − 1 when i < n and h ≥ 1: the resampled offset stays inside a crop of h lines. -/
theorem offset_lt (i h n : Nat) (hi : i < n) (hh : 0 < h) : i * h / n < h := by
  have hn : 0 < n := Nat.lt_of_le_of_lt (Nat.zero_le i) hi
  rw [Nat.div_lt_iff_lt_mul hn]
  calc i * h < n * h := Nat.mul_lt_mul_of_pos_right hi hh
    _ = h * n := Nat.mul_comm n h

/-- The source line of output line i stays at or below the crop's last line y0 + h − 1. -/
theorem line_le (y0 i h n : Nat) (hi : i < n) (hh : 0 < h) : y0 + i * h / n ≤ y0 + h - 1 := by
  have := offset_lt i h n hi hh
  omega

end Cert.Crop
-- ==== Proof.RangeFacts.lean ====
/-
  Ranges of the integer side. Clipping puts each corner inside the image, so the crop's height h = y1 − y0 + 1 lies in
  [1, 200 − y0] and its width in [1, 320 − x0]; for k < 48 the product k·h is below 2^31, its floor quotient by 48
  is at most h − 1, and the source line y0 + ⌊k·h / 48⌋ is at most y1 ≤ 199. The same for columns with 320. All of it
  on 32-bit words read as signed integers: nothing wraps.
-/
import proofs.«423708_j84104049590479_3_alg».proof.Proof.Spec
import proofs.«423708_j84104049590479_3_alg».proof.Proof.CropArith
import Idealize.ShloMosaic.Lib.StableHlo.Predicate

noncomputable section

namespace Cert.Crop

open Idealize.ShloMosaic Idealize.ShloMosaic.ValueIdx

/-- A word below 2^31 is not negative as a signed word. -/
theorem slt_zero_of_small (w : BitVec 32) (h : w.toNat < 2 ^ 31) : IntOp.cmpi .slt w 0#32 = 0#1 := by
  have hw : w.toInt = (w.toNat : Int) := StableHlo.Predicate.toInt_eq_toNat_of_lt h
  have h0 : (0#32 : BitVec 32).toInt = 0 := by decide
  have : w.slt 0#32 = false := by
    simp only [BitVec.slt, hw, h0, decide_eq_false_iff_not]; omega
  unfold IntOp.cmpi
  simp only [this]
  rfl

/-- A word below 2^31 read signed is the word read unsigned. -/
theorem toInt_of_small (w : BitVec 32) (h : w.toNat < 2 ^ 31) : w.toInt = (w.toNat : Int) :=
  StableHlo.Predicate.toInt_eq_toNat_of_lt h

namespace RangeFacts

/-- The signed reading of a 32-bit word: the word itself below 2^31, the word less 2^32 from 2^31 on. -/
theorem toInt_cases (w : BitVec 32) :
    (w.toNat < 2 ^ 31 ∧ w.toInt = (w.toNat : Int)) ∨ (2 ^ 31 ≤ w.toNat ∧ w.toInt = (w.toNat : Int) - 2 ^ 32) := by
  have := w.isLt
  rw [BitVec.toInt_eq_toNat_cond]
  split <;> omega

end RangeFacts

/-- A word in [0, 8) as a signed word is below 8 as a natural number. -/
theorem toNat_lt_of_range (w : BitVec 32) (h0 : IntOp.cmpi .sge w 0#32 = 1#1) (h8 : IntOp.cmpi .slt w 8#32 = 1#1) :
    w.toNat < 8 := by
  have z0 : (0#32 : BitVec 32).toInt = 0 := by decide
  have z8 : (8#32 : BitVec 32).toInt = 8 := by decide
  unfold IntOp.cmpi at h0 h8
  simp only [StableHlo.Predicate.ofBool_eq_one_iff, BitVec.sle, BitVec.slt, z0, z8, decide_eq_true_eq] at h0 h8
  rcases RangeFacts.toInt_cases w with ⟨_, e⟩ | ⟨_, e⟩ <;> omega

namespace RangeFacts

/-- The clip min(hi, max(lo, v)) of ANY word v, for 0 ≤ lo ≤ hi < 2^31 read signed, lies in [lo, hi] as a natural
    number: a negative v (a word from 2^31 on) is raised to lo, a v above hi is lowered to hi. -/
theorem clip_range (lo hi v : BitVec 32) (hlh : lo.toNat ≤ hi.toNat) (hhi : hi.toNat < 2 ^ 31) :
    lo.toNat ≤ (IntOp.minsi hi (IntOp.maxsi lo v)).toNat ∧ (IntOp.minsi hi (IntOp.maxsi lo v)).toNat ≤ hi.toNat := by
  have el : lo.toInt = (lo.toNat : Int) := toInt_of_small lo (by omega)
  have eh : hi.toInt = (hi.toNat : Int) := toInt_of_small hi hhi
  unfold IntOp.minsi IntOp.maxsi
  rcases toInt_cases v with ⟨hv, ev⟩ | ⟨hv, ev⟩
  all_goals
    simp only [BitVec.slt, el, eh, ev, decide_eq_true_eq]
    split_ifs <;> omega

/-- Clipping into [lo, hi] fixes a word already there. -/
theorem clip_fix (lo hi v : BitVec 32) (hhi : hi.toNat < 2 ^ 31) (h1 : lo.toNat ≤ v.toNat) (h2 : v.toNat ≤ hi.toNat) :
    IntOp.minsi hi (IntOp.maxsi lo v) = v := by
  have el : lo.toInt = (lo.toNat : Int) := toInt_of_small lo (by omega)
  have eh : hi.toInt = (hi.toNat : Int) := toInt_of_small hi hhi
  have ev : v.toInt = (v.toNat : Int) := toInt_of_small v (by omega)
  unfold IntOp.minsi IntOp.maxsi
  simp only [BitVec.slt, el, eh, ev, decide_eq_true_eq]
  split_ifs <;> first | rfl | (apply BitVec.eq_of_toNat_eq; omega)

/-- The vector clip at one element is the scalar clip of that element. -/
theorem clipW_apply (lo hi : BitVec 32) (v : IVec S256 32) (i : S256.Idx) :
    clipW lo hi v i = IntOp.minsi hi (IntOp.maxsi lo (v i)) := rfl

end RangeFacts

/-- The clipped image index is below 8. -/
theorem imgClipW_lt (bi : IVec S256 32) (b : Fin 256) : (imgClipW bi (ix1 b)).toNat < 8 := by
  have := (RangeFacts.clip_range 0#32 7#32 (bi (ix1 b)) (by decide) (by decide)).2
  have e : (7#32 : BitVec 32).toNat = 7 := by decide
  show (IntOp.minsi 7#32 (IntOp.maxsi 0#32 (bi (ix1 b)))).toNat < 8
  omega

/-- Clipping into [0, 7] does not move an image index that is already in [0, 8). -/
theorem imgClipW_of_range (bi : IVec S256 32) (b : Fin 256) (h0 : IntOp.cmpi .sge (bi (ix1 b)) 0#32 = 1#1)
    (h8 : IntOp.cmpi .slt (bi (ix1 b)) 8#32 = 1#1) : imgClipW bi (ix1 b) = bi (ix1 b) := by
  have h := toNat_lt_of_range _ h0 h8
  show IntOp.minsi 7#32 (IntOp.maxsi 0#32 (bi (ix1 b))) = bi (ix1 b)
  have e7 : (7#32 : BitVec 32).toNat = 7 := by decide
  have e0 : (0#32 : BitVec 32).toNat = 0 := by decide
  exact RangeFacts.clip_fix 0#32 7#32 _ (by decide) (by omega) (by omega)

namespace RangeFacts

/-- The sign word of a 32-bit word: 0, 1 or −1. -/
def sgnS (v : BitVec 32) : BitVec 32 := if v = 0 then 0 else if v.msb then -1 else 1

/-- The printed floor division at one element: the truncated quotient, lowered by one where the signs of dividend and
    divisor differ and the remainder is not zero. -/
def floorDivS (v d : BitVec 32) : BitVec 32 :=
  Scalar.select (IntOp.andi (IntOp.cmpi .ne (sgnS v) (sgnS d)) (IntOp.cmpi .ne (IntOp.remsi .host v d) 0#32))
    (IntOp.subi (IntOp.divsi .host v d) 1#32) (IntOp.divsi .host v d)

/-- The vector floor division at one element is the scalar one of that element. -/
theorem floorDivW_apply (S : Shape) (hb : S_.BroadcastsInDim S (![] : Fin 0 → Fin S.rank)) (v : IVec S 32) (d : BitVec 32)
    (i : S.Idx) : floorDivW S hb v d i = floorDivS (v i) d := rfl

/-- Dividend in [0, 2^31), divisor in (0, 2^31): the signed division meets neither a zero divisor nor the overflow, it
    is the unsigned quotient; the signs differ only for a zero dividend, whose remainder is zero; so the correction is
    never taken and the printed floor division is the natural quotient. -/
theorem floorDivS_toNat (v d : BitVec 32) (hv : v.toNat < 2 ^ 31) (hd0 : 0 < d.toNat) (hd : d.toNat < 2 ^ 31) :
    (floorDivS v d).toNat = v.toNat / d.toNat := by
  have hvm : v.msb = false := BitVec.msb_eq_false_iff_two_mul_lt.mpr (by omega)
  have hdm : d.msb = false := BitVec.msb_eq_false_iff_two_mul_lt.mpr (by omega)
  have hdne : d ≠ 0 := by
    intro e; rw [e] at hd0; simp at hd0
  have hcorner : ¬ IntOp.SDivCorner v d := by
    intro hc
    rcases hc with hc | ⟨_, hc⟩
    · exact hdne hc
    · rw [hc] at hd; revert hd; decide
  have hq : IntOp.divsi .host v d = v / d := by
    simp only [IntOp.divsi, if_neg hcorner, BitVec.sdiv_eq, hvm, hdm, BitVec.udiv_eq]
  have hr : IntOp.remsi .host v d = v % d := by
    simp only [IntOp.remsi, if_neg hcorner, BitVec.srem_eq, hvm, hdm, BitVec.umod_eq]
  have hsd : sgnS d = 1 := by simp only [sgnS, if_neg hdne, hdm]; rfl
  have hc : IntOp.andi (IntOp.cmpi .ne (sgnS v) (sgnS d)) (IntOp.cmpi .ne (IntOp.remsi .host v d) 0#32) = 0#1 := by
    by_cases hv0 : v = 0
    · have hr0 : IntOp.remsi .host v d = 0#32 := by
        rw [hr, hv0]; apply BitVec.eq_of_toNat_eq; simp
      rw [hr0]
      have : IntOp.cmpi .ne (0#32) 0#32 = 0#1 := by decide
      rw [this]
      unfold IntOp.andi
      simp
    · have hsv : sgnS v = 1 := by simp only [sgnS, if_neg hv0, hvm]; rfl
      rw [hsv, hsd]
      have : IntOp.cmpi .ne (1 : BitVec 32) 1 = 0#1 := by decide
      rw [this]
      unfold IntOp.andi
      simp
  unfold floorDivS
  rw [hc]
  have : Scalar.select (0#1) (IntOp.subi (IntOp.divsi .host v d) 1#32) (IntOp.divsi .host v d) = IntOp.divsi .host v d := by
    unfold Scalar.select; rfl
  rw [this, hq, BitVec.toNat_udiv]

/-- The source line as a word: with the crop [y0, y0 + h) inside [0, N), N ≤ 320, and output line k of n ≤ 320, the
    product k·h ≤ 320² does not wrap, its quotient by n is below h, and the sum y0 + ⌊k·h / n⌋ does not wrap and is
    below N. -/
theorem line_word_lt (y0 h d : BitVec 32) (k n N : Nat) (hd : d.toNat = n) (hk : k < n) (hn : n ≤ 320) (hh : 0 < h.toNat)
    (hN : y0.toNat + h.toNat ≤ N) (hN' : N ≤ 320) :
    (IntOp.addi y0 (floorDivS (IntOp.muli (BitVec.ofNat 32 k) h) d)).toNat < N := by
  have hkh : k * h.toNat ≤ 320 * 320 := Nat.mul_le_mul (by omega) (by omega)
  have hm : (IntOp.muli (BitVec.ofNat 32 k) h).toNat = k * h.toNat := by
    unfold IntOp.muli
    rw [BitVec.toNat_mul, BitVec.toNat_ofNat, Nat.mod_eq_of_lt (show k < 2 ^ 32 by omega), Nat.mod_eq_of_lt (by omega)]
  have hq := floorDivS_toNat (IntOp.muli (BitVec.ofNat 32 k) h) d (by omega) (by omega) (by omega)
  rw [hm, hd] at hq
  have hlt := offset_lt k h.toNat n hk hh
  unfold IntOp.addi
  rw [BitVec.toNat_add, hq, Nat.mod_eq_of_lt (by omega)]
  omega

/-- The signed maximum of two words below 2^31 is one of them and at least both. -/
theorem maxsi_small (x y : BitVec 32) (hx : x.toNat < 2 ^ 31) (hy : y.toNat < 2 ^ 31) :
    x.toNat ≤ (IntOp.maxsi x y).toNat ∧ y.toNat ≤ (IntOp.maxsi x y).toNat
      ∧ ((IntOp.maxsi x y).toNat = x.toNat ∨ (IntOp.maxsi x y).toNat = y.toNat) := by
  have ex : x.toInt = (x.toNat : Int) := toInt_of_small x hx
  have ey : y.toInt = (y.toNat : Int) := toInt_of_small y hy
  unfold IntOp.maxsi
  simp only [BitVec.slt, ex, ey, decide_eq_true_eq]
  split_ifs <;> omega

/-- The near corner y0 = clip(a), the far corner y1 = max(clip(c), y0), the extent h = y1 − y0 + 1, clipping into
    [0, hi], for ANY two table words a, c: 0 ≤ y0 ≤ y1 ≤ hi, so the subtraction and the addition do not wrap, the
    extent is positive and the crop ends inside [0, hi]. -/
theorem extent_facts (hi a c : BitVec 32) (hhi : hi.toNat < 2 ^ 31) :
    let y0 := IntOp.minsi hi (IntOp.maxsi 0#32 a)
    let y1 := IntOp.maxsi (IntOp.minsi hi (IntOp.maxsi 0#32 c)) y0
    let h := IntOp.addi (IntOp.subi y1 y0) 1#32
    0 < h.toNat ∧ y0.toNat + h.toNat ≤ hi.toNat + 1 := by
  intro y0 y1 h
  have e0 : (0#32 : BitVec 32).toNat = 0 := by decide
  have r0 := clip_range 0#32 hi a (by omega) hhi
  have r1 := clip_range 0#32 hi c (by omega) hhi
  have hy0 : y0.toNat ≤ hi.toNat := r0.2
  have hy1 : y0.toNat ≤ y1.toNat ∧ y1.toNat ≤ hi.toNat := by
    have m := maxsi_small (IntOp.minsi hi (IntOp.maxsi 0#32 c)) y0 (by omega) (by omega)
    have : y1 = IntOp.maxsi (IntOp.minsi hi (IntOp.maxsi 0#32 c)) y0 := rfl
    rw [this]
    omega
  have e1 : (1#32 : BitVec 32).toNat = 1 := by decide
  have hh : h.toNat = y1.toNat - y0.toNat + 1 := by
    show (IntOp.addi (IntOp.subi y1 y0) 1#32).toNat = _
    unfold IntOp.addi IntOp.subi
    rw [BitVec.toNat_add, BitVec.toNat_sub, e1]
    have := y0.isLt; have := y1.isLt
    omega
  omega

/-- A 256-vector laid as a column and repeated along C columns reads, at (b, k), the vector at b. -/
theorem bcol_apply {α : Type} (C : Nat) (h₂ : S256x1.BroadcastsInDim ⟨2, ![256, C]⟩ (![0, 1] : Fin 2 → Fin 2))
    (v : S256.Idx → α) (b : Fin 256) (k : Fin C) :
    broadcastInDim ⟨2, ![256, C]⟩ ![0, 1] h₂ (broadcastInDim S256x1 ![0] b_col v) (ix2 b k) = v (ix1 b) := by
  simp only [broadcastInDim]
  congr 1
  funext a
  match a with
  | ⟨0, _⟩ => rfl

/-- rows[b, k] at one element: y0[b] + ⌊k · h[b] / 48⌋ on words. -/
theorem rowsW_apply (bb : IVec S256x4 32) (b : Fin 256) (k : Fin 48) :
    rowsW bb (ix2 b k)
      = IntOp.addi (y0W bb (ix1 b)) (floorDivS (IntOp.muli (BitVec.ofNat 32 k.val) (hW bb (ix1 b))) 48#32) := by
  show IntOp.addi (broadcastInDim S256x48 ![0, 1] b_col_48 (broadcastInDim S256x1 ![0] b_col (y0W bb)) (ix2 b k))
    (floorDivS (IntOp.muli (BitVec.ofNat 32 k.val)
      (broadcastInDim S256x48 ![0, 1] b_col_48 (broadcastInDim S256x1 ![0] b_col (hW bb)) (ix2 b k))) 48#32) = _
  rw [bcol_apply, bcol_apply]

/-- cols[b, j] at one element: x0[b] + ⌊j · w[b] / 320⌋ on words. -/
theorem colsW_apply (bb : IVec S256x4 32) (b : Fin 256) (j : Fin 320) :
    colsW bb (ix2 b j)
      = IntOp.addi (x0W bb (ix1 b)) (floorDivS (IntOp.muli (BitVec.ofNat 32 j.val) (wW bb (ix1 b))) 320#32) := by
  show IntOp.addi (broadcastInDim S256x320 ![0, 1] b_col_320 (broadcastInDim S256x1 ![0] b_col (x0W bb)) (ix2 b j))
    (floorDivS (IntOp.muli (BitVec.ofNat 32 j.val)
      (broadcastInDim S256x320 ![0, 1] b_col_320 (broadcastInDim S256x1 ![0] b_col (wW bb)) (ix2 b j))) 320#32) = _
  rw [bcol_apply, bcol_apply]

end RangeFacts

/-- Every source line is a line of the image. -/
theorem rowsW_lt (bb : IVec S256x4 32) (b : Fin 256) (k : Fin 48) : (rowsW bb (ix2 b k)).toNat < 200 := by
  rw [RangeFacts.rowsW_apply]
  have f : 0 < (hW bb (ix1 b)).toNat ∧ (y0W bb (ix1 b)).toNat + (hW bb (ix1 b)).toNat ≤ (199#32 : BitVec 32).toNat + 1 :=
    RangeFacts.extent_facts 199#32 (boxCol bb ![0, 1] sl1 (ix1 b)) (boxCol bb ![0, 3] sl3 (ix1 b)) (by decide)
  have e : (199#32 : BitVec 32).toNat = 199 := by decide
  exact RangeFacts.line_word_lt (y0W bb (ix1 b)) (hW bb (ix1 b)) 48#32 k.val 48 200 (by decide) k.isLt (by omega) f.1
    (by have := f.2; omega) (by omega)

/-- Every source column is a column of the image. -/
theorem colsW_lt (bb : IVec S256x4 32) (b : Fin 256) (j : Fin 320) : (colsW bb (ix2 b j)).toNat < 320 := by
  rw [RangeFacts.colsW_apply]
  have f : 0 < (wW bb (ix1 b)).toNat ∧ (x0W bb (ix1 b)).toNat + (wW bb (ix1 b)).toNat ≤ (319#32 : BitVec 32).toNat + 1 :=
    RangeFacts.extent_facts 319#32 (boxCol bb ![0, 0] sl0 (ix1 b)) (boxCol bb ![0, 2] sl2 (ix1 b)) (by decide)
  have e : (319#32 : BitVec 32).toNat = 319 := by decide
  exact RangeFacts.line_word_lt (x0W bb (ix1 b)) (wW bb (ix1 b)) 320#32 j.val 320 320 (by decide) j.isLt (by omega) f.1
    (by have := f.2; omega) (by omega)

end Cert.Crop

end
-- ==== Proof.KernelOkHyps.lean ====
/-
  The launch's side conditions hold for every launch memory. Its index maps read the sorted clipped image index (below
  8, so the image block lies inside the 8 images) and the argsort's entry (below 256, so the output block lies inside
  the 256 boxes); and each of the 48 source lines the body reads off the third table is below 200, so the one-line
  slice it loads lies inside the staged image block.
-/
import proofs.«423708_j84104049590479_3_alg».proof.Proof.KernelTables
import proofs.«423708_j84104049590479_3_alg».proof.Proof.RangeFacts

set_option maxRecDepth 16384

noncomputable section

namespace Cert.Kernel.OkHyps

open Cert.Kernel Cert.Kernel.Gen Cert.Kernel.GenP
open Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The blocks the index maps name lie inside their arrays -/

/-- The image block [1, 32, 200, 320] at block index (w, j, 0, 0) lies inside [8, 64, 200, 320] when w < 8 and j < 2. -/
theorem blk0_le (w : BitVec 32) (hw : w.toNat < 8) (j : Nat) (hj : j < 2) (a : Fin 4) :
    ((![w.toNat, (BitVec.ofNat 32 j).toNat, (0#32 : BitVec 32).toNat, (0#32 : BitVec 32).toNat] : Fin 4 → Nat) a + 1)
      * S1x32x200x320.size a ≤ S8x64x200x320.size a := by
  have e0 : (0#32 : BitVec 32).toNat = 0 := rfl
  have ej : (BitVec.ofNat 32 j).toNat = j := by rw [BitVec.toNat_ofNat]; omega
  rw [e0, ej]
  fin_cases a
  · show (w.toNat + 1) * 1 ≤ 8; omega
  · show (j + 1) * 32 ≤ 64; omega
  · show (0 + 1) * 200 ≤ 200; omega
  · show (0 + 1) * 320 ≤ 320; omega

/-- The output block [1, 32, 48, 320] at block index (w, j, 0, 0) lies inside [256, 64, 48, 320] when w < 256 and j < 2. -/
theorem blk2_le (w : BitVec 32) (hw : w.toNat < 256) (j : Nat) (hj : j < 2) (a : Fin 4) :
    ((![w.toNat, (BitVec.ofNat 32 j).toNat, (0#32 : BitVec 32).toNat, (0#32 : BitVec 32).toNat] : Fin 4 → Nat) a + 1)
      * S1x32x48x320.size a ≤ S256x64x48x320.size a := by
  have e0 : (0#32 : BitVec 32).toNat = 0 := rfl
  have ej : (BitVec.ofNat 32 j).toNat = j := by rw [BitVec.toNat_ofNat]; omega
  rw [e0, ej]
  fin_cases a
  · show (w.toNat + 1) * 1 ≤ 256; omega
  · show (j + 1) * 32 ≤ 64; omega
  · show (0 + 1) * 48 ≤ 48; omega
  · show (0 + 1) * 320 ≤ 320; omega

/-- For any table contents whose first table holds words below 8 and whose second table holds words below 256, the image
    block and the output block named at every grid point lie inside their arrays. -/
theorem ok0_of (pf : pre0.Contents (Elt F)) (h0 : ∀ x, BitVec.toNat (pf 0 x) < 8) (h1 : ∀ x, BitVec.toNat (pf 1 x) < 256) :
    ok0 pf := by
  refine ⟨fun i => ⟨fun a => ?_, Or.inl rfl⟩, fun i => ⟨fun a => ?_, Or.inl rfl⟩⟩
  · unfold cc0_transform_0
    exact blk0_le _ (h0 _) _ (i 1).isLt a
  · unfold cc0_transform_2
    exact blk2_le _ (h1 _) _ (i 1).isLt a

/-! ## The source lines read off the third table -/

/-- The one-line slice [1, 32, 1, 320] at line w of the staged image block [1, 32, 200, 320] lies inside it when w < 200. -/
theorem line_le (w : BitVec 32) (hw : w.toNat < 200) (a : Fin 4) :
    (![0, 0, (Scalar.indexCast w).toNat, 0] : Fin 4 → Nat) a + S1x32x1x320.size a ≤ S1x32x200x320.size a := by
  have e : (Scalar.indexCast w).toNat = w.toNat := rfl
  rw [e]
  fin_cases a
  · show 0 + 1 ≤ 1; omega
  · show 0 + 32 ≤ 32; omega
  · show w.toNat + 1 ≤ 200; omega
  · show 0 + 320 ≤ 320; omega

/-! The 48 checks, one per output line, are that same fact of the word read for the line. -/
theorem chk1 (w : BitVec 32) (hw : w.toNat < 200) : k0_chk1 w := fun a => line_le w hw a
theorem chk2 (w : BitVec 32) (hw : w.toNat < 200) : k0_chk2 w := fun a => line_le w hw a
theorem chk3 (w : BitVec 32) (hw : w.toNat < 200) : k0_chk3 w := fun a => line_le w hw a
theorem chk4 (w : BitVec 32) (hw : w.toNat < 200) : k0_chk4 w := fun a => line_le w hw a
theorem chk5 (w : BitVec 32) (hw : w.toNat < 200) : k0_chk5 w := fun a => line_le w hw a
theorem chk6 (w : BitVec 32) (hw : w.toNat < 200) : k0_chk6 w := fun a => line_le w hw a
theorem chk7 (w : BitVec 32) (hw : w.toNat < 200) : k0_chk7 w := fun a => line_le w hw a
theorem chk8 (w : BitVec 32) (hw : w.toNat < 200) : k0_chk8 w := fun a => line_le w hw a
theorem chk9 (w : BitVec 32) (hw : w.toNat < 200) : k0_chk9 w := fun a => line_le w hw a
theorem chk10 (w : BitVec 32) (hw : w.toNat < 200) : k0_chk10 w := fun a => line_le w hw a
theorem chk11 (w : BitVec 32) (hw : w.toNat < 200) : k0_chk11 w := fun a => line_le w hw a
theorem chk12 (w : BitVec 32) (hw : w.toNat < 200) : k0_chk12 w := fun a => line_le w hw a
theorem chk13 (w : BitVec 32) (hw : w.toNat < 200) : k0_chk13 w := fun a => line_le w hw a
theorem chk14 (w : BitVec 32) (hw : w.toNat < 200) : k0_chk14 w := fun a => line_le w hw a
theorem chk15 (w : BitVec 32) (hw : w.toNat < 200) : k0_chk15 w := fun a => line_le w hw a
theorem chk16 (w : BitVec 32) (hw : w.toNat < 200) : k0_chk16 w := fun a => line_le w hw a
theorem chk17 (w : BitVec 32) (hw : w.toNat < 200) : k0_chk17 w := fun a => line_le w hw a
theorem chk18 (w : BitVec 32) (hw : w.toNat < 200) : k0_chk18 w := fun a => line_le w hw a
theorem chk19 (w : BitVec 32) (hw : w.toNat < 200) : k0_chk19 w := fun a => line_le w hw a
theorem chk20 (w : BitVec 32) (hw : w.toNat < 200) : k0_chk20 w := fun a => line_le w hw a
theorem chk21 (w : BitVec 32) (hw : w.toNat < 200) : k0_chk21 w := fun a => line_le w hw a
theorem chk22 (w : BitVec 32) (hw : w.toNat < 200) : k0_chk22 w := fun a => line_le w hw a
theorem chk23 (w : BitVec 32) (hw : w.toNat < 200) : k0_chk23 w := fun a => line_le w hw a
theorem chk24 (w : BitVec 32) (hw : w.toNat < 200) : k0_chk24 w := fun a => line_le w hw a
theorem chk25 (w : BitVec 32) (hw : w.toNat < 200) : k0_chk25 w := fun a => line_le w hw a
theorem chk26 (w : BitVec 32) (hw : w.toNat < 200) : k0_chk26 w := fun a => line_le w hw a
theorem chk27 (w : BitVec 32) (hw : w.toNat < 200) : k0_chk27 w := fun a => line_le w hw a
theorem chk28 (w : BitVec 32) (hw : w.toNat < 200) : k0_chk28 w := fun a => line_le w hw a
theorem chk29 (w : BitVec 32) (hw : w.toNat < 200) : k0_chk29 w := fun a => line_le w hw a
theorem chk30 (w : BitVec 32) (hw : w.toNat < 200) : k0_chk30 w := fun a => line_le w hw a
theorem chk31 (w : BitVec 32) (hw : w.toNat < 200) : k0_chk31 w := fun a => line_le w hw a
theorem chk32 (w : BitVec 32) (hw : w.toNat < 200) : k0_chk32 w := fun a => line_le w hw a
theorem chk33 (w : BitVec 32) (hw : w.toNat < 200) : k0_chk33 w := fun a => line_le w hw a
theorem chk34 (w : BitVec 32) (hw : w.toNat < 200) : k0_chk34 w := fun a => line_le w hw a
theorem chk35 (w : BitVec 32) (hw : w.toNat < 200) : k0_chk35 w := fun a => line_le w hw a
theorem chk36 (w : BitVec 32) (hw : w.toNat < 200) : k0_chk36 w := fun a => line_le w hw a
theorem chk37 (w : BitVec 32) (hw : w.toNat < 200) : k0_chk37 w := fun a => line_le w hw a
theorem chk38 (w : BitVec 32) (hw : w.toNat < 200) : k0_chk38 w := fun a => line_le w hw a
theorem chk39 (w : BitVec 32) (hw : w.toNat < 200) : k0_chk39 w := fun a => line_le w hw a
theorem chk40 (w : BitVec 32) (hw : w.toNat < 200) : k0_chk40 w := fun a => line_le w hw a
theorem chk41 (w : BitVec 32) (hw : w.toNat < 200) : k0_chk41 w := fun a => line_le w hw a
theorem chk42 (w : BitVec 32) (hw : w.toNat < 200) : k0_chk42 w := fun a => line_le w hw a
theorem chk43 (w : BitVec 32) (hw : w.toNat < 200) : k0_chk43 w := fun a => line_le w hw a
theorem chk44 (w : BitVec 32) (hw : w.toNat < 200) : k0_chk44 w := fun a => line_le w hw a
theorem chk45 (w : BitVec 32) (hw : w.toNat < 200) : k0_chk45 w := fun a => line_le w hw a
theorem chk46 (w : BitVec 32) (hw : w.toNat < 200) : k0_chk46 w := fun a => line_le w hw a
theorem chk47 (w : BitVec 32) (hw : w.toNat < 200) : k0_chk47 w := fun a => line_le w hw a
theorem chk48 (w : BitVec 32) (hw : w.toNat < 200) : k0_chk48 w := fun a => line_le w hw a

/-- The word a one-entry load reads off the third table is one of the table's words: below 200 when they all are. -/
theorem word_lt (f : tbM0_2.view.ty.Contents (Elt F)) (hf : ∀ x, BitVec.toNat (f x) < 200) (off : Fin 2 → Nat)
    (inb : ∀ a, off a + S1x1.size a ≤ S256x48.size a) (h1 : 0 < S1x1.numel) :
    BitVec.toNat (tbM0_2.view.readAt (Elt F) (Rect.unit (s := S256x48) off S1x1.size inb).toLoadRect f
      (Shape.Idx.first h1)) < 200 := by
  rw [View.readAt_apply, View.read_apply]
  exact hf _

/-- The side condition of the tables' contents, from bounds on the first two tables' words. -/
theorem ok_of_lt (h0 : ∀ x, BitVec.toNat (tbl m 0 x) < 8) (h1 : ∀ x, BitVec.toNat (tbl m 1 x) < 256) : Ok m :=
  ok0_of (tbl m) h0 h1

/-- The body's 48 assumed checks at every grid point, from a bound on the third table's words. -/
theorem hyps_of_lt (hf : ∀ x, BitVec.toNat (tbl m 2 x) < 200) (hO : Ok m) : Hyps m hO :=
  Hyps.of (m := m) (hO := hO)
    (fun _ _ => chk1 _ (word_lt (tbl m 2) hf _ _ _))
    (fun _ _ => chk2 _ (word_lt (tbl m 2) hf _ _ _))
    (fun _ _ => chk3 _ (word_lt (tbl m 2) hf _ _ _))
    (fun _ _ => chk4 _ (word_lt (tbl m 2) hf _ _ _))
    (fun _ _ => chk5 _ (word_lt (tbl m 2) hf _ _ _))
    (fun _ _ => chk6 _ (word_lt (tbl m 2) hf _ _ _))
    (fun _ _ => chk7 _ (word_lt (tbl m 2) hf _ _ _))
    (fun _ _ => chk8 _ (word_lt (tbl m 2) hf _ _ _))
    (fun _ _ => chk9 _ (word_lt (tbl m 2) hf _ _ _))
    (fun _ _ => chk10 _ (word_lt (tbl m 2) hf _ _ _))
    (fun _ _ => chk11 _ (word_lt (tbl m 2) hf _ _ _))
    (fun _ _ => chk12 _ (word_lt (tbl m 2) hf _ _ _))
    (fun _ _ => chk13 _ (word_lt (tbl m 2) hf _ _ _))
    (fun _ _ => chk14 _ (word_lt (tbl m 2) hf _ _ _))
    (fun _ _ => chk15 _ (word_lt (tbl m 2) hf _ _ _))
    (fun _ _ => chk16 _ (word_lt (tbl m 2) hf _ _ _))
    (fun _ _ => chk17 _ (word_lt (tbl m 2) hf _ _ _))
    (fun _ _ => chk18 _ (word_lt (tbl m 2) hf _ _ _))
    (fun _ _ => chk19 _ (word_lt (tbl m 2) hf _ _ _))
    (fun _ _ => chk20 _ (word_lt (tbl m 2) hf _ _ _))
    (fun _ _ => chk21 _ (word_lt (tbl m 2) hf _ _ _))
    (fun _ _ => chk22 _ (word_lt (tbl m 2) hf _ _ _))
    (fun _ _ => chk23 _ (word_lt (tbl m 2) hf _ _ _))
    (fun _ _ => chk24 _ (word_lt (tbl m 2) hf _ _ _))
    (fun _ _ => chk25 _ (word_lt (tbl m 2) hf _ _ _))
    (fun _ _ => chk26 _ (word_lt (tbl m 2) hf _ _ _))
    (fun _ _ => chk27 _ (word_lt (tbl m 2) hf _ _ _))
    (fun _ _ => chk28 _ (word_lt (tbl m 2) hf _ _ _))
    (fun _ _ => chk29 _ (word_lt (tbl m 2) hf _ _ _))
    (fun _ _ => chk30 _ (word_lt (tbl m 2) hf _ _ _))
    (fun _ _ => chk31 _ (word_lt (tbl m 2) hf _ _ _))
    (fun _ _ => chk32 _ (word_lt (tbl m 2) hf _ _ _))
    (fun _ _ => chk33 _ (word_lt (tbl m 2) hf _ _ _))
    (fun _ _ => chk34 _ (word_lt (tbl m 2) hf _ _ _))
    (fun _ _ => chk35 _ (word_lt (tbl m 2) hf _ _ _))
    (fun _ _ => chk36 _ (word_lt (tbl m 2) hf _ _ _))
    (fun _ _ => chk37 _ (word_lt (tbl m 2) hf _ _ _))
    (fun _ _ => chk38 _ (word_lt (tbl m 2) hf _ _ _))
    (fun _ _ => chk39 _ (word_lt (tbl m 2) hf _ _ _))
    (fun _ _ => chk40 _ (word_lt (tbl m 2) hf _ _ _))
    (fun _ _ => chk41 _ (word_lt (tbl m 2) hf _ _ _))
    (fun _ _ => chk42 _ (word_lt (tbl m 2) hf _ _ _))
    (fun _ _ => chk43 _ (word_lt (tbl m 2) hf _ _ _))
    (fun _ _ => chk44 _ (word_lt (tbl m 2) hf _ _ _))
    (fun _ _ => chk45 _ (word_lt (tbl m 2) hf _ _ _))
    (fun _ _ => chk46 _ (word_lt (tbl m 2) hf _ _ _))
    (fun _ _ => chk47 _ (word_lt (tbl m 2) hf _ _ _))
    (fun _ _ => chk48 _ (word_lt (tbl m 2) hf _ _ _))

/-! ## The tables' words are in range -/

/-- Every word of the first table is a clipped image index: below 8. -/
theorem tbl0_lt (x : S256.Idx) : BitVec.toNat (tbl m 0 x) < 8 := by
  obtain ⟨n, rfl⟩ : ∃ n, x = ix1 n := ⟨x 0, eq_ix1 x⟩
  exact lt_of_eq_of_lt (congrArg BitVec.toNat (Tables.tbl0_apply m n)) (Cert.Crop.imgClipW_lt _ _)

/-- Every word of the second table is a box number: below 256. -/
theorem tbl1_lt (x : S256.Idx) : BitVec.toNat (tbl m 1 x) < 256 := by
  obtain ⟨n, rfl⟩ : ∃ n, x = ix1 n := ⟨x 0, eq_ix1 x⟩
  exact lt_of_eq_of_lt (Tables.tbl1_apply m n) (Cert.Crop.permIdx _ n).isLt

/-- Every word of the third table is a source line of some box: below 200. -/
theorem tbl2_lt (x : S256x48.Idx) : BitVec.toNat (tbl m 2 x) < 200 := by
  obtain ⟨n, k, rfl⟩ : ∃ n k, x = ix2 n k := ⟨x 0, x 1, eq_ix2 x⟩
  exact lt_of_eq_of_lt (congrArg BitVec.toNat (Tables.tbl2_apply m n k)) (Cert.Crop.rowsW_lt _ _ _)

/-- Every table-indexed block lies inside its array. -/
theorem ok_of : Ok m := ok_of_lt m (tbl0_lt m) (tbl1_lt m)

/-- Every source line the body reads off the table is a line of the staged image block. -/
theorem hyps_of (hO : Ok m) : Hyps m hO := hyps_of_lt m (tbl2_lt m) hO

end Cert.Kernel.OkHyps

end
-- ==== Proof.KernelIdealHost.lean ====
/-
  What the host operations before the kernel's launch leave in the buffers the launch reads, as functions of the
  argument arrays: the three prefetched tables — the clipped image indices in sorted order, the argsort itself, the
  source lines in sorted order — and the array of source columns in sorted order that the launch stages whole. Each is
  the fold of the host operations read at its buffer, which is the corresponding term of the specification.
-/
import proofs.«423708_j84104049590479_3_alg».proof.Proof.KernelIdealFrame
import proofs.«423708_j84104049590479_3_alg».proof.Proof.Spec
import Idealize.ShloMosaic.Lib.StableHlo.Run

set_option maxRecDepth 16384

noncomputable section

namespace Cert.KernelIdeal.HostK

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ)

/-- Running one line after another is running their concatenation. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-! ## The terms a stretch computes, over what it reads -/

/-- An extent from the clipped far corner and the near corner: the far corner raised to the near one, far − near + 1. -/
def extOf (far near : IVec Cert.Crop.S256 32) : IVec Cert.Crop.S256 32 :=
  addi (subi (maxsi far near) near) (Cert.Crop.splat256 1#32)

open Cert.Crop in
/-- The source lines from the near line and the height. -/
def rowsOf (y0 h : IVec Cert.Crop.S256 32) : IVec Cert.Crop.S256x48 32 :=
  addi (broadcastInDim Cert.Crop.S256x48 ![0, 1] b_col_48 (broadcastInDim Cert.Crop.S256x1 ![0] b_col y0))
    (floorDivW Cert.Crop.S256x48 b_256x48
      (muli (broadcastInDim Cert.Crop.S256x48 ![0, 1] b_row48_all (broadcastInDim Cert.Crop.S1x48 ![1] b_row48 (iotaInDim Cert.Crop.S48 32 0)))
        (broadcastInDim Cert.Crop.S256x48 ![0, 1] b_col_48 (broadcastInDim Cert.Crop.S256x1 ![0] b_col h))) 48#32)

open Cert.Crop in
/-- The source columns from the near column and the width. -/
def colsOf (x0 w : IVec Cert.Crop.S256 32) : IVec Cert.Crop.S256x320 32 :=
  addi (broadcastInDim Cert.Crop.S256x320 ![0, 1] b_col_320 (broadcastInDim Cert.Crop.S256x1 ![0] b_col x0))
    (floorDivW Cert.Crop.S256x320 b_256x320
      (muli (broadcastInDim Cert.Crop.S256x320 ![0, 1] b_row320_all (broadcastInDim Cert.Crop.S1x320 ![1] b_row320 (iotaInDim Cert.Crop.S320 32 0)))
        (broadcastInDim Cert.Crop.S256x320 ![0, 1] b_col_320 (broadcastInDim Cert.Crop.S256x1 ![0] b_col w))) 320#32)

/-- The stable argsort of a vector of keys. -/
def permOf (k : IVec Cert.Crop.S256 32) : IVec Cert.Crop.S256 32 :=
  (Host.sort2 Cert.Crop.S256 0 Cert.Crop.keyLt k (iotaInDim Cert.Crop.S256 32 0)).2

theorem hW_eq (bb : IVec Cert.Crop.S256x4 32) :
    Cert.Crop.hW bb = extOf (Cert.Crop.clipW 0#32 199#32 (Cert.Crop.boxCol bb ![0, 3] Cert.Crop.sl3)) (Cert.Crop.y0W bb) := rfl
theorem wW_eq (bb : IVec Cert.Crop.S256x4 32) :
    Cert.Crop.wW bb = extOf (Cert.Crop.clipW 0#32 319#32 (Cert.Crop.boxCol bb ![0, 2] Cert.Crop.sl2)) (Cert.Crop.x0W bb) := rfl
theorem rowsW_eq (bb : IVec Cert.Crop.S256x4 32) : Cert.Crop.rowsW bb = rowsOf (Cert.Crop.y0W bb) (Cert.Crop.hW bb) := rfl
theorem colsW_eq (bb : IVec Cert.Crop.S256x4 32) : Cert.Crop.colsW bb = colsOf (Cert.Crop.x0W bb) (Cert.Crop.wW bb) := rfl
theorem permW_eq (bi : IVec Cert.Crop.S256 32) : Cert.Crop.permW bi = permOf (Cert.Crop.imgClipW bi) := rfl
theorem imgSortedW_eq (bi : IVec Cert.Crop.S256 32) :
    Cert.Crop.imgSortedW bi
      = Host.gather Cert.Crop.take1Dims (Cert.Crop.imgClipW bi) (Cert.Crop.startColW (permOf (Cert.Crop.imgClipW bi))) := rfl

/-! ## What each group of stretches leaves in the buffers the later ones read

Each group is read from an arbitrary valuation `W`: the fold over its operations at one buffer is that buffer's
operation applied to the fold at its operands, and at a buffer the group does not write it is `W` there. -/

/-! ### The four corner columns, each cut out, flattened and clipped -/

theorem GA_v2 (W : Valuation τ sig (Elt F)) :
    StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))) (main_v2 : DevRef τ sig)
      = Cert.Crop.x0W (W (main_arg1 : DevRef τ sig)) := by
  after_results_simp
  rfl
theorem GA_v5 (W : Valuation τ sig (Elt F)) :
    StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))) (main_v5 : DevRef τ sig)
      = Cert.Crop.y0W (W (main_arg1 : DevRef τ sig)) := by
  after_results_simp
  rfl
theorem GA_v8 (W : Valuation τ sig (Elt F)) :
    StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))) (main_v8 : DevRef τ sig)
      = Cert.Crop.clipW 0#32 319#32 (Cert.Crop.boxCol (W (main_arg1 : DevRef τ sig)) ![0, 2] Cert.Crop.sl2) := by
  after_results_simp
  rfl
theorem GA_v11 (W : Valuation τ sig (Elt F)) :
    StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))) (main_v11 : DevRef τ sig)
      = Cert.Crop.clipW 0#32 199#32 (Cert.Crop.boxCol (W (main_arg1 : DevRef τ sig)) ![0, 3] Cert.Crop.sl3) := by
  after_results_simp
  rfl
theorem GA_arg2 (W : Valuation τ sig (Elt F)) :
    StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))) (main_arg2 : DevRef τ sig)
      = W (main_arg2 : DevRef τ sig) := by after_results_simp

/-! ### The extents, the source lines and columns, the clipped image indices -/

attribute [local irreducible] Host.sort2 Host.gather Host.reduce Host.divsi Host.remsi in
theorem GBC_v30 (W : Valuation τ sig (Elt F)) :
    StableHlo.after hostOps0_13 (StableHlo.after hostOps0_12 (StableHlo.after hostOps0_11 (StableHlo.after hostOps0_10 (StableHlo.after hostOps0_9 (StableHlo.after hostOps0_8 W))))) (main_v30 : DevRef τ sig)
      = rowsOf (W (main_v5 : DevRef τ sig)) (extOf (W (main_v11 : DevRef τ sig)) (W (main_v5 : DevRef τ sig))) := by
  after_results_simp
  rfl
attribute [local irreducible] Host.sort2 Host.gather Host.reduce Host.divsi Host.remsi in
theorem GBC_v39 (W : Valuation τ sig (Elt F)) :
    StableHlo.after hostOps0_13 (StableHlo.after hostOps0_12 (StableHlo.after hostOps0_11 (StableHlo.after hostOps0_10 (StableHlo.after hostOps0_9 (StableHlo.after hostOps0_8 W))))) (main_v39 : DevRef τ sig)
      = colsOf (W (main_v2 : DevRef τ sig)) (extOf (W (main_v8 : DevRef τ sig)) (W (main_v2 : DevRef τ sig))) := by
  after_results_simp
  rfl
theorem GBC_v40 (W : Valuation τ sig (Elt F)) :
    StableHlo.after hostOps0_13 (StableHlo.after hostOps0_12 (StableHlo.after hostOps0_11 (StableHlo.after hostOps0_10 (StableHlo.after hostOps0_9 (StableHlo.after hostOps0_8 W))))) (main_v40 : DevRef τ sig)
      = Cert.Crop.imgClipW (W (main_arg2 : DevRef τ sig)) := by
  after_results_simp
  rfl

/-! ### The argsort, and the clipped image indices gathered through it -/

attribute [local irreducible] Host.sort2 Host.gather Host.reduce Host.divsi Host.remsi in
theorem GD_v41 (W : Valuation τ sig (Elt F)) :
    StableHlo.after hostOps0_15 (StableHlo.after hostOps0_14 W) (main_v41 : DevRef τ sig)
      = permOf (W (main_v40 : DevRef τ sig)) := by
  after_results_simp
  rfl
attribute [local irreducible] Host.sort2 Host.gather Host.reduce Host.divsi Host.remsi in
theorem GD_v48 (W : Valuation τ sig (Elt F)) :
    StableHlo.after hostOps0_15 (StableHlo.after hostOps0_14 W) (main_v48 : DevRef τ sig)
      = Host.gather Cert.Crop.take1Dims (W (main_v40 : DevRef τ sig)) (Cert.Crop.startColW (permOf (W (main_v40 : DevRef τ sig)))) := by
  after_results_simp
  rfl
theorem GD_v30 (W : Valuation τ sig (Elt F)) :
    StableHlo.after hostOps0_15 (StableHlo.after hostOps0_14 W) (main_v30 : DevRef τ sig)
      = W (main_v30 : DevRef τ sig) := by after_results_simp
theorem GD_v39 (W : Valuation τ sig (Elt F)) :
    StableHlo.after hostOps0_15 (StableHlo.after hostOps0_14 W) (main_v39 : DevRef τ sig)
      = W (main_v39 : DevRef τ sig) := by after_results_simp

/-! ### The source lines taken through the argsort -/

attribute [local irreducible] Host.sort2 Host.gather Host.reduce Host.divsi Host.remsi in
theorem GE_v49 (W : Valuation τ sig (Elt F)) :
    StableHlo.after hostOps0_16 W (main_v49 : DevRef τ sig)
      = Cert.Crop.takeRowsW 48 (Cert.Crop.takeDims 48 Cert.Crop.takeWF48) Cert.Crop.b_256_48 Cert.Crop.b_256x48 (W (main_v30 : DevRef τ sig)) (W (main_v41 : DevRef τ sig)) := by
  after_results_simp
  rfl
theorem GE_v41 (W : Valuation τ sig (Elt F)) :
    StableHlo.after hostOps0_16 W (main_v41 : DevRef τ sig)
      = W (main_v41 : DevRef τ sig) := by after_results_simp
theorem GE_v48 (W : Valuation τ sig (Elt F)) :
    StableHlo.after hostOps0_16 W (main_v48 : DevRef τ sig)
      = W (main_v48 : DevRef τ sig) := by after_results_simp
theorem GE_v39 (W : Valuation τ sig (Elt F)) :
    StableHlo.after hostOps0_16 W (main_v39 : DevRef τ sig)
      = W (main_v39 : DevRef τ sig) := by after_results_simp

/-! ### The source columns taken through the argsort -/

attribute [local irreducible] Host.sort2 Host.gather Host.reduce Host.divsi Host.remsi in
theorem GF_v50 (W : Valuation τ sig (Elt F)) :
    StableHlo.after hostOps0_17 W (main_v50 : DevRef τ sig)
      = Cert.Crop.takeRowsW 320 (Cert.Crop.takeDims 320 Cert.Crop.takeWF320) Cert.Crop.b_256_320 Cert.Crop.b_256x320 (W (main_v39 : DevRef τ sig)) (W (main_v41 : DevRef τ sig)) := by
  after_results_simp
  rfl
theorem GF_v41 (W : Valuation τ sig (Elt F)) :
    StableHlo.after hostOps0_17 W (main_v41 : DevRef τ sig)
      = W (main_v41 : DevRef τ sig) := by after_results_simp
theorem GF_v48 (W : Valuation τ sig (Elt F)) :
    StableHlo.after hostOps0_17 W (main_v48 : DevRef τ sig)
      = W (main_v48 : DevRef τ sig) := by after_results_simp
theorem GF_v49 (W : Valuation τ sig (Elt F)) :
    StableHlo.after hostOps0_17 W (main_v49 : DevRef τ sig)
      = W (main_v49 : DevRef τ sig) := by after_results_simp

/-! ## The four buffers the launch reads, after all the stretches -/

/-- The argsort of the clipped image indices. -/
theorem v41_eq (c : Dev nD) : V m c main_v41 = Cert.Crop.permW (m ((c : Thread nD τ).loc main_arg2)) := by
  dsimp only [V]
  simp only [List.flatten_cons, List.flatten_nil, List.append_nil, after_app]
  rw [GF_v41, GE_v41, GD_v41, GBC_v40, GA_arg2, permW_eq]

/-- The clipped image indices carried through the argsort. -/
theorem v48_eq (c : Dev nD) : V m c main_v48 = Cert.Crop.imgSortedW (m ((c : Thread nD τ).loc main_arg2)) := by
  dsimp only [V]
  simp only [List.flatten_cons, List.flatten_nil, List.append_nil, after_app]
  rw [GF_v48, GE_v48, GD_v48, GBC_v40, GA_arg2, imgSortedW_eq]

/-- The source lines carried through the argsort. -/
theorem v49_eq (c : Dev nD) : V m c main_v49
    = Cert.Crop.rowsSortedW (m ((c : Thread nD τ).loc main_arg1)) (m ((c : Thread nD τ).loc main_arg2)) := by
  dsimp only [V]
  simp only [List.flatten_cons, List.flatten_nil, List.append_nil, after_app]
  rw [GF_v49, GE_v49, GD_v30, GD_v41, GBC_v30, GBC_v40, GA_v5, GA_v11, GA_arg2]
  unfold Cert.Crop.rowsSortedW
  rw [rowsW_eq, hW_eq, permW_eq]

/-- The source columns carried through the argsort. -/
theorem v50_eq (c : Dev nD) : V m c main_v50
    = Cert.Crop.colsSortedW (m ((c : Thread nD τ).loc main_arg1)) (m ((c : Thread nD τ).loc main_arg2)) := by
  dsimp only [V]
  simp only [List.flatten_cons, List.flatten_nil, List.append_nil, after_app]
  rw [GF_v50, GE_v39, GE_v41, GD_v39, GD_v41, GBC_v39, GBC_v40, GA_v2, GA_v8, GA_arg2]
  unfold Cert.Crop.colsSortedW
  rw [colsW_eq, wW_eq, permW_eq]

end Cert.KernelIdeal.HostK

end
-- ==== Proof.KernelIdealTables.lean ====
/-
  The launch's tables and its array of source columns, entry by entry, in terms of the argument arrays: at the n-th grid
  position the kernel works on the box that comes n-th in the sorted order, reads that box's clipped image index, its
  48 source lines and its 320 source columns, and writes output block number permW[n].
-/
import proofs.«423708_j84104049590479_3_alg».proof.Proof.KernelIdealHost
import proofs.«423708_j84104049590479_3_alg».proof.Proof.SortedTables

set_option maxRecDepth 16384

noncomputable section

namespace Cert.KernelIdeal.Tables

open Cert.KernelIdeal Cert.KernelIdeal.Gen Cert.KernelIdeal.GenP
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The box table and the image indices as the launch memory holds them on core c. -/
abbrev bbOf (c : Dev nD) : IVec Cert.Crop.S256x4 32 := m ((c : Thread nD τ).loc main_arg1)
abbrev biOf (c : Dev nD) : IVec Cert.Crop.S256 32 := m ((c : Thread nD τ).loc main_arg2)

theorem tbl0_eq : tbl m 0 = Cert.Crop.imgSortedW (biOf m 0) := HostK.v48_eq m 0
theorem tbl1_eq : tbl m 1 = Cert.Crop.permW (biOf m 0) := HostK.v41_eq m 0
theorem tbl2_eq : tbl m 2 = Cert.Crop.rowsSortedW (bbOf m 0) (biOf m 0) := HostK.v49_eq m 0

/-- Table 0 at n: the clipped image index of the n-th box. -/
theorem tbl0_apply (n : Fin 256) :
    tbl m 0 (ix1 n) = Cert.Crop.imgClipW (biOf m 0) (ix1 (Cert.Crop.permIdx (biOf m 0) n)) := by
  rw [tbl0_eq]; exact Cert.Crop.imgSortedW_apply _ n

/-- Table 1 at n: the n-th box itself. -/
theorem tbl1_apply (n : Fin 256) : BitVec.toNat (tbl m 1 (ix1 n)) = (Cert.Crop.permIdx (biOf m 0) n).val := by
  rw [tbl1_eq]; rfl

/-- Table 2 at [n, k]: source line k of the n-th box. -/
theorem tbl2_apply (n : Fin 256) (k : Fin 48) :
    tbl m 2 (ix2 n k) = Cert.Crop.rowsW (bbOf m 0) (ix2 (Cert.Crop.permIdx (biOf m 0) n) k) := by
  rw [tbl2_eq]; exact Cert.Crop.rowsSortedW_apply _ _ n k

/-- The staged column array at [n, j]: source column j of the n-th box. -/
theorem cols_apply (c : Dev nD) (n : Fin 256) (j : Fin 320) :
    V m c main_v50 (ix2 n j) = Cert.Crop.colsW (bbOf m c) (ix2 (Cert.Crop.permIdx (biOf m c) n) j) := by
  rw [HostK.v50_eq]; exact Cert.Crop.colsSortedW_apply _ _ n j

end Cert.KernelIdeal.Tables

end
-- ==== Proof.KernelIdealOkHyps.lean ====
/-
  The launch's side conditions hold for every launch memory. Its index maps read the sorted clipped image index (below
  8, so the image block lies inside the 8 images) and the argsort's entry (below 256, so the output block lies inside
  the 256 boxes); and each of the 48 source lines the body reads off the third table is below 200, so the one-line
  slice it loads lies inside the staged image block.
-/
import proofs.«423708_j84104049590479_3_alg».proof.Proof.KernelIdealTables
import proofs.«423708_j84104049590479_3_alg».proof.Proof.RangeFacts

set_option maxRecDepth 16384

noncomputable section

namespace Cert.KernelIdeal.OkHyps

open Cert.KernelIdeal Cert.KernelIdeal.Gen Cert.KernelIdeal.GenP
open Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The blocks the index maps name lie inside their arrays -/

/-- The image block [1, 32, 200, 320] at block index (w, j, 0, 0) lies inside [8, 64, 200, 320] when w < 8 and j < 2. -/
theorem blk0_le (w : BitVec 32) (hw : w.toNat < 8) (j : Nat) (hj : j < 2) (a : Fin 4) :
    ((![w.toNat, (BitVec.ofNat 32 j).toNat, (0#32 : BitVec 32).toNat, (0#32 : BitVec 32).toNat] : Fin 4 → Nat) a + 1)
      * S1x32x200x320.size a ≤ S8x64x200x320.size a := by
  have e0 : (0#32 : BitVec 32).toNat = 0 := rfl
  have ej : (BitVec.ofNat 32 j).toNat = j := by rw [BitVec.toNat_ofNat]; omega
  rw [e0, ej]
  fin_cases a
  · show (w.toNat + 1) * 1 ≤ 8; omega
  · show (j + 1) * 32 ≤ 64; omega
  · show (0 + 1) * 200 ≤ 200; omega
  · show (0 + 1) * 320 ≤ 320; omega

/-- The output block [1, 32, 48, 320] at block index (w, j, 0, 0) lies inside [256, 64, 48, 320] when w < 256 and j < 2. -/
theorem blk2_le (w : BitVec 32) (hw : w.toNat < 256) (j : Nat) (hj : j < 2) (a : Fin 4) :
    ((![w.toNat, (BitVec.ofNat 32 j).toNat, (0#32 : BitVec 32).toNat, (0#32 : BitVec 32).toNat] : Fin 4 → Nat) a + 1)
      * S1x32x48x320.size a ≤ S256x64x48x320.size a := by
  have e0 : (0#32 : BitVec 32).toNat = 0 := rfl
  have ej : (BitVec.ofNat 32 j).toNat = j := by rw [BitVec.toNat_ofNat]; omega
  rw [e0, ej]
  fin_cases a
  · show (w.toNat + 1) * 1 ≤ 256; omega
  · show (j + 1) * 32 ≤ 64; omega
  · show (0 + 1) * 48 ≤ 48; omega
  · show (0 + 1) * 320 ≤ 320; omega

/-- For any table contents whose first table holds words below 8 and whose second table holds words below 256, the image
    block and the output block named at every grid point lie inside their arrays. -/
theorem ok0_of (pf : pre0.Contents (Elt F)) (h0 : ∀ x, BitVec.toNat (pf 0 x) < 8) (h1 : ∀ x, BitVec.toNat (pf 1 x) < 256) :
    ok0 pf := by
  refine ⟨fun i => ⟨fun a => ?_, Or.inl rfl⟩, fun i => ⟨fun a => ?_, Or.inl rfl⟩⟩
  · unfold cc0_transform_0
    exact blk0_le _ (h0 _) _ (i 1).isLt a
  · unfold cc0_transform_2
    exact blk2_le _ (h1 _) _ (i 1).isLt a

/-! ## The source lines read off the third table -/

/-- The one-line slice [1, 32, 1, 320] at line w of the staged image block [1, 32, 200, 320] lies inside it when w < 200. -/
theorem line_le (w : BitVec 32) (hw : w.toNat < 200) (a : Fin 4) :
    (![0, 0, (Scalar.indexCast w).toNat, 0] : Fin 4 → Nat) a + S1x32x1x320.size a ≤ S1x32x200x320.size a := by
  have e : (Scalar.indexCast w).toNat = w.toNat := rfl
  rw [e]
  fin_cases a
  · show 0 + 1 ≤ 1; omega
  · show 0 + 32 ≤ 32; omega
  · show w.toNat + 1 ≤ 200; omega
  · show 0 + 320 ≤ 320; omega

/-! The 48 checks, one per output line, are that same fact of the word read for the line. -/
theorem chk1 (w : BitVec 32) (hw : w.toNat < 200) : k0_chk1 w := fun a => line_le w hw a
theorem chk2 (w : BitVec 32) (hw : w.toNat < 200) : k0_chk2 w := fun a => line_le w hw a
theorem chk3 (w : BitVec 32) (hw : w.toNat < 200) : k0_chk3 w := fun a => line_le w hw a
theorem chk4 (w : BitVec 32) (hw : w.toNat < 200) : k0_chk4 w := fun a => line_le w hw a
theorem chk5 (w : BitVec 32) (hw : w.toNat < 200) : k0_chk5 w := fun a => line_le w hw a
theorem chk6 (w : BitVec 32) (hw : w.toNat < 200) : k0_chk6 w := fun a => line_le w hw a
theorem chk7 (w : BitVec 32) (hw : w.toNat < 200) : k0_chk7 w := fun a => line_le w hw a
theorem chk8 (w : BitVec 32) (hw : w.toNat < 200) : k0_chk8 w := fun a => line_le w hw a
theorem chk9 (w : BitVec 32) (hw : w.toNat < 200) : k0_chk9 w := fun a => line_le w hw a
theorem chk10 (w : BitVec 32) (hw : w.toNat < 200) : k0_chk10 w := fun a => line_le w hw a
theorem chk11 (w : BitVec 32) (hw : w.toNat < 200) : k0_chk11 w := fun a => line_le w hw a
theorem chk12 (w : BitVec 32) (hw : w.toNat < 200) : k0_chk12 w := fun a => line_le w hw a
theorem chk13 (w : BitVec 32) (hw : w.toNat < 200) : k0_chk13 w := fun a => line_le w hw a
theorem chk14 (w : BitVec 32) (hw : w.toNat < 200) : k0_chk14 w := fun a => line_le w hw a
theorem chk15 (w : BitVec 32) (hw : w.toNat < 200) : k0_chk15 w := fun a => line_le w hw a
theorem chk16 (w : BitVec 32) (hw : w.toNat < 200) : k0_chk16 w := fun a => line_le w hw a
theorem chk17 (w : BitVec 32) (hw : w.toNat < 200) : k0_chk17 w := fun a => line_le w hw a
theorem chk18 (w : BitVec 32) (hw : w.toNat < 200) : k0_chk18 w := fun a => line_le w hw a
theorem chk19 (w : BitVec 32) (hw : w.toNat < 200) : k0_chk19 w := fun a => line_le w hw a
theorem chk20 (w : BitVec 32) (hw : w.toNat < 200) : k0_chk20 w := fun a => line_le w hw a
theorem chk21 (w : BitVec 32) (hw : w.toNat < 200) : k0_chk21 w := fun a => line_le w hw a
theorem chk22 (w : BitVec 32) (hw : w.toNat < 200) : k0_chk22 w := fun a => line_le w hw a
theorem chk23 (w : BitVec 32) (hw : w.toNat < 200) : k0_chk23 w := fun a => line_le w hw a
theorem chk24 (w : BitVec 32) (hw : w.toNat < 200) : k0_chk24 w := fun a => line_le w hw a
theorem chk25 (w : BitVec 32) (hw : w.toNat < 200) : k0_chk25 w := fun a => line_le w hw a
theorem chk26 (w : BitVec 32) (hw : w.toNat < 200) : k0_chk26 w := fun a => line_le w hw a
theorem chk27 (w : BitVec 32) (hw : w.toNat < 200) : k0_chk27 w := fun a => line_le w hw a
theorem chk28 (w : BitVec 32) (hw : w.toNat < 200) : k0_chk28 w := fun a => line_le w hw a
theorem chk29 (w : BitVec 32) (hw : w.toNat < 200) : k0_chk29 w := fun a => line_le w hw a
theorem chk30 (w : BitVec 32) (hw : w.toNat < 200) : k0_chk30 w := fun a => line_le w hw a
theorem chk31 (w : BitVec 32) (hw : w.toNat < 200) : k0_chk31 w := fun a => line_le w hw a
theorem chk32 (w : BitVec 32) (hw : w.toNat < 200) : k0_chk32 w := fun a => line_le w hw a
theorem chk33 (w : BitVec 32) (hw : w.toNat < 200) : k0_chk33 w := fun a => line_le w hw a
theorem chk34 (w : BitVec 32) (hw : w.toNat < 200) : k0_chk34 w := fun a => line_le w hw a
theorem chk35 (w : BitVec 32) (hw : w.toNat < 200) : k0_chk35 w := fun a => line_le w hw a
theorem chk36 (w : BitVec 32) (hw : w.toNat < 200) : k0_chk36 w := fun a => line_le w hw a
theorem chk37 (w : BitVec 32) (hw : w.toNat < 200) : k0_chk37 w := fun a => line_le w hw a
theorem chk38 (w : BitVec 32) (hw : w.toNat < 200) : k0_chk38 w := fun a => line_le w hw a
theorem chk39 (w : BitVec 32) (hw : w.toNat < 200) : k0_chk39 w := fun a => line_le w hw a
theorem chk40 (w : BitVec 32) (hw : w.toNat < 200) : k0_chk40 w := fun a => line_le w hw a
theorem chk41 (w : BitVec 32) (hw : w.toNat < 200) : k0_chk41 w := fun a => line_le w hw a
theorem chk42 (w : BitVec 32) (hw : w.toNat < 200) : k0_chk42 w := fun a => line_le w hw a
theorem chk43 (w : BitVec 32) (hw : w.toNat < 200) : k0_chk43 w := fun a => line_le w hw a
theorem chk44 (w : BitVec 32) (hw : w.toNat < 200) : k0_chk44 w := fun a => line_le w hw a
theorem chk45 (w : BitVec 32) (hw : w.toNat < 200) : k0_chk45 w := fun a => line_le w hw a
theorem chk46 (w : BitVec 32) (hw : w.toNat < 200) : k0_chk46 w := fun a => line_le w hw a
theorem chk47 (w : BitVec 32) (hw : w.toNat < 200) : k0_chk47 w := fun a => line_le w hw a
theorem chk48 (w : BitVec 32) (hw : w.toNat < 200) : k0_chk48 w := fun a => line_le w hw a

/-- The word a one-entry load reads off the third table is one of the table's words: below 200 when they all are. -/
theorem word_lt (f : tbM0_2.view.ty.Contents (Elt F)) (hf : ∀ x, BitVec.toNat (f x) < 200) (off : Fin 2 → Nat)
    (inb : ∀ a, off a + S1x1.size a ≤ S256x48.size a) (h1 : 0 < S1x1.numel) :
    BitVec.toNat (tbM0_2.view.readAt (Elt F) (Rect.unit (s := S256x48) off S1x1.size inb).toLoadRect f
      (Shape.Idx.first h1)) < 200 := by
  rw [View.readAt_apply, View.read_apply]
  exact hf _

/-- The side condition of the tables' contents, from bounds on the first two tables' words. -/
theorem ok_of_lt (h0 : ∀ x, BitVec.toNat (tbl m 0 x) < 8) (h1 : ∀ x, BitVec.toNat (tbl m 1 x) < 256) : Ok m :=
  ok0_of (tbl m) h0 h1

/-- The body's 48 assumed checks at every grid point, from a bound on the third table's words. -/
theorem hyps_of_lt (hf : ∀ x, BitVec.toNat (tbl m 2 x) < 200) (hO : Ok m) : Hyps m hO :=
  Hyps.of (m := m) (hO := hO)
    (fun _ _ => chk1 _ (word_lt (tbl m 2) hf _ _ _))
    (fun _ _ => chk2 _ (word_lt (tbl m 2) hf _ _ _))
    (fun _ _ => chk3 _ (word_lt (tbl m 2) hf _ _ _))
    (fun _ _ => chk4 _ (word_lt (tbl m 2) hf _ _ _))
    (fun _ _ => chk5 _ (word_lt (tbl m 2) hf _ _ _))
    (fun _ _ => chk6 _ (word_lt (tbl m 2) hf _ _ _))
    (fun _ _ => chk7 _ (word_lt (tbl m 2) hf _ _ _))
    (fun _ _ => chk8 _ (word_lt (tbl m 2) hf _ _ _))
    (fun _ _ => chk9 _ (word_lt (tbl m 2) hf _ _ _))
    (fun _ _ => chk10 _ (word_lt (tbl m 2) hf _ _ _))
    (fun _ _ => chk11 _ (word_lt (tbl m 2) hf _ _ _))
    (fun _ _ => chk12 _ (word_lt (tbl m 2) hf _ _ _))
    (fun _ _ => chk13 _ (word_lt (tbl m 2) hf _ _ _))
    (fun _ _ => chk14 _ (word_lt (tbl m 2) hf _ _ _))
    (fun _ _ => chk15 _ (word_lt (tbl m 2) hf _ _ _))
    (fun _ _ => chk16 _ (word_lt (tbl m 2) hf _ _ _))
    (fun _ _ => chk17 _ (word_lt (tbl m 2) hf _ _ _))
    (fun _ _ => chk18 _ (word_lt (tbl m 2) hf _ _ _))
    (fun _ _ => chk19 _ (word_lt (tbl m 2) hf _ _ _))
    (fun _ _ => chk20 _ (word_lt (tbl m 2) hf _ _ _))
    (fun _ _ => chk21 _ (word_lt (tbl m 2) hf _ _ _))
    (fun _ _ => chk22 _ (word_lt (tbl m 2) hf _ _ _))
    (fun _ _ => chk23 _ (word_lt (tbl m 2) hf _ _ _))
    (fun _ _ => chk24 _ (word_lt (tbl m 2) hf _ _ _))
    (fun _ _ => chk25 _ (word_lt (tbl m 2) hf _ _ _))
    (fun _ _ => chk26 _ (word_lt (tbl m 2) hf _ _ _))
    (fun _ _ => chk27 _ (word_lt (tbl m 2) hf _ _ _))
    (fun _ _ => chk28 _ (word_lt (tbl m 2) hf _ _ _))
    (fun _ _ => chk29 _ (word_lt (tbl m 2) hf _ _ _))
    (fun _ _ => chk30 _ (word_lt (tbl m 2) hf _ _ _))
    (fun _ _ => chk31 _ (word_lt (tbl m 2) hf _ _ _))
    (fun _ _ => chk32 _ (word_lt (tbl m 2) hf _ _ _))
    (fun _ _ => chk33 _ (word_lt (tbl m 2) hf _ _ _))
    (fun _ _ => chk34 _ (word_lt (tbl m 2) hf _ _ _))
    (fun _ _ => chk35 _ (word_lt (tbl m 2) hf _ _ _))
    (fun _ _ => chk36 _ (word_lt (tbl m 2) hf _ _ _))
    (fun _ _ => chk37 _ (word_lt (tbl m 2) hf _ _ _))
    (fun _ _ => chk38 _ (word_lt (tbl m 2) hf _ _ _))
    (fun _ _ => chk39 _ (word_lt (tbl m 2) hf _ _ _))
    (fun _ _ => chk40 _ (word_lt (tbl m 2) hf _ _ _))
    (fun _ _ => chk41 _ (word_lt (tbl m 2) hf _ _ _))
    (fun _ _ => chk42 _ (word_lt (tbl m 2) hf _ _ _))
    (fun _ _ => chk43 _ (word_lt (tbl m 2) hf _ _ _))
    (fun _ _ => chk44 _ (word_lt (tbl m 2) hf _ _ _))
    (fun _ _ => chk45 _ (word_lt (tbl m 2) hf _ _ _))
    (fun _ _ => chk46 _ (word_lt (tbl m 2) hf _ _ _))
    (fun _ _ => chk47 _ (word_lt (tbl m 2) hf _ _ _))
    (fun _ _ => chk48 _ (word_lt (tbl m 2) hf _ _ _))

/-! ## The tables' words are in range -/

/-- Every word of the first table is a clipped image index: below 8. -/
theorem tbl0_lt (x : S256.Idx) : BitVec.toNat (tbl m 0 x) < 8 := by
  obtain ⟨n, rfl⟩ : ∃ n, x = ix1 n := ⟨x 0, eq_ix1 x⟩
  exact lt_of_eq_of_lt (congrArg BitVec.toNat (Tables.tbl0_apply m n)) (Cert.Crop.imgClipW_lt _ _)

/-- Every word of the second table is a box number: below 256. -/
theorem tbl1_lt (x : S256.Idx) : BitVec.toNat (tbl m 1 x) < 256 := by
  obtain ⟨n, rfl⟩ : ∃ n, x = ix1 n := ⟨x 0, eq_ix1 x⟩
  exact lt_of_eq_of_lt (Tables.tbl1_apply m n) (Cert.Crop.permIdx _ n).isLt

/-- Every word of the third table is a source line of some box: below 200. -/
theorem tbl2_lt (x : S256x48.Idx) : BitVec.toNat (tbl m 2 x) < 200 := by
  obtain ⟨n, k, rfl⟩ : ∃ n k, x = ix2 n k := ⟨x 0, x 1, eq_ix2 x⟩
  exact lt_of_eq_of_lt (congrArg BitVec.toNat (Tables.tbl2_apply m n k)) (Cert.Crop.rowsW_lt _ _ _)

/-- Every table-indexed block lies inside its array. -/
theorem ok_of : Ok m := ok_of_lt m (tbl0_lt m) (tbl1_lt m)

/-- Every source line the body reads off the table is a line of the staged image block. -/
theorem hyps_of (hO : Ok m) : Hyps m hO := hyps_of_lt m (tbl2_lt m) hO

end Cert.KernelIdeal.OkHyps

end
-- ==== Proof.KernelIdealBodyLines.lean ====
/-
  The row gather of the kernel's body, line by line, over plain arrays. The body fills a scratch buffer of 32 channels ×
  48 lines × 320 columns: line k of it is one line of the staged image block (all channels, all columns), namely the
  line whose number is the k-th word of the box's row of the third table. Each lemma here reads one of the layout steps
  at an index: a loaded [1, 32, 1, 320] line cast to [32, 1, 320]; a load through a rectangle that starts at a line
  number; the table's word read through a one-entry rectangle; the box's row of the column array read through a
  one-row rectangle. Together they say: the scratch, however many line stores wrote it, is ONE function of the image
  block and the table's words.
-/
import proofs.«423708_j84104049590479_3_alg».proof.KernelIdeal
import Idealize.ShloMosaic.Lib.ValueIdx
import Idealize.ShloMosaic.Lib.ValueLayout
import Idealize.ShloMosaic.Lib.Pipeline.Value

set_option maxRecDepth 16384

noncomputable section

namespace Cert.KernelIdeal.Body

open Cert.KernelIdeal
open Idealize.ShloMosaic Idealize.ShloMosaic.TcCoe Idealize.SL.Sem Idealize.ShloMosaic.ValueIdx

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The scratch as one function: entry [ch, k, w] is the image block's entry [0, ch, r, w] with r the line number
    (below 200) that the k-th word names. -/
def scrFn (x0 : Vec Ideal S1x32x200x320 .f32) (W : Fin 48 → BitVec 32) : Vec Ideal S32x48x320 .f32 :=
  fun y => x0 (ix4 (0 : Fin 1) (⟨(y 0).val, (y 0).isLt⟩ : Fin 32)
    (⟨BitVec.toNat (W ⟨(y 1).val, (y 1).isLt⟩) % 200, Nat.mod_lt _ (by decide)⟩ : Fin 200) (⟨(y 2).val, (y 2).isLt⟩ : Fin 320))

theorem scrFn_apply (x0 : Vec Ideal S1x32x200x320 .f32) (W : Fin 48 → BitVec 32) (ch : Fin 32) (k : Fin 48) (w : Fin 320) :
    scrFn x0 W (ix3 ch k w) = x0 (ix4 (0 : Fin 1) ch ⟨BitVec.toNat (W k) % 200, Nat.mod_lt _ (by decide)⟩ w) := rfl

/-- The box's row of the column array, as a [1, 320] array. -/
def colsRow (x1 : Vec Ideal S256x320 .i32) (n : Fin 256) : Vec Ideal S1x320 .i32 :=
  fun y => x1 (ix2 n (⟨(y 1).val, (y 1).isLt⟩ : Fin 320))

theorem colsRow_apply (x1 : Vec Ideal S256x320 .i32) (n : Fin 256) (j : Fin 320) :
    colsRow x1 n (ix2 (0 : Fin 1) j) = x1 (ix2 n j) := rfl

/-- A rectangle of the whole shape at zero offsets places every index at itself. -/
theorem idx_unit_zero {S : Shape} {off : Fin S.rank → Nat} (h : off = fun _ => 0) (inb : ∀ a, off a + S.size a ≤ S.size a)
    (y : S.Idx) : (Rect.unit off S.size inb).idx y = y := by
  subst h
  funext a
  apply Fin.ext
  show 0 + 1 * (y a).val = (y a).val
  omega

/-- A loaded [1, 32, 1, 320] line cast to [32, 1, 320] (and once more to the same shape) keeps its entries. -/
theorem payline_apply (v : Vec Ideal S1x32x1x320 .f32) (h1 : S1x32x1x320.ShapeCasts S32x1x320) (h2 : S32x1x320.ShapeCasts S32x1x320)
    (c : Fin 32) (u : Fin 1) (l : Fin 320) :
    shapeCast S32x1x320 (shapeCast S32x1x320 v h1) h2 (ix3 c u l) = v (ix4 (0 : Fin 1) c u l) := by
  rw [shapeCast_self]
  exact shapeCast_1abc_abc_apply v h1 c u l

/-- The line store at lines [k, k + 1) of the scratch: its payload, a cast of the image block's line number w (all
    channels, all columns), is the scratch function on the store's rectangle when the k-th word is w. -/
theorem line_apply (x0 : Vec Ideal S1x32x200x320 .f32) (W : Fin 48 → BitVec 32)
    (P : FVec Ideal S32x1x320 .f32) (w : BitVec 32) (off : Fin 4 → Nat)
    (inb : ∀ a, off a + S1x32x1x320.size a ≤ S1x32x200x320.size a)
    (hP : ∀ (c : Fin 32) (u : Fin 1) (l : Fin 320),
      P (ix3 c u l) = View.ld x0 (Rect.unit (s := S1x32x200x320) off S1x32x1x320.size inb) (ix4 (0 : Fin 1) c u l))
    (hoff : off = ![0, 0, BitVec.toNat w, 0])
    (offk : Fin 3 → Nat) (inbk : ∀ a, offk a + S32x1x320.size a ≤ S32x48x320.size a)
    (h0 : offk 0 = 0) (h2 : offk 2 = 0) (hk : offk 1 < 48) (hw : W ⟨offk 1, hk⟩ = w)
    (x : (Rect.unit (s := S32x48x320) offk S32x1x320.size inbk).shape.Idx) :
    P x = scrFn x0 W ((Rect.unit (s := S32x48x320) offk S32x1x320.size inbk).emb x) := by
  obtain ⟨c, u, l, rfl⟩ : ∃ (c : Fin 32) (u : Fin 1) (l : Fin 320), x = ix3 c u l := ⟨x 0, x 1, x 2, eq_ix3 x⟩
  subst hoff
  have hlt : BitVec.toNat w < 200 := by
    have h : BitVec.toNat w + 1 ≤ 200 := inb 2
    omega
  have hu : u.val = 0 := by omega
  rw [hP c u l]
  show x0 _ = x0 _
  refine congrArg x0 (funext fun a => Fin.ext ?_)
  match a with
  | ⟨0, _⟩ => show 0 + 1 * 0 = 0; rfl
  | ⟨1, _⟩ => show 0 + 1 * c.val = offk 0 + 1 * c.val; rw [h0]
  | ⟨2, _⟩ =>
    show BitVec.toNat w + 1 * u.val = BitVec.toNat (W ⟨offk 1 + 1 * u.val, _⟩) % 200
    have e : (⟨offk 1 + 1 * u.val, by omega⟩ : Fin 48) = ⟨offk 1, hk⟩ := Fin.ext (by show offk 1 + 1 * u.val = offk 1; omega)
    rw [e, hw, hu, Nat.mod_eq_of_lt hlt, Nat.mul_zero, Nat.add_zero]
  | ⟨3, _⟩ => show 0 + 1 * l.val = offk 2 + 1 * l.val; rw [h2]

/-- The table's word read through the one-entry rectangle at [n, k] is its entry [n, k]. -/
theorem word_ld (X : Vec Ideal S256x48 .i32) (n : Fin 256) (k : Fin 48) (off : Fin 2 → Nat)
    (h0 : off 0 = n.val) (h1 : off 1 = k.val) (inb : ∀ a, off a + S1x1.size a ≤ S256x48.size a) (hpos : 0 < S1x1.numel) :
    View.ld X (Rect.unit (s := S256x48) off S1x1.size inb) (Shape.Idx.first hpos) = X (ix2 n k) := by
  show X _ = X _
  refine congrArg X (funext fun a => Fin.ext ?_)
  match a with
  | ⟨0, _⟩ => show off 0 + 1 * 0 = n.val; omega
  | ⟨1, _⟩ => show off 1 + 1 * 0 = k.val; omega

/-- The column array read through the one-row rectangle at row n is its row n. -/
theorem cols_ld (x1 : Vec Ideal S256x320 .i32) (n : Fin 256) (off : Fin 2 → Nat) (h0 : off 0 = n.val) (h1 : off 1 = 0)
    (inb : ∀ a, off a + S1x320.size a ≤ S256x320.size a) :
    View.ld x1 (Rect.unit (s := S256x320) off S1x320.size inb) = colsRow x1 n := by
  funext y
  show x1 _ = x1 _
  refine congrArg x1 (funext fun a => Fin.ext ?_)
  have hy : (y 0).val = 0 := by have h : (y 0).val < 1 := (y 0).isLt; omega
  match a with
  | ⟨0, _⟩ => show off 0 + 1 * (y 0).val = n.val; omega
  | ⟨1, _⟩ => show off 1 + 1 * (y 1).val = (y 1).val; omega

end Cert.KernelIdeal.Body

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.KernelIdealSelect.lean ====
/-
  The column selection as a matrix product. The selector has a 1 at [w, j] exactly where the source column cols[j] is
  w, and 0 elsewhere; the product of the flattened scratch with it, added to a zero accumulator, has at [r, j] the sum
  over w of scratch[r, w] · selector[w, j]. Every scratch entry being a real number, each term with selector 0 is 0 and
  the one term with selector 1 is the scratch entry itself: the sum is scratch[r, cols[j]].
-/
import proofs.«423708_j84104049590479_3_alg».proof.Proof.Gen.KernelIdeal.Skeleton
import proofs.«423708_j84104049590479_3_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.KernelIdeal.Select

open Cert.KernelIdeal Cert.KernelIdeal.Gen
open Idealize.ShloMosaic Idealize.ShloMosaic.TcCoe Idealize.ShloMosaic.ValueIdx

/-- The flattened scratch at row 48·ch + k is the scratch at channel ch, line k. -/
theorem flat_apply {α : Type} (scr : S32x48x320.Idx → α) (h : S32x48x320.ShapeCasts S1536x320) (ch : Fin 32) (k : Fin 48)
    (w : Fin 320) (hr : 48 * ch.val + k.val < 1536) :
    shapeCast S1536x320 scr h (ix2 ⟨48 * ch.val + k.val, hr⟩ w) = scr (ix3 ch k w) := by
  refine shapeCast_apply scr h _ (ix3 ch k w) ?_
  rw [Shape.rowMajor_val_two, Shape.rowMajor_val_three]
  show (ch.val * 48 + k.val) * 320 + w.val = (48 * ch.val + k.val) * 320 + w.val
  omega

/-- The product regrouped by channel and line, at [ch, k, j], is the flat product at row 48·ch + k. -/
theorem unflat_apply {α : Type} (v : S1536x320.Idx → α) (h : S1536x320.ShapeCasts S32x48x320) (ch : Fin 32) (k : Fin 48)
    (j : Fin 320) (hr : 48 * ch.val + k.val < 1536) :
    shapeCast S32x48x320 v h (ix3 ch k j) = v (ix2 ⟨48 * ch.val + k.val, hr⟩ j) := by
  refine shapeCast_apply v h _ (ix2 ⟨48 * ch.val + k.val, hr⟩ j) ?_
  rw [Shape.rowMajor_val_two, Shape.rowMajor_val_three]
  show (48 * ch.val + k.val) * 320 + j.val = (ch.val * 48 + k.val) * 320 + j.val
  omega

/-- The selector at [w, j]: 1 where the source column of output column j is w, else 0. -/
theorem selector_apply (cols : IVec S1x320 32) (h1 : S1x320.ShapeCasts S320) (h2 : S320.ShapeCasts S1x320)
    (hb : S1x320.Broadcasts S320x320) (hi : S320x320.Iotas .tc 32 [0]) (hlt : 1 < 32) (w j : Fin 320) :
    sitofp (F := Ideal) .f32 (extui 32 (cmpi .eq (broadcastTo S320x320 (shapeCast S1x320 (shapeCast S320 cols h1) h2) hb)
        (iota .tc S320x320 32 [0] hi)) hlt) (ix2 w j)
      = if (cols (ix2 (0 : Fin 1) j)).toNat = w.val then (1 : EReal) else 0 := by
  rw [shapeCast_shapeCast]
  have eb : broadcastTo S320x320 cols hb (ix2 w j) = cols (ix2 (0 : Fin 1) j) :=
    broadcastTo_apply cols hb (ix2 w j) (ix2 (0 : Fin 1) j) (fun a => by match a with | ⟨0, _⟩ => rfl | ⟨1, _⟩ => rfl)
  have ei : iota .tc S320x320 32 [0] hi (ix2 w j) = BitVec.ofNat 32 w.val := by
    show BitVec.ofNat 32 (0 * 320 + w.val) = _
    rw [Nat.zero_mul, Nat.zero_add]
  show ((((IntOp.cmpi .eq (broadcastTo S320x320 cols hb (ix2 w j)) (iota .tc S320x320 32 [0] hi (ix2 w j))).setWidth 32).toInt : ℝ) : EReal) = _
  rw [eb, ei]
  have hwlt := w.isLt
  by_cases hw : (cols (ix2 (0 : Fin 1) j)).toNat = w.val
  · have e : cols (ix2 (0 : Fin 1) j) = BitVec.ofNat 32 w.val :=
      BitVec.eq_of_toNat_eq (by rw [BitVec.toNat_ofNat, hw]; exact (Nat.mod_eq_of_lt (by omega)).symm)
    rw [if_pos hw, e]
    simp [IntOp.cmpi]
  · have e : cols (ix2 (0 : Fin 1) j) ≠ BitVec.ofNat 32 w.val := fun e =>
      hw (by rw [e, BitVec.toNat_ofNat]; exact Nat.mod_eq_of_lt (by omega))
    have e' : (cols (ix2 (0 : Fin 1) j) == BitVec.ofNat 32 w.val) = false := beq_eq_false_iff_ne.2 e
    rw [if_neg hw]
    simp [IntOp.cmpi, e']

/-- The body's last payload at [ch, k, j]: the scratch at channel ch, line k, at the column the staged row of source
    columns names for output column j. -/
theorem pay54_apply (cols : Vec Ideal S1x320 .i32) (scr : Vec Ideal S32x48x320 .f32)
    (hfin : ∀ y, ∃ r : ℝ, scr y = (r : EReal))
    (hcol : ∀ j : Fin 320, BitVec.toNat (cols (ix2 (0 : Fin 1) j)) < 320)
    (ch : Fin 32) (k : Fin 48) (j : Fin 320) :
    k0_pay54 (F := Ideal) cols scr (ix3 ch k j) = scr (ix3 ch k ⟨BitVec.toNat (cols (ix2 (0 : Fin 1) j)), hcol j⟩) := by
  have hrow : 48 * ch.val + k.val < 1536 := by have := ch.isLt; have := k.isLt; omega
  unfold k0_pay54
  rw [unflat_apply _ _ ch k j hrow]
  -- the product at [48·ch + k, j] is the sum over w of scratch[48·ch + k, w] · selector[w, j]
  refine (Cert.LibPlainDot.matmul_plain_apply 1536 320 320 (some .fp32) _ _ ⟨48 * ch.val + k.val, hrow⟩ j).trans ?_
  -- only the term at w = cols[j] is not zero
  rw [Finset.sum_eq_single (⟨BitVec.toNat (cols (ix2 (0 : Fin 1) j)), hcol j⟩ : Fin 320)]
  · rw [flat_apply, selector_apply, if_pos rfl, mul_one]
  · intro w _ hw
    rw [flat_apply, selector_apply, if_neg (fun e => hw (Fin.ext e.symm))]
    obtain ⟨r, hr⟩ := hfin (ix3 ch k w)
    rw [hr, ← EReal.coe_zero, ← EReal.coe_mul, mul_zero]
  · intro h
    exact absurd (Finset.mem_univ _) h

end Cert.KernelIdeal.Select

end
-- ==== Proof.KernelIdealBody.lean ====
/-
  What the kernel's body leaves in the output block at one grid point. The body copies, for each of the 48 output lines,
  the source line the third table names (all 32 channels, all 320 columns) from the staged image block into a scratch
  buffer; then it multiplies the scratch, flattened to 1536 × 320, by the 320 × 320 matrix whose column j is the unit
  vector at the source column cols[j] (1 where cols[j] equals the row's index, 0 elsewhere), into a zero accumulator.
  Over the extended reals a sum in which every term but one is a finite number times zero is that one term, so element
  [ch, k, j] of the product is the scratch's element [ch, k, cols[j]], which is the image block's element
  [ch, rows[k], cols[j]].

  The steps here: the output block holds the one covering store's payload, a reshape of the product; the product's
  left factor is the scratch read back whole, and the scratch, written by 48 one-line stores that tile it, is ONE
  function of the image block and of the table's 48 words for this box (line k of it is the image line the k-th word
  names; the word is below 200, as the body's check of it says, so reducing it modulo 200 changes nothing); the
  product's right factor is built from the box's row of the column array. Reading the reshape, then the product, then
  the scratch function at [ch, k, j] gives the statement.
-/
import proofs.«423708_j84104049590479_3_alg».proof.Proof.KernelIdealFrame
import proofs.«423708_j84104049590479_3_alg».proof.Proof.KernelIdealBodyLines
import proofs.«423708_j84104049590479_3_alg».proof.Proof.KernelIdealSelect
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen Cert.KernelIdeal.GenP
open Idealize.ShloMosaic Idealize.ShloMosaic.TcCoe Idealize.SL.Sem Idealize.ShloMosaic.ValueIdx
open Idealize.ShloMosaic.Tactic

/-- The sorted position a grid point works on: its first coordinate. -/
def boxPos (i : grid0.Coords) : Fin 256 := ⟨(i 0).val, (i 0).isLt⟩

/-- The 48 words of the third table for the grid point's box: word k names the source line of output line k. -/
def rowWord (c : Dev nD) (i : grid0.Coords) (xt2 : TbBuf0 (F := Ideal) c tbM0_2) : Fin 48 → BitVec 32 :=
  fun k => xt2 (ix2 (boxPos i) k)

/-- The grid coordinate, as the 32-bit word the body casts to an offset, is the sorted position (it is below 256). -/
theorem off_row (i : grid0.Coords) : BitVec.toNat (Scalar.indexCast (BitVec.ofNat 32 (i 0).val)) = (boxPos i).val := by
  show BitVec.toNat (BitVec.ofNat 32 (i 0).val) = (i 0).val
  have h : (i 0).val < 256 := (i 0).isLt
  rw [BitVec.toNat_ofNat]
  exact Nat.mod_eq_of_lt (by omega)

/-- The output block the body leaves: the reshape of the product of the scratch function with the selector built from the
    box's row of the column array. -/
theorem body_eq (c : Dev nD) (i : grid0.Coords) (arg5 : Memref sig .tc .vmem S1x32x200x320 .f32) (harg5 : arg5.IsWhole) (arg6 : Memref sig .tc .vmem S256x320 .i32) (harg6 : arg6.IsWhole) (arg7 : Memref sig .tc .vmem S1x32x48x320 .f32) (harg7 : arg7.IsWhole) (arg8 : Memref sig .tc .vmem S32x48x320 .f32) (harg8 : arg8.IsWhole)
    (x0 : Vec Ideal S1x32x200x320 .f32) (x1 : Vec Ideal S256x320 .i32) (xt0 : TbBuf0 (F := Ideal) c tbM0_0) (xt1 : TbBuf0 (F := Ideal) c tbM0_1) (xt2 : TbBuf0 (F := Ideal) c tbM0_2) (k0_hw1 : k0_chk1 (tbM0_2.view.readAt (Elt Ideal) (Rect.unit (s := S256x48) (k0_off2 i) S1x1.size (k0_off2_inb i)).toLoadRect xt2 (Shape.Idx.first (numel1_S1x1.symm ▸ Nat.one_pos)))) (k0_hw2 : k0_chk2 (tbM0_2.view.readAt (Elt Ideal) (Rect.unit (s := S256x48) (k0_off4 i) S1x1.size (k0_off4_inb i)).toLoadRect xt2 (Shape.Idx.first (numel1_S1x1.symm ▸ Nat.one_pos)))) (k0_hw3 : k0_chk3 (tbM0_2.view.readAt (Elt Ideal) (Rect.unit (s := S256x48) (k0_off6 i) S1x1.size (k0_off6_inb i)).toLoadRect xt2 (Shape.Idx.first (numel1_S1x1.symm ▸ Nat.one_pos)))) (k0_hw4 : k0_chk4 (tbM0_2.view.readAt (Elt Ideal) (Rect.unit (s := S256x48) (k0_off8 i) S1x1.size (k0_off8_inb i)).toLoadRect xt2 (Shape.Idx.first (numel1_S1x1.symm ▸ Nat.one_pos)))) (k0_hw5 : k0_chk5 (tbM0_2.view.readAt (Elt Ideal) (Rect.unit (s := S256x48) (k0_off10 i) S1x1.size (k0_off10_inb i)).toLoadRect xt2 (Shape.Idx.first (numel1_S1x1.symm ▸ Nat.one_pos)))) (k0_hw6 : k0_chk6 (tbM0_2.view.readAt (Elt Ideal) (Rect.unit (s := S256x48) (k0_off12 i) S1x1.size (k0_off12_inb i)).toLoadRect xt2 (Shape.Idx.first (numel1_S1x1.symm ▸ Nat.one_pos)))) (k0_hw7 : k0_chk7 (tbM0_2.view.readAt (Elt Ideal) (Rect.unit (s := S256x48) (k0_off14 i) S1x1.size (k0_off14_inb i)).toLoadRect xt2 (Shape.Idx.first (numel1_S1x1.symm ▸ Nat.one_pos)))) (k0_hw8 : k0_chk8 (tbM0_2.view.readAt (Elt Ideal) (Rect.unit (s := S256x48) (k0_off16 i) S1x1.size (k0_off16_inb i)).toLoadRect xt2 (Shape.Idx.first (numel1_S1x1.symm ▸ Nat.one_pos)))) (k0_hw9 : k0_chk9 (tbM0_2.view.readAt (Elt Ideal) (Rect.unit (s := S256x48) (k0_off18 i) S1x1.size (k0_off18_inb i)).toLoadRect xt2 (Shape.Idx.first (numel1_S1x1.symm ▸ Nat.one_pos)))) (k0_hw10 : k0_chk10 (tbM0_2.view.readAt (Elt Ideal) (Rect.unit (s := S256x48) (k0_off20 i) S1x1.size (k0_off20_inb i)).toLoadRect xt2 (Shape.Idx.first (numel1_S1x1.symm ▸ Nat.one_pos)))) (k0_hw11 : k0_chk11 (tbM0_2.view.readAt (Elt Ideal) (Rect.unit (s := S256x48) (k0_off22 i) S1x1.size (k0_off22_inb i)).toLoadRect xt2 (Shape.Idx.first (numel1_S1x1.symm ▸ Nat.one_pos)))) (k0_hw12 : k0_chk12 (tbM0_2.view.readAt (Elt Ideal) (Rect.unit (s := S256x48) (k0_off24 i) S1x1.size (k0_off24_inb i)).toLoadRect xt2 (Shape.Idx.first (numel1_S1x1.symm ▸ Nat.one_pos)))) (k0_hw13 : k0_chk13 (tbM0_2.view.readAt (Elt Ideal) (Rect.unit (s := S256x48) (k0_off26 i) S1x1.size (k0_off26_inb i)).toLoadRect xt2 (Shape.Idx.first (numel1_S1x1.symm ▸ Nat.one_pos)))) (k0_hw14 : k0_chk14 (tbM0_2.view.readAt (Elt Ideal) (Rect.unit (s := S256x48) (k0_off28 i) S1x1.size (k0_off28_inb i)).toLoadRect xt2 (Shape.Idx.first (numel1_S1x1.symm ▸ Nat.one_pos)))) (k0_hw15 : k0_chk15 (tbM0_2.view.readAt (Elt Ideal) (Rect.unit (s := S256x48) (k0_off30 i) S1x1.size (k0_off30_inb i)).toLoadRect xt2 (Shape.Idx.first (numel1_S1x1.symm ▸ Nat.one_pos)))) (k0_hw16 : k0_chk16 (tbM0_2.view.readAt (Elt Ideal) (Rect.unit (s := S256x48) (k0_off32 i) S1x1.size (k0_off32_inb i)).toLoadRect xt2 (Shape.Idx.first (numel1_S1x1.symm ▸ Nat.one_pos)))) (k0_hw17 : k0_chk17 (tbM0_2.view.readAt (Elt Ideal) (Rect.unit (s := S256x48) (k0_off34 i) S1x1.size (k0_off34_inb i)).toLoadRect xt2 (Shape.Idx.first (numel1_S1x1.symm ▸ Nat.one_pos)))) (k0_hw18 : k0_chk18 (tbM0_2.view.readAt (Elt Ideal) (Rect.unit (s := S256x48) (k0_off36 i) S1x1.size (k0_off36_inb i)).toLoadRect xt2 (Shape.Idx.first (numel1_S1x1.symm ▸ Nat.one_pos)))) (k0_hw19 : k0_chk19 (tbM0_2.view.readAt (Elt Ideal) (Rect.unit (s := S256x48) (k0_off38 i) S1x1.size (k0_off38_inb i)).toLoadRect xt2 (Shape.Idx.first (numel1_S1x1.symm ▸ Nat.one_pos)))) (k0_hw20 : k0_chk20 (tbM0_2.view.readAt (Elt Ideal) (Rect.unit (s := S256x48) (k0_off40 i) S1x1.size (k0_off40_inb i)).toLoadRect xt2 (Shape.Idx.first (numel1_S1x1.symm ▸ Nat.one_pos)))) (k0_hw21 : k0_chk21 (tbM0_2.view.readAt (Elt Ideal) (Rect.unit (s := S256x48) (k0_off42 i) S1x1.size (k0_off42_inb i)).toLoadRect xt2 (Shape.Idx.first (numel1_S1x1.symm ▸ Nat.one_pos)))) (k0_hw22 : k0_chk22 (tbM0_2.view.readAt (Elt Ideal) (Rect.unit (s := S256x48) (k0_off44 i) S1x1.size (k0_off44_inb i)).toLoadRect xt2 (Shape.Idx.first (numel1_S1x1.symm ▸ Nat.one_pos)))) (k0_hw23 : k0_chk23 (tbM0_2.view.readAt (Elt Ideal) (Rect.unit (s := S256x48) (k0_off46 i) S1x1.size (k0_off46_inb i)).toLoadRect xt2 (Shape.Idx.first (numel1_S1x1.symm ▸ Nat.one_pos)))) (k0_hw24 : k0_chk24 (tbM0_2.view.readAt (Elt Ideal) (Rect.unit (s := S256x48) (k0_off48 i) S1x1.size (k0_off48_inb i)).toLoadRect xt2 (Shape.Idx.first (numel1_S1x1.symm ▸ Nat.one_pos)))) (k0_hw25 : k0_chk25 (tbM0_2.view.readAt (Elt Ideal) (Rect.unit (s := S256x48) (k0_off50 i) S1x1.size (k0_off50_inb i)).toLoadRect xt2 (Shape.Idx.first (numel1_S1x1.symm ▸ Nat.one_pos)))) (k0_hw26 : k0_chk26 (tbM0_2.view.readAt (Elt Ideal) (Rect.unit (s := S256x48) (k0_off52 i) S1x1.size (k0_off52_inb i)).toLoadRect xt2 (Shape.Idx.first (numel1_S1x1.symm ▸ Nat.one_pos)))) (k0_hw27 : k0_chk27 (tbM0_2.view.readAt (Elt Ideal) (Rect.unit (s := S256x48) (k0_off54 i) S1x1.size (k0_off54_inb i)).toLoadRect xt2 (Shape.Idx.first (numel1_S1x1.symm ▸ Nat.one_pos)))) (k0_hw28 : k0_chk28 (tbM0_2.view.readAt (Elt Ideal) (Rect.unit (s := S256x48) (k0_off56 i) S1x1.size (k0_off56_inb i)).toLoadRect xt2 (Shape.Idx.first (numel1_S1x1.symm ▸ Nat.one_pos)))) (k0_hw29 : k0_chk29 (tbM0_2.view.readAt (Elt Ideal) (Rect.unit (s := S256x48) (k0_off58 i) S1x1.size (k0_off58_inb i)).toLoadRect xt2 (Shape.Idx.first (numel1_S1x1.symm ▸ Nat.one_pos)))) (k0_hw30 : k0_chk30 (tbM0_2.view.readAt (Elt Ideal) (Rect.unit (s := S256x48) (k0_off60 i) S1x1.size (k0_off60_inb i)).toLoadRect xt2 (Shape.Idx.first (numel1_S1x1.symm ▸ Nat.one_pos)))) (k0_hw31 : k0_chk31 (tbM0_2.view.readAt (Elt Ideal) (Rect.unit (s := S256x48) (k0_off62 i) S1x1.size (k0_off62_inb i)).toLoadRect xt2 (Shape.Idx.first (numel1_S1x1.symm ▸ Nat.one_pos)))) (k0_hw32 : k0_chk32 (tbM0_2.view.readAt (Elt Ideal) (Rect.unit (s := S256x48) (k0_off64 i) S1x1.size (k0_off64_inb i)).toLoadRect xt2 (Shape.Idx.first (numel1_S1x1.symm ▸ Nat.one_pos)))) (k0_hw33 : k0_chk33 (tbM0_2.view.readAt (Elt Ideal) (Rect.unit (s := S256x48) (k0_off66 i) S1x1.size (k0_off66_inb i)).toLoadRect xt2 (Shape.Idx.first (numel1_S1x1.symm ▸ Nat.one_pos)))) (k0_hw34 : k0_chk34 (tbM0_2.view.readAt (Elt Ideal) (Rect.unit (s := S256x48) (k0_off68 i) S1x1.size (k0_off68_inb i)).toLoadRect xt2 (Shape.Idx.first (numel1_S1x1.symm ▸ Nat.one_pos)))) (k0_hw35 : k0_chk35 (tbM0_2.view.readAt (Elt Ideal) (Rect.unit (s := S256x48) (k0_off70 i) S1x1.size (k0_off70_inb i)).toLoadRect xt2 (Shape.Idx.first (numel1_S1x1.symm ▸ Nat.one_pos)))) (k0_hw36 : k0_chk36 (tbM0_2.view.readAt (Elt Ideal) (Rect.unit (s := S256x48) (k0_off72 i) S1x1.size (k0_off72_inb i)).toLoadRect xt2 (Shape.Idx.first (numel1_S1x1.symm ▸ Nat.one_pos)))) (k0_hw37 : k0_chk37 (tbM0_2.view.readAt (Elt Ideal) (Rect.unit (s := S256x48) (k0_off74 i) S1x1.size (k0_off74_inb i)).toLoadRect xt2 (Shape.Idx.first (numel1_S1x1.symm ▸ Nat.one_pos)))) (k0_hw38 : k0_chk38 (tbM0_2.view.readAt (Elt Ideal) (Rect.unit (s := S256x48) (k0_off76 i) S1x1.size (k0_off76_inb i)).toLoadRect xt2 (Shape.Idx.first (numel1_S1x1.symm ▸ Nat.one_pos)))) (k0_hw39 : k0_chk39 (tbM0_2.view.readAt (Elt Ideal) (Rect.unit (s := S256x48) (k0_off78 i) S1x1.size (k0_off78_inb i)).toLoadRect xt2 (Shape.Idx.first (numel1_S1x1.symm ▸ Nat.one_pos)))) (k0_hw40 : k0_chk40 (tbM0_2.view.readAt (Elt Ideal) (Rect.unit (s := S256x48) (k0_off80 i) S1x1.size (k0_off80_inb i)).toLoadRect xt2 (Shape.Idx.first (numel1_S1x1.symm ▸ Nat.one_pos)))) (k0_hw41 : k0_chk41 (tbM0_2.view.readAt (Elt Ideal) (Rect.unit (s := S256x48) (k0_off82 i) S1x1.size (k0_off82_inb i)).toLoadRect xt2 (Shape.Idx.first (numel1_S1x1.symm ▸ Nat.one_pos)))) (k0_hw42 : k0_chk42 (tbM0_2.view.readAt (Elt Ideal) (Rect.unit (s := S256x48) (k0_off84 i) S1x1.size (k0_off84_inb i)).toLoadRect xt2 (Shape.Idx.first (numel1_S1x1.symm ▸ Nat.one_pos)))) (k0_hw43 : k0_chk43 (tbM0_2.view.readAt (Elt Ideal) (Rect.unit (s := S256x48) (k0_off86 i) S1x1.size (k0_off86_inb i)).toLoadRect xt2 (Shape.Idx.first (numel1_S1x1.symm ▸ Nat.one_pos)))) (k0_hw44 : k0_chk44 (tbM0_2.view.readAt (Elt Ideal) (Rect.unit (s := S256x48) (k0_off88 i) S1x1.size (k0_off88_inb i)).toLoadRect xt2 (Shape.Idx.first (numel1_S1x1.symm ▸ Nat.one_pos)))) (k0_hw45 : k0_chk45 (tbM0_2.view.readAt (Elt Ideal) (Rect.unit (s := S256x48) (k0_off90 i) S1x1.size (k0_off90_inb i)).toLoadRect xt2 (Shape.Idx.first (numel1_S1x1.symm ▸ Nat.one_pos)))) (k0_hw46 : k0_chk46 (tbM0_2.view.readAt (Elt Ideal) (Rect.unit (s := S256x48) (k0_off92 i) S1x1.size (k0_off92_inb i)).toLoadRect xt2 (Shape.Idx.first (numel1_S1x1.symm ▸ Nat.one_pos)))) (k0_hw47 : k0_chk47 (tbM0_2.view.readAt (Elt Ideal) (Rect.unit (s := S256x48) (k0_off94 i) S1x1.size (k0_off94_inb i)).toLoadRect xt2 (Shape.Idx.first (numel1_S1x1.symm ▸ Nat.one_pos)))) (k0_hw48 : k0_chk48 (tbM0_2.view.readAt (Elt Ideal) (Rect.unit (s := S256x48) (k0_off96 i) S1x1.size (k0_off96_inb i)).toLoadRect xt2 (Shape.Idx.first (numel1_S1x1.symm ▸ Nat.one_pos)))) :
    out0_A_2 c i arg5 harg5 arg6 harg6 arg7 harg7 arg8 harg8 x0 x1 xt0 xt1 xt2 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48
      = k0_pay1 (k0_pay54 (colsRow x1 (boxPos i)) (scrFn x0 (rowWord c i xt2))) := by
  unfold out0_A_2
  rw [View.read_writes_eq_canon _ _ _ (cover0_A_2 c i arg5 harg5 arg6 harg6 arg7 harg7 arg8 harg8 x0 x1 xt0 xt1 xt2 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48)]
  unfold kernelRun0_A
  dsimp only
  sl_unfold_run_names
  rw [View.canon_unit_zero hz4]
  simp only [View.readAt_eq_ld, harg5.read_unread, harg6.read_unread]
  -- both sides are the same reshape of the same product: compare the product's two operands
  refine congrArg k0_pay1 (congrArg₂ k0_pay54 ?_ ?_)
  · -- the row of the column array loaded at the grid coordinate is row boxPos i
    exact cols_ld x1 (boxPos i) _ (off_row i) rfl _
  · -- the scratch read back whole: the 48 line stores tile it in lines, so every index is under one of them, and each
    -- store's payload is the scratch function on the store's rectangle (the word read for line k is the table's entry
    -- [boxPos i, k], and the rectangle loaded from the image block starts at that line)
    rw [View.readCov_eq_canon']
    funext y
    rw [idx_unit_zero hz3]
    refine View.canon_apply_of_pieces (scrFn x0 (rowWord c i xt2)) _ ?_ y
      (View.cover_of_tiledL (s := S32x48x320) _ S32x1x320.size (by sl_kernel_rfl) y)
    repeat' (first | exact List.forall_mem_nil _ | refine List.forall_mem_cons.2 ⟨?_, ?_⟩)
    all_goals
      intro x
      exact line_apply x0 (rowWord c i xt2) _ _ _ _ (fun cc u l => payline_apply _ _ _ cc u l) rfl _ (by decide) rfl rfl (by decide)
        (word_ld xt2 (boxPos i) _ _ (off_row i) rfl _ _).symm x

/-- The outer reshape of the product, [32, 48, 320] to [1, 32, 48, 320], keeps the entries. -/
theorem pay1_apply (v : FVec Ideal S32x48x320 .f32) (ch : Fin 32) (k : Fin 48) (j : Fin 320) :
    k0_pay1 (F := Ideal) v (ix4 (0 : Fin 1) ch k j) = v (ix3 ch k j) := by
  unfold k0_pay1
  exact shapeCast_abc_1abc_apply v _ (0 : Fin 1) ch k j

/-- Element [0, ch, k, j] of the block the body leaves: the staged image block at channel ch, at the source line the
    table names for output line k, at the source column the staged column array names for output column j. -/
theorem out0_A_2_apply (c : Dev nD) (i : grid0.Coords) (arg5 : Memref sig .tc .vmem S1x32x200x320 .f32) (harg5 : arg5.IsWhole) (arg6 : Memref sig .tc .vmem S256x320 .i32) (harg6 : arg6.IsWhole) (arg7 : Memref sig .tc .vmem S1x32x48x320 .f32) (harg7 : arg7.IsWhole) (arg8 : Memref sig .tc .vmem S32x48x320 .f32) (harg8 : arg8.IsWhole)
    (x0 : Vec Ideal S1x32x200x320 .f32) (x1 : Vec Ideal S256x320 .i32) (xt0 : TbBuf0 (F := Ideal) c tbM0_0) (xt1 : TbBuf0 (F := Ideal) c tbM0_1) (xt2 : TbBuf0 (F := Ideal) c tbM0_2) (k0_hw1 : k0_chk1 (tbM0_2.view.readAt (Elt Ideal) (Rect.unit (s := S256x48) (k0_off2 i) S1x1.size (k0_off2_inb i)).toLoadRect xt2 (Shape.Idx.first (numel1_S1x1.symm ▸ Nat.one_pos)))) (k0_hw2 : k0_chk2 (tbM0_2.view.readAt (Elt Ideal) (Rect.unit (s := S256x48) (k0_off4 i) S1x1.size (k0_off4_inb i)).toLoadRect xt2 (Shape.Idx.first (numel1_S1x1.symm ▸ Nat.one_pos)))) (k0_hw3 : k0_chk3 (tbM0_2.view.readAt (Elt Ideal) (Rect.unit (s := S256x48) (k0_off6 i) S1x1.size (k0_off6_inb i)).toLoadRect xt2 (Shape.Idx.first (numel1_S1x1.symm ▸ Nat.one_pos)))) (k0_hw4 : k0_chk4 (tbM0_2.view.readAt (Elt Ideal) (Rect.unit (s := S256x48) (k0_off8 i) S1x1.size (k0_off8_inb i)).toLoadRect xt2 (Shape.Idx.first (numel1_S1x1.symm ▸ Nat.one_pos)))) (k0_hw5 : k0_chk5 (tbM0_2.view.readAt (Elt Ideal) (Rect.unit (s := S256x48) (k0_off10 i) S1x1.size (k0_off10_inb i)).toLoadRect xt2 (Shape.Idx.first (numel1_S1x1.symm ▸ Nat.one_pos)))) (k0_hw6 : k0_chk6 (tbM0_2.view.readAt (Elt Ideal) (Rect.unit (s := S256x48) (k0_off12 i) S1x1.size (k0_off12_inb i)).toLoadRect xt2 (Shape.Idx.first (numel1_S1x1.symm ▸ Nat.one_pos)))) (k0_hw7 : k0_chk7 (tbM0_2.view.readAt (Elt Ideal) (Rect.unit (s := S256x48) (k0_off14 i) S1x1.size (k0_off14_inb i)).toLoadRect xt2 (Shape.Idx.first (numel1_S1x1.symm ▸ Nat.one_pos)))) (k0_hw8 : k0_chk8 (tbM0_2.view.readAt (Elt Ideal) (Rect.unit (s := S256x48) (k0_off16 i) S1x1.size (k0_off16_inb i)).toLoadRect xt2 (Shape.Idx.first (numel1_S1x1.symm ▸ Nat.one_pos)))) (k0_hw9 : k0_chk9 (tbM0_2.view.readAt (Elt Ideal) (Rect.unit (s := S256x48) (k0_off18 i) S1x1.size (k0_off18_inb i)).toLoadRect xt2 (Shape.Idx.first (numel1_S1x1.symm ▸ Nat.one_pos)))) (k0_hw10 : k0_chk10 (tbM0_2.view.readAt (Elt Ideal) (Rect.unit (s := S256x48) (k0_off20 i) S1x1.size (k0_off20_inb i)).toLoadRect xt2 (Shape.Idx.first (numel1_S1x1.symm ▸ Nat.one_pos)))) (k0_hw11 : k0_chk11 (tbM0_2.view.readAt (Elt Ideal) (Rect.unit (s := S256x48) (k0_off22 i) S1x1.size (k0_off22_inb i)).toLoadRect xt2 (Shape.Idx.first (numel1_S1x1.symm ▸ Nat.one_pos)))) (k0_hw12 : k0_chk12 (tbM0_2.view.readAt (Elt Ideal) (Rect.unit (s := S256x48) (k0_off24 i) S1x1.size (k0_off24_inb i)).toLoadRect xt2 (Shape.Idx.first (numel1_S1x1.symm ▸ Nat.one_pos)))) (k0_hw13 : k0_chk13 (tbM0_2.view.readAt (Elt Ideal) (Rect.unit (s := S256x48) (k0_off26 i) S1x1.size (k0_off26_inb i)).toLoadRect xt2 (Shape.Idx.first (numel1_S1x1.symm ▸ Nat.one_pos)))) (k0_hw14 : k0_chk14 (tbM0_2.view.readAt (Elt Ideal) (Rect.unit (s := S256x48) (k0_off28 i) S1x1.size (k0_off28_inb i)).toLoadRect xt2 (Shape.Idx.first (numel1_S1x1.symm ▸ Nat.one_pos)))) (k0_hw15 : k0_chk15 (tbM0_2.view.readAt (Elt Ideal) (Rect.unit (s := S256x48) (k0_off30 i) S1x1.size (k0_off30_inb i)).toLoadRect xt2 (Shape.Idx.first (numel1_S1x1.symm ▸ Nat.one_pos)))) (k0_hw16 : k0_chk16 (tbM0_2.view.readAt (Elt Ideal) (Rect.unit (s := S256x48) (k0_off32 i) S1x1.size (k0_off32_inb i)).toLoadRect xt2 (Shape.Idx.first (numel1_S1x1.symm ▸ Nat.one_pos)))) (k0_hw17 : k0_chk17 (tbM0_2.view.readAt (Elt Ideal) (Rect.unit (s := S256x48) (k0_off34 i) S1x1.size (k0_off34_inb i)).toLoadRect xt2 (Shape.Idx.first (numel1_S1x1.symm ▸ Nat.one_pos)))) (k0_hw18 : k0_chk18 (tbM0_2.view.readAt (Elt Ideal) (Rect.unit (s := S256x48) (k0_off36 i) S1x1.size (k0_off36_inb i)).toLoadRect xt2 (Shape.Idx.first (numel1_S1x1.symm ▸ Nat.one_pos)))) (k0_hw19 : k0_chk19 (tbM0_2.view.readAt (Elt Ideal) (Rect.unit (s := S256x48) (k0_off38 i) S1x1.size (k0_off38_inb i)).toLoadRect xt2 (Shape.Idx.first (numel1_S1x1.symm ▸ Nat.one_pos)))) (k0_hw20 : k0_chk20 (tbM0_2.view.readAt (Elt Ideal) (Rect.unit (s := S256x48) (k0_off40 i) S1x1.size (k0_off40_inb i)).toLoadRect xt2 (Shape.Idx.first (numel1_S1x1.symm ▸ Nat.one_pos)))) (k0_hw21 : k0_chk21 (tbM0_2.view.readAt (Elt Ideal) (Rect.unit (s := S256x48) (k0_off42 i) S1x1.size (k0_off42_inb i)).toLoadRect xt2 (Shape.Idx.first (numel1_S1x1.symm ▸ Nat.one_pos)))) (k0_hw22 : k0_chk22 (tbM0_2.view.readAt (Elt Ideal) (Rect.unit (s := S256x48) (k0_off44 i) S1x1.size (k0_off44_inb i)).toLoadRect xt2 (Shape.Idx.first (numel1_S1x1.symm ▸ Nat.one_pos)))) (k0_hw23 : k0_chk23 (tbM0_2.view.readAt (Elt Ideal) (Rect.unit (s := S256x48) (k0_off46 i) S1x1.size (k0_off46_inb i)).toLoadRect xt2 (Shape.Idx.first (numel1_S1x1.symm ▸ Nat.one_pos)))) (k0_hw24 : k0_chk24 (tbM0_2.view.readAt (Elt Ideal) (Rect.unit (s := S256x48) (k0_off48 i) S1x1.size (k0_off48_inb i)).toLoadRect xt2 (Shape.Idx.first (numel1_S1x1.symm ▸ Nat.one_pos)))) (k0_hw25 : k0_chk25 (tbM0_2.view.readAt (Elt Ideal) (Rect.unit (s := S256x48) (k0_off50 i) S1x1.size (k0_off50_inb i)).toLoadRect xt2 (Shape.Idx.first (numel1_S1x1.symm ▸ Nat.one_pos)))) (k0_hw26 : k0_chk26 (tbM0_2.view.readAt (Elt Ideal) (Rect.unit (s := S256x48) (k0_off52 i) S1x1.size (k0_off52_inb i)).toLoadRect xt2 (Shape.Idx.first (numel1_S1x1.symm ▸ Nat.one_pos)))) (k0_hw27 : k0_chk27 (tbM0_2.view.readAt (Elt Ideal) (Rect.unit (s := S256x48) (k0_off54 i) S1x1.size (k0_off54_inb i)).toLoadRect xt2 (Shape.Idx.first (numel1_S1x1.symm ▸ Nat.one_pos)))) (k0_hw28 : k0_chk28 (tbM0_2.view.readAt (Elt Ideal) (Rect.unit (s := S256x48) (k0_off56 i) S1x1.size (k0_off56_inb i)).toLoadRect xt2 (Shape.Idx.first (numel1_S1x1.symm ▸ Nat.one_pos)))) (k0_hw29 : k0_chk29 (tbM0_2.view.readAt (Elt Ideal) (Rect.unit (s := S256x48) (k0_off58 i) S1x1.size (k0_off58_inb i)).toLoadRect xt2 (Shape.Idx.first (numel1_S1x1.symm ▸ Nat.one_pos)))) (k0_hw30 : k0_chk30 (tbM0_2.view.readAt (Elt Ideal) (Rect.unit (s := S256x48) (k0_off60 i) S1x1.size (k0_off60_inb i)).toLoadRect xt2 (Shape.Idx.first (numel1_S1x1.symm ▸ Nat.one_pos)))) (k0_hw31 : k0_chk31 (tbM0_2.view.readAt (Elt Ideal) (Rect.unit (s := S256x48) (k0_off62 i) S1x1.size (k0_off62_inb i)).toLoadRect xt2 (Shape.Idx.first (numel1_S1x1.symm ▸ Nat.one_pos)))) (k0_hw32 : k0_chk32 (tbM0_2.view.readAt (Elt Ideal) (Rect.unit (s := S256x48) (k0_off64 i) S1x1.size (k0_off64_inb i)).toLoadRect xt2 (Shape.Idx.first (numel1_S1x1.symm ▸ Nat.one_pos)))) (k0_hw33 : k0_chk33 (tbM0_2.view.readAt (Elt Ideal) (Rect.unit (s := S256x48) (k0_off66 i) S1x1.size (k0_off66_inb i)).toLoadRect xt2 (Shape.Idx.first (numel1_S1x1.symm ▸ Nat.one_pos)))) (k0_hw34 : k0_chk34 (tbM0_2.view.readAt (Elt Ideal) (Rect.unit (s := S256x48) (k0_off68 i) S1x1.size (k0_off68_inb i)).toLoadRect xt2 (Shape.Idx.first (numel1_S1x1.symm ▸ Nat.one_pos)))) (k0_hw35 : k0_chk35 (tbM0_2.view.readAt (Elt Ideal) (Rect.unit (s := S256x48) (k0_off70 i) S1x1.size (k0_off70_inb i)).toLoadRect xt2 (Shape.Idx.first (numel1_S1x1.symm ▸ Nat.one_pos)))) (k0_hw36 : k0_chk36 (tbM0_2.view.readAt (Elt Ideal) (Rect.unit (s := S256x48) (k0_off72 i) S1x1.size (k0_off72_inb i)).toLoadRect xt2 (Shape.Idx.first (numel1_S1x1.symm ▸ Nat.one_pos)))) (k0_hw37 : k0_chk37 (tbM0_2.view.readAt (Elt Ideal) (Rect.unit (s := S256x48) (k0_off74 i) S1x1.size (k0_off74_inb i)).toLoadRect xt2 (Shape.Idx.first (numel1_S1x1.symm ▸ Nat.one_pos)))) (k0_hw38 : k0_chk38 (tbM0_2.view.readAt (Elt Ideal) (Rect.unit (s := S256x48) (k0_off76 i) S1x1.size (k0_off76_inb i)).toLoadRect xt2 (Shape.Idx.first (numel1_S1x1.symm ▸ Nat.one_pos)))) (k0_hw39 : k0_chk39 (tbM0_2.view.readAt (Elt Ideal) (Rect.unit (s := S256x48) (k0_off78 i) S1x1.size (k0_off78_inb i)).toLoadRect xt2 (Shape.Idx.first (numel1_S1x1.symm ▸ Nat.one_pos)))) (k0_hw40 : k0_chk40 (tbM0_2.view.readAt (Elt Ideal) (Rect.unit (s := S256x48) (k0_off80 i) S1x1.size (k0_off80_inb i)).toLoadRect xt2 (Shape.Idx.first (numel1_S1x1.symm ▸ Nat.one_pos)))) (k0_hw41 : k0_chk41 (tbM0_2.view.readAt (Elt Ideal) (Rect.unit (s := S256x48) (k0_off82 i) S1x1.size (k0_off82_inb i)).toLoadRect xt2 (Shape.Idx.first (numel1_S1x1.symm ▸ Nat.one_pos)))) (k0_hw42 : k0_chk42 (tbM0_2.view.readAt (Elt Ideal) (Rect.unit (s := S256x48) (k0_off84 i) S1x1.size (k0_off84_inb i)).toLoadRect xt2 (Shape.Idx.first (numel1_S1x1.symm ▸ Nat.one_pos)))) (k0_hw43 : k0_chk43 (tbM0_2.view.readAt (Elt Ideal) (Rect.unit (s := S256x48) (k0_off86 i) S1x1.size (k0_off86_inb i)).toLoadRect xt2 (Shape.Idx.first (numel1_S1x1.symm ▸ Nat.one_pos)))) (k0_hw44 : k0_chk44 (tbM0_2.view.readAt (Elt Ideal) (Rect.unit (s := S256x48) (k0_off88 i) S1x1.size (k0_off88_inb i)).toLoadRect xt2 (Shape.Idx.first (numel1_S1x1.symm ▸ Nat.one_pos)))) (k0_hw45 : k0_chk45 (tbM0_2.view.readAt (Elt Ideal) (Rect.unit (s := S256x48) (k0_off90 i) S1x1.size (k0_off90_inb i)).toLoadRect xt2 (Shape.Idx.first (numel1_S1x1.symm ▸ Nat.one_pos)))) (k0_hw46 : k0_chk46 (tbM0_2.view.readAt (Elt Ideal) (Rect.unit (s := S256x48) (k0_off92 i) S1x1.size (k0_off92_inb i)).toLoadRect xt2 (Shape.Idx.first (numel1_S1x1.symm ▸ Nat.one_pos)))) (k0_hw47 : k0_chk47 (tbM0_2.view.readAt (Elt Ideal) (Rect.unit (s := S256x48) (k0_off94 i) S1x1.size (k0_off94_inb i)).toLoadRect xt2 (Shape.Idx.first (numel1_S1x1.symm ▸ Nat.one_pos)))) (k0_hw48 : k0_chk48 (tbM0_2.view.readAt (Elt Ideal) (Rect.unit (s := S256x48) (k0_off96 i) S1x1.size (k0_off96_inb i)).toLoadRect xt2 (Shape.Idx.first (numel1_S1x1.symm ▸ Nat.one_pos))))
    (hfin : ∀ y, ∃ r : ℝ, x0 y = (r : EReal))
    (hcol : ∀ j : Fin 320, BitVec.toNat (x1 (ix2 (boxPos i) j)) < 320)
    (ch : Fin 32) (k : Fin 48) (j : Fin 320) :
    out0_A_2 c i arg5 harg5 arg6 harg6 arg7 harg7 arg8 harg8 x0 x1 xt0 xt1 xt2 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 (ix4 (0 : Fin 1) ch k j)
      = x0 (ix4 (0 : Fin 1) ch ⟨BitVec.toNat (xt2 (ix2 (boxPos i) k)) % 200, Nat.mod_lt _ (by decide)⟩
          ⟨BitVec.toNat (x1 (ix2 (boxPos i) j)), hcol j⟩) := by
  refine (congrFun (body_eq c i arg5 harg5 arg6 harg6 arg7 harg7 arg8 harg8 x0 x1 xt0 xt1 xt2 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48) (ix4 (0 : Fin 1) ch k j)).trans ?_
  refine (pay1_apply _ ch k j).trans ?_
  exact Select.pay54_apply (colsRow x1 (boxPos i)) (scrFn x0 (rowWord c i xt2)) (fun _ => hfin _) hcol ch k j

end Cert.KernelIdeal.Body

end
-- ==== Proof.KernelIdealBlocks.lean ====
/-
  The input blocks of a grid point, read at an index. At point (n, cb) the image window stages image number
  (sorted clipped image index at n), channels 32·cb … 32·cb + 31, all 200 lines and 320 columns; the window of source
  columns stages its whole [256, 320] array at every point. A block's coordinate is the block index times the block
  size plus the coordinate inside the block.
-/
import proofs.«423708_j84104049590479_3_alg».proof.Proof.KernelIdealFrame
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.KernelIdeal.GenP
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The first table read through the one-element rectangle at offset k is the table's word k. -/
theorem at_unit (pf : pre0.Contents (Elt F)) (k : Fin 256) (off : Fin 1 → Nat) (hoff : off 0 = k.val)
    (inb : ∀ a, off a + S1.size a ≤ S256.size a) (h1 : (Rect.unit (s := S256) off S1.size inb).shape.numel = 1) :
    pf.at 0 (Rect.unit (s := S256) off S1.size inb) h1 = pf 0 (ix1 k) := by
  show pf 0 _ = pf 0 _
  refine congrArg (pf 0) (funext fun a => Fin.ext ?_)
  have hz : ∀ (s : Shape) (h : 0 < s.numel) (b : Fin s.rank), s.size b = 1 → (Shape.Idx.first h b).val = 0 :=
    fun s h b hb => by
      have := (Shape.Idx.first h b).isLt
      omega
  match a with
  | ⟨0, _⟩ =>
    show off 0 + 1 * (Shape.Idx.first _ _).val = k.val
    rw [hz _ _ _ rfl, hoff]
    omega

/-- The image window's index map at table contents pf and grid coordinates i: (the first table's word at the first
    coordinate, the second coordinate, 0, 0). -/
theorem transform0_eq (pf : pre0.Contents (Elt F)) (i : grid0.Coords) :
    cc0_transform_0 k0_off1_inb numel1_S1 pf i
      = ![BitVec.toNat (pf 0 (ix1 (⟨(i 0).val, (i 0).isLt⟩ : Fin 256))), (i 1).val, 0, 0] := by
  have h0 : (BitVec.ofNat 32 (i 0).val).toNat = (i 0).val := by
    have := (i 0).isLt
    rw [BitVec.toNat_ofNat]
    exact Nat.mod_eq_of_lt (lt_trans this (by decide))
  have h1 : (BitVec.ofNat 32 (i 1).val).toNat = (i 1).val := by
    have := (i 1).isLt
    rw [BitVec.toNat_ofNat]
    exact Nat.mod_eq_of_lt (lt_trans this (by decide))
  unfold cc0_transform_0
  dsimp only
  rw [h1]
  refine congrArg (fun x : BitVec 32 => (![x.toNat, (i 1).val, 0, 0] : Fin 4 → Nat)) ?_
  exact at_unit pf ⟨(i 0).val, (i 0).isLt⟩ _ h0 _ _
/-- Where an index of the image block at point t sits in the image array: the block index times the block size plus
    the coordinate inside the block, on each axis. -/
theorem emb0 (a : (pcfg0 (F := F)).Adm) (pf : pre0.Contents (Elt F)) (hpf : a.1 = pf) (t : Fin (cfg0 a).N)
    (ch : Fin 32) (r : Fin 200) (w : Fin 320)
    (himg : BitVec.toNat (pf 0 (ix1 (⟨(grid0.coords t 0).val, (grid0.coords t 0).isLt⟩ : Fin 256))) < 8)
    (hch : 32 * (grid0.coords t 1).val + ch.val < 64) :
    (((cfg0 a).win 0).blk t).view.emb (ix4 (0 : Fin 1) ch r w)
      = ix4 ⟨BitVec.toNat (pf 0 (ix1 (⟨(grid0.coords t 0).val, (grid0.coords t 0).isLt⟩ : Fin 256))), himg⟩
          ⟨32 * (grid0.coords t 1).val + ch.val, hch⟩ r w := by
  subst hpf
  have hidx : ((cfg0 a).win 0).index t = cc0_transform_0 k0_off1_inb numel1_S1 a.1 (grid0.coords t) := rfl
  have hT := transform0_eq a.1 (grid0.coords t)
  funext b
  apply Fin.ext
  match b with
  | ⟨0, _⟩ =>
    show ((cfg0 a).win 0).index t (0 : Fin 4) * 1 + 1 * 0 = _
    rw [hidx, hT]
    show BitVec.toNat (a.1 0 _) * 1 + 1 * 0 = BitVec.toNat (a.1 0 _)
    omega
  | ⟨1, _⟩ =>
    show ((cfg0 a).win 0).index t (1 : Fin 4) * 32 + 1 * ch.val = 32 * (grid0.coords t 1).val + ch.val
    rw [hidx, hT]
    show (grid0.coords t 1).val * 32 + 1 * ch.val = 32 * (grid0.coords t 1).val + ch.val
    omega
  | ⟨2, _⟩ =>
    show ((cfg0 a).win 0).index t (2 : Fin 4) * 200 + 1 * r.val = r.val
    rw [hidx, hT]
    show 0 * 200 + 1 * r.val = r.val
    omega
  | ⟨3, _⟩ =>
    show ((cfg0 a).win 0).index t (3 : Fin 4) * 320 + 1 * w.val = w.val
    rw [hidx, hT]
    show 0 * 320 + 1 * w.val = w.val
    omega

/-- The admissible contents the pipeline runs at are the tables' contents read off the launch memory. -/
theorem adm_val (hO : Ok m) : (adm m hO).1 = tbl m := rfl

/-- The window of source columns is the whole array: at every point its block index is (0, 0), so an index of the
    block sits in the array at itself. -/
theorem emb1 (a : (pcfg0 (F := F)).Adm) (t : Fin (cfg0 a).N) (y : S256x320.Idx) :
    (((cfg0 a).win 1).blk t).view.emb y = y := by
  funext b
  apply Fin.ext
  match b with
  | ⟨0, _⟩ =>
    show 0 * 256 + 1 * (y 0).val = (y 0).val
    omega
  | ⟨1, _⟩ =>
    show 0 * 320 + 1 * (y 1).val = (y 1).val
    omega

/-- The image block at [0, ch, r, w]: the image array at the image the first table names for the point's first
    coordinate, at channel 32·(second coordinate) + ch, line r, column w. -/
theorem iblk0_apply (hO : Ok m) (c : Dev nD) (t : Fin (cfgM m hO).N) (ch : Fin 32) (r : Fin 200) (w : Fin 320)
    (himg : BitVec.toNat (tbl m 0 (ix1 (⟨(grid0.coords t 0).val, (grid0.coords t 0).isLt⟩ : Fin 256))) < 8)
    (hch : 32 * (grid0.coords t 1).val + ch.val < 64) :
    iblk m hO c 0 t (ix4 (0 : Fin 1) ch r w)
      = V m c main_arg0 (ix4 ⟨BitVec.toNat (tbl m 0 (ix1 (⟨(grid0.coords t 0).val, (grid0.coords t 0).isLt⟩ : Fin 256))), himg⟩
          ⟨32 * (grid0.coords t 1).val + ch.val, hch⟩ r w) := by
  show V m c main_arg0 ((((cfgM m hO).win 0).blk t).view.emb (ix4 (0 : Fin 1) ch r w)) = _
  exact congrArg (V m c main_arg0) (emb0 (adm m hO) (tbl m) (adm_val m hO) t ch r w himg hch)

/-- The block of source columns is the whole array of source columns. -/
theorem iblk1_apply (hO : Ok m) (c : Dev nD) (t : Fin (cfgM m hO).N) (n : Fin 256) (j : Fin 320) :
    iblk m hO c 1 t (ix2 n j) = V m c main_v50 (ix2 n j) := by
  show V m c main_v50 ((((cfgM m hO).win 1).blk t).view.emb (ix2 n j)) = V m c main_v50 (ix2 n j)
  exact congrArg (V m c main_v50) (emb1 (adm m hO) t (ix2 n j))

end Cert.KernelIdeal.Blocks

end
-- ==== Proof.KernelIdealPost.lean ====
/-
  The kernel's run with the result array named: after every weakly fair execution the result buffer holds what the
  launch's 512 grid points flushed into the output window's array, and the three arguments are as launched.
-/
import proofs.«423708_j84104049590479_3_alg».proof.Proof.KernelIdealFrame
import Idealize.ShloMosaic.Lib.Pipeline.Value

set_option maxRecDepth 16384

noncomputable section

namespace Cert.KernelIdeal.Post

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (ρ : Dev nD → PrngReg)

/-- The frame run with the output array after the run named, the arguments unchanged. -/
theorem run_blocks (hO : Ok m) (hH : Hyps m hO) :
    θ_run defs (onTc (τ := τ) (main (F := F))) ⟨m, fun _ => 0, ρ⟩ fun r => ∀ c : Dev nD,
      r.2.mem ((c : Thread nD τ).loc main_v51) = (dats m hO hH 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 2,
      ((h c).1 0).trans (((dats m hO hH 0 c).arrAt_in 0 rfl _).trans ((A_eq m hO hH c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO hH)

end Cert.KernelIdeal.Post

end
-- ==== Proof.KernelIdealValueGeom.lean ====
/-
  The output window's geometry, for every admissible contents of the prefetched tables. The grid point t = (n, cb)
  of the 256 × 2 grid has n = t / 2 and cb = t mod 2. The output window's index map sends it to the block
  (table 1's word at n, cb, 0, 0) of blocks of shape 1 × 32 × 48 × 320, so element [0, ch, k, j] of that block is element
  [table 1 [n], 32·cb + ch, k, j] of the 256 × 64 × 48 × 320 output array. Consecutive points differ in cb, so every
  point's block is written back. When table 1 takes every box position, the point (n, chan / 32) with
  table 1 [n] = b covers the output index (b, chan, k, j): the blocks cover the array.
-/
import proofs.«423708_j84104049590479_3_alg».proof.Proof.KernelIdealFrame
import Idealize.ShloMosaic.Lib.ValueIdx
import Idealize.ShloMosaic.Lib.Pipeline.Value

set_option maxRecDepth 16384

noncomputable section

namespace Cert.KernelIdeal.KValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-- The sorted position a grid point works on. -/
abbrev bpos (i : grid0.Coords) : Fin 256 := ⟨(i 0).val, (i 0).isLt⟩

/-- The grid's points in row-major order: point t is (t / 2, t mod 2). -/
theorem coords_val : ∀ t : Fin grid0.N, (grid0.coords t 0).val = t.val / 2 ∧ (grid0.coords t 1).val = t.val % 2 := by
  decide +kernel

/-- The output window's index map at the tables' contents pf: (table 1's word at the point's position, the point's
    channel half, 0, 0). -/
theorem tr2_apply (pf : pre0.Contents (Elt Ideal)) (i : grid0.Coords) :
    cc0_transform_2 k0_off1_inb numel1_S1 pf i = ![BitVec.toNat (pf 1 (ix1 (bpos i))), (i 1).val, 0, 0] := by
  funext b
  match b with
  | ⟨0, _⟩ =>
    show BitVec.toNat (pf 1 _) = BitVec.toNat (pf 1 _)
    refine congrArg (fun z => BitVec.toNat (pf 1 z)) ?_
    funext d
    match d with
    | ⟨0, _⟩ =>
      apply Fin.ext
      show k0_off1 i 0 + 1 * 0 = (i 0).val
      rw [k0_off1_eq]
      rfl
  | ⟨1, _⟩ =>
    show (BitVec.ofNat 32 (i 1).val).toNat = (i 1).val
    rw [BitVec.toNat_ofNat]
    exact Nat.mod_eq_of_lt (lt_trans (i 1).isLt (by decide))
  | ⟨2, _⟩ => rfl
  | ⟨3, _⟩ => rfl

variable (a : (pcfg0 (F := Ideal)).Adm)

/-- The output window's block index at point t is its index map at t's coordinates. -/
theorem idx2 (t : Fin (cfg0 a).N) :
    ((cfg0 a).win 2).index t = cc0_transform_2 k0_off1_inb numel1_S1 a.1 (grid0.coords t) := rfl

/-- Window 2 is the output. -/
theorem isOut2 : ((cfg0 a).win 2).isOut = true := rfl

/-- Every grid point writes its output block back: consecutive points differ in the channel half. -/
theorem flush2 (t : Fin (cfg0 a).N) : ((cfg0 a).win 2).flush t = true := by
  unfold Pipeline.Window.flush
  rw [isOut2 a, Bool.true_and, Bool.or_eq_true, decide_eq_true_eq, decide_eq_true_eq]
  by_cases hl : t.val + 1 = (cfg0 a).grid.N
  · exact Or.inl hl
  · right
    have hlt0 : t.val < (cfg0 a).grid.N := t.isLt
    have hlt : t.val + 1 < (cfg0 a).grid.N := by omega
    refine ⟨hlt, fun e => ?_⟩
    have e1 := congrFun e (1 : Fin 4)
    rw [idx2, idx2, tr2_apply, tr2_apply] at e1
    have c1 := (coords_val ⟨t.val + 1, hlt⟩).2
    have c2 := (coords_val t).2
    change (grid0.coords ⟨t.val + 1, hlt⟩ 1).val = (grid0.coords t 1).val at e1
    change (grid0.coords ⟨t.val + 1, hlt⟩ 1).val = (t.val + 1) % 2 at c1
    omega

/-- Where element y of point t's output block sits in the output array. -/
theorem emb2_val (t : Fin (cfg0 a).N) (y : S1x32x48x320.Idx) (b : Fin 4) :
    ((((cfg0 a).win 2).blk t).view.emb y b).val = ((cfg0 a).win 2).index t b * S1x32x48x320.size b + 1 * (y b).val := rfl

/-- Element [0, ch, k, j] of point (n, cb)'s output block is element [p, 32·cb + ch, k, j] of the output array, p the
    word table 1 holds at n. -/
theorem emb2_eq (t : Fin (cfg0 a).N) (ch : Fin 32) (k : Fin 48) (j : Fin 320) (p : Fin 256)
    (hp : BitVec.toNat (a.1 1 (ix1 (bpos (grid0.coords t)))) = p.val) (hch : 32 * (grid0.coords t 1).val + ch.val < 64) :
    (((cfg0 a).win 2).blk t).view.emb (ix4 (0 : Fin 1) ch k j) = ix4 p ⟨32 * (grid0.coords t 1).val + ch.val, hch⟩ k j := by
  have ht := tr2_apply a.1 (grid0.coords t)
  funext b
  apply Fin.ext
  match b with
  | ⟨0, _⟩ =>
    show cc0_transform_2 k0_off1_inb numel1_S1 a.1 (grid0.coords t) (0 : Fin 4) * 1 + 1 * 0 = p.val
    rw [ht]
    show BitVec.toNat (a.1 1 (ix1 (bpos (grid0.coords t)))) * 1 + 1 * 0 = p.val
    omega
  | ⟨1, _⟩ =>
    show cc0_transform_2 k0_off1_inb numel1_S1 a.1 (grid0.coords t) (1 : Fin 4) * 32 + 1 * ch.val = 32 * (grid0.coords t 1).val + ch.val
    rw [ht]
    show (grid0.coords t 1).val * 32 + 1 * ch.val = 32 * (grid0.coords t 1).val + ch.val
    omega
  | ⟨2, _⟩ =>
    show cc0_transform_2 k0_off1_inb numel1_S1 a.1 (grid0.coords t) (2 : Fin 4) * 48 + 1 * k.val = k.val
    rw [ht]
    show 0 * 48 + 1 * k.val = k.val
    omega
  | ⟨3, _⟩ =>
    show cc0_transform_2 k0_off1_inb numel1_S1 a.1 (grid0.coords t) (3 : Fin 4) * 320 + 1 * j.val = j.val
    rw [ht]
    show 0 * 320 + 1 * j.val = j.val
    omega

/-- The cut of a block's contents X is the block of g when X agrees with g element by element. -/
theorem cut_eq_read (t : Fin (cfg0 a).N) (X : S1x32x48x320.Idx → EReal) (g : S256x64x48x320.Idx → EReal)
    (h : ∀ (ch : Fin 32) (k : Fin 48) (j : Fin 320),
      X (ix4 (0 : Fin 1) ch k j) = g ((((cfg0 a).win 2).blk t).view.emb (ix4 (0 : Fin 1) ch k j))) :
    ((cfg0 a).win 2).cut (grid0.coords t) X = (((cfg0 a).win 2).blk t).view.read (Elt Ideal) g := by
  have key : ∀ y : S1x32x48x320.Idx,
      ((cfg0 a).win 2).cut (grid0.coords t) X y = (((cfg0 a).win 2).blk t).view.read (Elt Ideal) g y := by
    intro y
    obtain ⟨y0, ch, k, j, rfl⟩ : ∃ (y0 : Fin 1) (ch : Fin 32) (k : Fin 48) (j : Fin 320), y = ix4 y0 ch k j :=
      ⟨y 0, y 1, y 2, y 3, eq_ix4 y⟩
    obtain rfl : y0 = 0 := Subsingleton.elim _ _
    exact h ch k j
  exact funext key

/-- An output index whose box is the word table 1 holds at the point's position, and whose channel half is the point's,
    lies in the point's block. -/
theorem mem_blk2_of (t : Fin (cfg0 a).N) (n : Fin 256) (i : S256x64x48x320.Idx)
    (c0 : (grid0.coords t 0).val = n.val) (c1 : (grid0.coords t 1).val = (i 1).val / 32)
    (hn : BitVec.toNat (a.1 1 (ix1 n)) = (i 0).val) : i ∈ (((cfg0 a).win 2).blk t).view.set := by
  have hb : bpos (grid0.coords t) = n := Fin.ext c0
  have hi1 : (i 1).val < 64 := (i 1).isLt
  have hch : 32 * (grid0.coords t 1).val + (i 1).val % 32 < 64 := by rw [c1]; omega
  have e := emb2_eq a t ⟨(i 1).val % 32, Nat.mod_lt _ (by decide)⟩ (i 2) (i 3) (i 0) (by rw [hb]; exact hn) hch
  have e' : ix4 (i 0) (⟨32 * (grid0.coords t 1).val + (i 1).val % 32, hch⟩ : Fin 64) (i 2) (i 3) = i := by
    funext b
    match b with
    | ⟨0, _⟩ => rfl
    | ⟨1, _⟩ => exact Fin.ext (by show 32 * (grid0.coords t 1).val + (i 1).val % 32 = (i 1).val; rw [c1]; omega)
    | ⟨2, _⟩ => rfl
    | ⟨3, _⟩ => rfl
  have ee : (((cfg0 a).win 2).blk t).view.emb (ix4 (0 : Fin 1) ⟨(i 1).val % 32, Nat.mod_lt _ (by decide)⟩ (i 2) (i 3)) = i :=
    e.trans e'
  exact Eq.subst (motive := fun z => z ∈ (((cfg0 a).win 2).blk t).view.set) ee (View.emb_mem_set _ _)

/-- When table 1 takes every box position, every output index lies in some point's block, and every point writes back. -/
theorem cover_of_surj (hsurj : ∀ b : Fin 256, ∃ n : Fin 256, BitVec.toNat (a.1 1 (ix1 n)) = b.val) (i : S256x64x48x320.Idx) :
    ∃ t : Fin (cfg0 a).N, ((cfg0 a).win 2).flush t = true ∧ i ∈ (((cfg0 a).win 2).blk t).view.set := by
  obtain ⟨n, hn⟩ := hsurj (i 0)
  have hi1 : (i 1).val < 64 := (i 1).isLt
  have hN : n.val * 2 + (i 1).val / 32 < grid0.N := by rw [N_0]; have := n.isLt; omega
  have cv := coords_val ⟨n.val * 2 + (i 1).val / 32, hN⟩
  refine ⟨⟨n.val * 2 + (i 1).val / 32, hN⟩, flush2 a _, mem_blk2_of a _ n i ?_ ?_ hn⟩
  · have := cv.1; show (grid0.coords ⟨n.val * 2 + (i 1).val / 32, hN⟩ 0).val = n.val
    rw [this]; show (n.val * 2 + (i 1).val / 32) / 2 = n.val; omega
  · have := cv.2; show (grid0.coords ⟨n.val * 2 + (i 1).val / 32, hN⟩ 1).val = (i 1).val / 32
    rw [this]; show (n.val * 2 + (i 1).val / 32) % 2 = (i 1).val / 32; omega

end Cert.KernelIdeal.KValue

end
-- ==== Proof.KernelIdealValue.lean ====
/-
  The kernel's run and its result. Grid point (n, cb) writes output block (permW[n], cb): the 32 channels
  32·cb … 32·cb + 31 of box permW[n]. By the body's value that block holds, at [ch, k, j], the image's element
  [clipped image index of that box, 32·cb + ch, its source line k, its source column j], which is `G` at
  [permW[n], 32·cb + ch, k, j] once the image index is in [0, 8) (clipping does not move it). The argsort takes every
  box position, so the blocks cover the whole output array, and every block is a restriction of `G`: the array the run
  leaves is `G` of the arguments.
-/
import proofs.«423708_j84104049590479_3_alg».proof.Proof.KernelIdealOkHyps
import proofs.«423708_j84104049590479_3_alg».proof.Proof.KernelIdealBody
import proofs.«423708_j84104049590479_3_alg».proof.Proof.KernelIdealBlocks
import proofs.«423708_j84104049590479_3_alg».proof.Proof.KernelIdealPost
import proofs.«423708_j84104049590479_3_alg».proof.Proof.KernelIdealValueGeom
import Idealize.ShloMosaic.Lib.Pipeline.Value

set_option maxRecDepth 16384

noncomputable section

namespace Cert.KernelIdeal.KValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

section AtLaunch

variable (m : (ℓ : Loc nD τ sig) → Buf (Elt Ideal) ℓ)

/-- Element [0, ch, k, j] of the block the body leaves at point t, over the point's input blocks and the tables: the
    image block at channel ch, at the source line the third table names for output line k, at the source column the
    staged column array names for output column j. -/
theorem outsAt0_apply (hO : Ok m) (hH : Hyps m hO) (c : Dev nD) (t : Fin (cfgM m hO).N)
    (hfin' : ∀ y, ∃ r : ℝ, iblk m hO c 0 t y = (r : EReal))
    (hcol' : ∀ j : Fin 320, BitVec.toNat (iblk m hO c 1 t (ix2 (bpos (grid0.coords t)) j)) < 320)
    (ch : Fin 32) (k : Fin 48) (j : Fin 320) :
    outsAt0 m hO hH c t (ix4 (0 : Fin 1) ch k j)
      = iblk m hO c 0 t (ix4 (0 : Fin 1) ch ⟨BitVec.toNat (tbl m 2 (ix2 (bpos (grid0.coords t)) k)) % 200, Nat.mod_lt _ (by decide)⟩
          ⟨BitVec.toNat (iblk m hO c 1 t (ix2 (bpos (grid0.coords t)) j)), hcol' j⟩) := by
  unfold outsAt0
  exact Body.out0_A_2_apply c (grid0.coords t) (ms0_0 m hO t) (hs0_0 m hO t) (ms0_1 m hO t) (hs0_1 m hO t) (ms0_2 m hO t) (hs0_2 m hO t) scM0_0 (Memref.isWhole_whole _) (iblk m hO c 0 t) (iblk m hO c 1 t) (tbl m 0) (tbl m 1) (tbl m 2) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) hfin' hcol' ch k j

set_option maxHeartbeats 400000 in
/-- Element [0, ch, k, j] of the block point (n, cb) leaves is G of the arguments at [p, 32·cb + ch, k, j], p the box
    that comes n-th: its image index is in [0, 8), so clipping does not move it, and its source lines and columns are
    the table's and the staged column array's rows at n. -/
theorem point_eq
    (hfin : ∀ (c : Dev nD) y, ∃ r : ℝ, m ((c.tc : Thread nD τ).loc main_arg0) y = (r : EReal))
    (hr : ∀ (c : Dev nD) (b : Fin 256), IntOp.cmpi .sge (m ((c.tc : Thread nD τ).loc main_arg2) (ix1 b)) 0#32 = 1#1
      ∧ IntOp.cmpi .slt (m ((c.tc : Thread nD τ).loc main_arg2) (ix1 b)) 8#32 = 1#1)
    (hO : Ok m) (hH : Hyps m hO) (t : Fin (cfgM m hO).N) (ch : Fin 32) (k : Fin 48) (j : Fin 320)
    (hch : 32 * (grid0.coords t 1).val + ch.val < 64) :
    outsAt0 m hO hH 0 t (ix4 (0 : Fin 1) ch k j)
      = Cert.Crop.G (m (((0 : Dev nD).tc : Thread nD τ).loc main_arg0)) (m (((0 : Dev nD).tc : Thread nD τ).loc main_arg1))
          (m (((0 : Dev nD).tc : Thread nD τ).loc main_arg2))
          (ix4 (Cert.Crop.permIdx (Tables.biOf m 0) (bpos (grid0.coords t))) ⟨32 * (grid0.coords t 1).val + ch.val, hch⟩ k j) := by
  generalize hp : Cert.Crop.permIdx (Tables.biOf m 0) (bpos (grid0.coords t)) = p
  have h0 := Tables.tbl0_apply m (bpos (grid0.coords t))
  have h2 := Tables.tbl2_apply m (bpos (grid0.coords t))
  have h3 := Tables.cols_apply m 0 (bpos (grid0.coords t))
  rw [hp] at h0 h2 h3
  have hi := hr 0 p
  have hclip : Cert.Crop.imgClipW (Tables.biOf m 0) (ix1 p) = Tables.biOf m 0 (ix1 p) :=
    Cert.Crop.imgClipW_of_range (Tables.biOf m 0) p hi.1 hi.2
  have hlt8 : BitVec.toNat (Tables.biOf m 0 (ix1 p)) < 8 := Cert.Crop.toNat_lt_of_range _ hi.1 hi.2
  have himg : BitVec.toNat (tbl m 0 (ix1 (bpos (grid0.coords t)))) < 8 := by rw [h0, hclip]; exact hlt8
  have hcol' : ∀ j : Fin 320, BitVec.toNat (iblk m hO 0 1 t (ix2 (bpos (grid0.coords t)) j)) < 320 := fun j => by
    rw [Blocks.iblk1_apply, h3]; exact Cert.Crop.colsW_lt _ _ _
  have hfin' : ∀ y : S1x32x200x320.Idx, ∃ r : ℝ, iblk m hO 0 0 t y = (r : EReal) := by
    intro y
    obtain ⟨y0, c', r', w', rfl⟩ : ∃ (y0 : Fin 1) (c' : Fin 32) (r' : Fin 200) (w' : Fin 320), y = ix4 y0 c' r' w' :=
      ⟨y 0, y 1, y 2, y 3, eq_ix4 y⟩
    obtain rfl : y0 = 0 := Subsingleton.elim _ _
    have hc' : 32 * (grid0.coords t 1).val + c'.val < 64 := by
      have := (grid0.coords t 1).isLt; have := c'.isLt; omega
    rw [Blocks.iblk0_apply m hO 0 t c' r' w' himg hc', V_main_arg0]
    exact hfin 0 _
  rw [outsAt0_apply m hO hH 0 t hfin' hcol' ch k j, Blocks.iblk0_apply m hO 0 t ch _ _ himg hch, V_main_arg0]
  refine congrArg (m (((0 : Dev nD).tc : Thread nD τ).loc main_arg0)) ?_
  funext b
  match b with
  | ⟨0, _⟩ =>
    exact Fin.ext (by
      show BitVec.toNat (tbl m 0 (ix1 (bpos (grid0.coords t)))) = BitVec.toNat (Tables.biOf m 0 (ix1 p)) % 8
      rw [h0, hclip, Nat.mod_eq_of_lt hlt8])
  | ⟨1, _⟩ => rfl
  | ⟨2, _⟩ =>
    exact Fin.ext (by
      show BitVec.toNat (tbl m 2 (ix2 (bpos (grid0.coords t)) k)) % 200
        = BitVec.toNat (Cert.Crop.rowsW (Tables.bbOf m 0) (ix2 p k)) % 200
      rw [h2 k])
  | ⟨3, _⟩ =>
    exact Fin.ext (by
      show BitVec.toNat (iblk m hO 0 1 t (ix2 (bpos (grid0.coords t)) j))
        = BitVec.toNat (Cert.Crop.colsW (Tables.bbOf m 0) (ix2 p j)) % 320
      rw [Blocks.iblk1_apply, h3 j, Nat.mod_eq_of_lt (Cert.Crop.colsW_lt _ _ _)])

/-- Table 1 at n, read through the admissible contents the launch runs at: the n-th box. -/
theorem adm_tbl1 (hO : Ok m) (n : Fin 256) :
    BitVec.toNat ((adm m hO).1 1 (ix1 n)) = (Cert.Crop.permIdx (Tables.biOf m 0) n).val := by
  rw [Blocks.adm_val m hO]; exact Tables.tbl1_apply m n

/-- What grid point t writes back is the cut of what the body leaves there. -/
theorem flushed_cut (hO : Ok m) (hH : Hyps m hO) (c : Dev nD) (t : Fin (cfgM m hO).N) :
    (dats m hO hH 0 c).flushed 2 t = ((cfgM m hO).win 2).cut (grid0.coords t) (outsAt0 m hO hH c t) := by
  show ((cfgM m hO).win 2).cut (grid0.coords t) ((dats m hO hH 0 c).after 2 t) = _
  rw [after0_2]

/-- The block point t leaves agrees with G of the arguments element by element. -/
theorem block_eq
    (hfin : ∀ (c : Dev nD) y, ∃ r : ℝ, m ((c.tc : Thread nD τ).loc main_arg0) y = (r : EReal))
    (hr : ∀ (c : Dev nD) (b : Fin 256), IntOp.cmpi .sge (m ((c.tc : Thread nD τ).loc main_arg2) (ix1 b)) 0#32 = 1#1
      ∧ IntOp.cmpi .slt (m ((c.tc : Thread nD τ).loc main_arg2) (ix1 b)) 8#32 = 1#1)
    (hO : Ok m) (hH : Hyps m hO) (t : Fin (cfgM m hO).N) (ch : Fin 32) (k : Fin 48) (j : Fin 320) :
    outsAt0 m hO hH 0 t (ix4 (0 : Fin 1) ch k j)
      = Cert.Crop.G (m (((0 : Dev nD).tc : Thread nD τ).loc main_arg0)) (m (((0 : Dev nD).tc : Thread nD τ).loc main_arg1))
          (m (((0 : Dev nD).tc : Thread nD τ).loc main_arg2))
          ((((cfg0 (adm m hO)).win 2).blk t).view.emb (ix4 (0 : Fin 1) ch k j)) := by
  have hch : 32 * (grid0.coords t 1).val + ch.val < 64 := by
    have h2 : (grid0.coords t 1).val < 2 := (grid0.coords t 1).isLt
    have := ch.isLt; omega
  rw [emb2_eq (adm m hO) t ch k j (Cert.Crop.permIdx (Tables.biOf m 0) (bpos (grid0.coords t))) (adm_tbl1 m hO _) hch]
  exact point_eq m hfin hr hO hH t ch k j hch

/-- What grid point t writes back is block t of G of the arguments. -/
theorem flushed_eq
    (hfin : ∀ (c : Dev nD) y, ∃ r : ℝ, m ((c.tc : Thread nD τ).loc main_arg0) y = (r : EReal))
    (hr : ∀ (c : Dev nD) (b : Fin 256), IntOp.cmpi .sge (m ((c.tc : Thread nD τ).loc main_arg2) (ix1 b)) 0#32 = 1#1
      ∧ IntOp.cmpi .slt (m ((c.tc : Thread nD τ).loc main_arg2) (ix1 b)) 8#32 = 1#1)
    (hO : Ok m) (hH : Hyps m hO) (c : Dev nD) (t : Fin (cfgM m hO).N) :
    (dats m hO hH 0 c).flushed 2 t
      = (((cfgM m hO).win 2).blk t).view.read (Elt Ideal)
          (Cert.Crop.G (m ((c.tc : Thread nD τ).loc main_arg0)) (m ((c.tc : Thread nD τ).loc main_arg1))
            (m ((c.tc : Thread nD τ).loc main_arg2))) := by
  obtain rfl : c = 0 := Subsingleton.elim _ _
  exact (flushed_cut m hO hH 0 t).trans
    (cut_eq_read (adm m hO) t (outsAt0 m hO hH 0 t) _ (block_eq m hfin hr hO hH t))

/-- The argsort takes every box position, so the output blocks cover the output array. -/
theorem cover (hO : Ok m) (i : S256x64x48x320.Idx) :
    ∃ t : Fin (cfgM m hO).N, ((cfgM m hO).win 2).flush t = true ∧ i ∈ (((cfgM m hO).win 2).blk t).view.set :=
  cover_of_surj (adm m hO) (fun b => by
    obtain ⟨n, hn⟩ := Cert.Crop.permW_surj (Tables.biOf m 0) b
    exact ⟨n, (adm_tbl1 m hO n).trans hn⟩) i

/-- The output array after the run is G of the arguments: every block is a restriction of G, and the blocks cover the
    array because the argsort takes every box position. -/
theorem final
    (hfin : ∀ (c : Dev nD) y, ∃ r : ℝ, m ((c.tc : Thread nD τ).loc main_arg0) y = (r : EReal))
    (hr : ∀ (c : Dev nD) (b : Fin 256), IntOp.cmpi .sge (m ((c.tc : Thread nD τ).loc main_arg2) (ix1 b)) 0#32 = 1#1
      ∧ IntOp.cmpi .slt (m ((c.tc : Thread nD τ).loc main_arg2) (ix1 b)) 8#32 = 1#1)
    (hO : Ok m) (hH : Hyps m hO) (c : Dev nD) :
    (dats m hO hH 0 c).arrAt 2 (cfgM m hO).N
      = Cert.Crop.G (m ((c.tc : Thread nD τ).loc main_arg0)) (m ((c.tc : Thread nD τ).loc main_arg1))
          (m ((c.tc : Thread nD τ).loc main_arg2)) :=
  (dats m hO hH 0 c).arrAt_eq_of_cover 2 _ (fun t _ => flushed_eq m hfin hr hO hH c t) (cover m hO)

end AtLaunch

/-- Every weakly fair execution of the kernel's program terminates with the result at `G` of the arguments and the
    arguments unchanged, when the image array holds real numbers and the image indices lie in [0, 8). -/
theorem run (m : (ℓ : Loc nD τ sig) → Buf (Elt Ideal) ℓ) (ρ : Dev nD → PrngReg)
    (hfin : ∀ (c : Dev nD) y, ∃ r : ℝ, m ((c.tc : Thread nD τ).loc main_arg0) y = (r : EReal))
    (hr : ∀ (c : Dev nD) (b : Fin 256), IntOp.cmpi .sge (m ((c.tc : Thread nD τ).loc main_arg2) (ix1 b)) 0#32 = 1#1
      ∧ IntOp.cmpi .slt (m ((c.tc : Thread nD τ).loc main_arg2) (ix1 b)) 8#32 = 1#1) :
    θ_run (defs (F := Ideal)) (onTc (τ := τ) (main (F := Ideal))) ⟨m, fun _ => 0, ρ⟩ (fun r => ∀ c : Dev nD,
      r.2.mem ((c.tc : Thread nD τ).loc main_v51)
          = Cert.Crop.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hO : Ok m := OkHyps.ok_of m
  have hH : Hyps m hO := OkHyps.hyps_of m hO
  exact (θ_run defs _ _).mono (fun r h c => ⟨(h c).1.trans (final m hfin hr hO hH c), (h c).2⟩)
    (Post.run_blocks m ρ hO hH)

end Cert.KernelIdeal.KValue

end
-- ==== Proof.RefSpec.lean ====
/-
  The reference's own way to the result, as pure functions. It does no sorting: for every output element
  [b, k, j] it forms the index triple (box_img[b], rows[b, k], cols[b, j]) — each component first normalised the Python
  way (a negative index counted from the end of its axis) —, gathers the 64 channels of the image at that triple, and
  moves the channel axis to the second place.
-/
import proofs.«423708_j84104049590479_3_alg».proof.Proof.Spec

noncomputable section

namespace Cert.Crop

open Idealize.ShloMosaic Idealize.ShloMosaic.ValueIdx

abbrev S256x1x1 : Shape := ⟨3, ![256, 1, 1]⟩
abbrev S256x48x1 : Shape := ⟨3, ![256, 48, 1]⟩
abbrev S256x1x320 : Shape := ⟨3, ![256, 1, 320]⟩
abbrev S256x48x320 : Shape := ⟨3, ![256, 48, 320]⟩
abbrev S256x48x320x1 : Shape := ⟨4, ![256, 48, 320, 1]⟩
abbrev S256x48x320x3 : Shape := ⟨4, ![256, 48, 320, 3]⟩
abbrev S256x48x320x64 : Shape := ⟨4, ![256, 48, 320, 64]⟩

theorem r_img : S256.BroadcastsInDim S256x1x1 (![0] : Fin 1 → Fin S256x1x1.rank) := by decide
theorem r_rows : S256x48.BroadcastsInDim S256x48x1 (![0, 1] : Fin 2 → Fin S256x48x1.rank) := by decide
theorem r_cols : S256x320.BroadcastsInDim S256x1x320 (![0, 2] : Fin 2 → Fin S256x1x320.rank) := by decide
theorem r_s_img : S_.BroadcastsInDim S256x1x1 (![] : Fin 0 → Fin S256x1x1.rank) := by decide
theorem r_s_rows : S_.BroadcastsInDim S256x48x1 (![] : Fin 0 → Fin S256x48x1.rank) := by decide
theorem r_s_cols : S_.BroadcastsInDim S256x1x320 (![] : Fin 0 → Fin S256x1x320.rank) := by decide
theorem r_img_all : S256x1x1.BroadcastsInDim S256x48x320 (![0, 1, 2] : Fin 3 → Fin S256x48x320.rank) := by decide
theorem r_rows_all : S256x48x1.BroadcastsInDim S256x48x320 (![0, 1, 2] : Fin 3 → Fin S256x48x320.rank) := by decide
theorem r_cols_all : S256x1x320.BroadcastsInDim S256x48x320 (![0, 1, 2] : Fin 3 → Fin S256x48x320.rank) := by decide
theorem r_last : S256x48x320.BroadcastsInDim S256x48x320x1 (![0, 1, 2] : Fin 3 → Fin S256x48x320x1.rank) := by decide
theorem r_conc : Shape.Concatenates [S256x48x320x1, S256x48x320x1, S256x48x320x1] S256x48x320x3 3 := by decide
theorem r_tr : S256x48x320x64.Transposes [0, 3, 1, 2] S256x64x48x320 := by decide
theorem r_gwf : GatherDims.WF S8x64x200x320 S256x48x320x3 S256x48x320x64 [3] [0, 2, 3] [] [0, 2, 3] [] 3 ![1, 64, 1, 1] := by decide

/-- The gather's dimension numbers: the index triple names image, line and column (operand axes 0, 2, 3, all
    collapsed); the channel axis is kept whole as the result's last axis. -/
def refGather : GatherDims S8x64x200x320 S256x48x320x3 S256x48x320x64 where
  offsetDims := [3]
  collapsedSliceDims := [0, 2, 3]
  operandBatchingDims := []
  startIndicesBatchingDims := []
  startIndexMap := [0, 2, 3]
  indexVectorDim := 3
  sliceSizes := ![1, 64, 1, 1]
  wf := r_gwf

/-- The image indices, one per box, normalised: a negative one counted from 8. -/
def refImgW (bi : IVec S256 32) : IVec S256x1x1 32 :=
  let v : IVec S256x1x1 32 := broadcastInDim S256x1x1 ![0] r_img bi
  select (cmpi .slt v (broadcastInDim S256x1x1 ![] r_s_img (constantI S_ 32 0#32)))
    (addi v (broadcastInDim S256x1x1 ![] r_s_img (constantI S_ 32 8#32))) v

/-- The source lines, normalised against 200. -/
def refRowsW (bb : IVec S256x4 32) : IVec S256x48x1 32 :=
  let v : IVec S256x48x1 32 := broadcastInDim S256x48x1 ![0, 1] r_rows (rowsW bb)
  select (cmpi .slt v (broadcastInDim S256x48x1 ![] r_s_rows (constantI S_ 32 0#32)))
    (addi v (broadcastInDim S256x48x1 ![] r_s_rows (constantI S_ 32 200#32))) v

/-- The source columns, normalised against 320. -/
def refColsW (bb : IVec S256x4 32) : IVec S256x1x320 32 :=
  let v : IVec S256x1x320 32 := broadcastInDim S256x1x320 ![0, 2] r_cols (colsW bb)
  select (cmpi .slt v (broadcastInDim S256x1x320 ![] r_s_cols (constantI S_ 32 0#32)))
    (addi v (broadcastInDim S256x1x320 ![] r_s_cols (constantI S_ 32 320#32))) v

/-- The table of index triples: entry [b, k, j, ·] = (image of b, line of (b, k), column of (b, j)). -/
def refIdxW (bb : IVec S256x4 32) (bi : IVec S256 32) : IVec S256x48x320x3 32 :=
  concatenate S256x48x320x3 3
    [⟨S256x48x320x1, broadcastInDim S256x48x320x1 ![0, 1, 2] r_last (broadcastInDim S256x48x320 ![0, 1, 2] r_img_all (refImgW bi))⟩,
     ⟨S256x48x320x1, broadcastInDim S256x48x320x1 ![0, 1, 2] r_last (broadcastInDim S256x48x320 ![0, 1, 2] r_rows_all (refRowsW bb))⟩,
     ⟨S256x48x320x1, broadcastInDim S256x48x320x1 ![0, 1, 2] r_last (broadcastInDim S256x48x320 ![0, 1, 2] r_cols_all (refColsW bb))⟩]
    r_conc

/-- The reference's result: the gather at the index triples, channels moved to the second axis. -/
def refOut {α : Type} (x : S8x64x200x320.Idx → α) (bb : IVec S256x4 32) (bi : IVec S256 32) : S256x64x48x320.Idx → α :=
  transpose S256x64x48x320 [0, 3, 1, 2] (Host.gather refGather x (refIdxW bb bi)) r_tr

end Cert.Crop

end
-- ==== Proof.RefRun.lean ====
/-
  The reference's run: its host program is a straight line of operations (the outlined clip and floor-divide
  functions inlined at their calls), every weakly fair execution of it terminates, the arguments end unchanged, and the
  result buffer ends at the operations' composed term of the arguments, which is `refOut`.
-/
import proofs.«423708_j84104049590479_3_alg».proof.ReferenceIdeal
import proofs.«423708_j84104049590479_3_alg».proof.Proof.Gen.ReferenceIdeal
import proofs.«423708_j84104049590479_3_alg».proof.Proof.RefSpec
import Idealize.ShloMosaic.Lib.StableHlo.Run

noncomputable section

namespace Cert.ReferenceIdeal.RefRun

open Cert.ReferenceIdeal Cert.ReferenceIdeal.Gen
open Idealize.ShloMosaic Idealize.ShloMosaic.TcCoe Idealize.SL.Sem Idealize.ShloMosaic.StableHlo

variable {F : FTy → Type} [FloatOps F]

/-- The four corner columns of the box table, each cut out, flattened and clipped (the clip inlined: six operations a call); then the far corners raised to the near ones and the two extents, far − near + 1. -/
abbrev opsA : List (HloOp τ sig (Elt F)) :=
  [ StableHlo.unary main_arg1 main_v0 ((extractStridedSlice S256x1 ![0, 0] · slices_S256x4_S256x1_0_0) : (⟨S256x4, .i32⟩ : BufTy).Contents (Elt F) → (⟨S256x1, .i32⟩ : BufTy).Contents (Elt F)),
    StableHlo.reshape main_v0 main_v1 rfl shapeCasts_S256x1_S256,
    StableHlo.nullary main_c (constantI S_ 32 0#32),
    StableHlo.nullary main_c_0 (constantI S_ 32 319#32),
    StableHlo.TRef.unary (StableHlo.TRef.of main_c : StableHlo.TRef sig ⟨S_, .i32⟩) main_call0.v0 id,
    StableHlo.TRef.unary main_call0.v0 main_call0.v1 (broadcastInDim S256 ![] bcast_S_S256),
    StableHlo.TRef.binary main_call0.v1 (StableHlo.TRef.of main_v1 : StableHlo.TRef sig ⟨S256, .i32⟩) main_call0.v2 maxsi,
    StableHlo.TRef.unary (StableHlo.TRef.of main_c_0 : StableHlo.TRef sig ⟨S_, .i32⟩) main_call0.v3 id,
    StableHlo.TRef.unary main_call0.v3 main_call0.v4 (broadcastInDim S256 ![] bcast_S_S256),
    StableHlo.TRef.binary main_call0.v4 main_call0.v2 main_call0.v5 minsi,
    StableHlo.unary main_arg1 main_v3 ((extractStridedSlice S256x1 ![0, 1] · slices_S256x4_S256x1_0_1) : (⟨S256x4, .i32⟩ : BufTy).Contents (Elt F) → (⟨S256x1, .i32⟩ : BufTy).Contents (Elt F)),
    StableHlo.reshape main_v3 main_v4 rfl shapeCasts_S256x1_S256,
    StableHlo.nullary main_c_1 (constantI S_ 32 0#32),
    StableHlo.nullary main_c_2 (constantI S_ 32 199#32),
    StableHlo.TRef.unary (StableHlo.TRef.of main_c_1 : StableHlo.TRef sig ⟨S_, .i32⟩) main_call1.v0 id,
    StableHlo.TRef.unary main_call1.v0 main_call1.v1 (broadcastInDim S256 ![] bcast_S_S256),
    StableHlo.TRef.binary main_call1.v1 (StableHlo.TRef.of main_v4 : StableHlo.TRef sig ⟨S256, .i32⟩) main_call1.v2 maxsi,
    StableHlo.TRef.unary (StableHlo.TRef.of main_c_2 : StableHlo.TRef sig ⟨S_, .i32⟩) main_call1.v3 id,
    StableHlo.TRef.unary main_call1.v3 main_call1.v4 (broadcastInDim S256 ![] bcast_S_S256),
    StableHlo.TRef.binary main_call1.v4 main_call1.v2 main_call1.v5 minsi,
    StableHlo.unary main_arg1 main_v6 ((extractStridedSlice S256x1 ![0, 2] · slices_S256x4_S256x1_0_2) : (⟨S256x4, .i32⟩ : BufTy).Contents (Elt F) → (⟨S256x1, .i32⟩ : BufTy).Contents (Elt F)),
    StableHlo.reshape main_v6 main_v7 rfl shapeCasts_S256x1_S256,
    StableHlo.nullary main_c_3 (constantI S_ 32 0#32),
    StableHlo.nullary main_c_4 (constantI S_ 32 319#32),
    StableHlo.TRef.unary (StableHlo.TRef.of main_c_3 : StableHlo.TRef sig ⟨S_, .i32⟩) main_call2.v0 id,
    StableHlo.TRef.unary main_call2.v0 main_call2.v1 (broadcastInDim S256 ![] bcast_S_S256),
    StableHlo.TRef.binary main_call2.v1 (StableHlo.TRef.of main_v7 : StableHlo.TRef sig ⟨S256, .i32⟩) main_call2.v2 maxsi,
    StableHlo.TRef.unary (StableHlo.TRef.of main_c_4 : StableHlo.TRef sig ⟨S_, .i32⟩) main_call2.v3 id,
    StableHlo.TRef.unary main_call2.v3 main_call2.v4 (broadcastInDim S256 ![] bcast_S_S256),
    StableHlo.TRef.binary main_call2.v4 main_call2.v2 main_call2.v5 minsi,
    StableHlo.unary main_arg1 main_v9 ((extractStridedSlice S256x1 ![0, 3] · slices_S256x4_S256x1_0_3) : (⟨S256x4, .i32⟩ : BufTy).Contents (Elt F) → (⟨S256x1, .i32⟩ : BufTy).Contents (Elt F)),
    StableHlo.reshape main_v9 main_v10 rfl shapeCasts_S256x1_S256,
    StableHlo.nullary main_c_5 (constantI S_ 32 0#32),
    StableHlo.nullary main_c_6 (constantI S_ 32 199#32),
    StableHlo.TRef.unary (StableHlo.TRef.of main_c_5 : StableHlo.TRef sig ⟨S_, .i32⟩) main_call3.v0 id,
    StableHlo.TRef.unary main_call3.v0 main_call3.v1 (broadcastInDim S256 ![] bcast_S_S256),
    StableHlo.TRef.binary main_call3.v1 (StableHlo.TRef.of main_v10 : StableHlo.TRef sig ⟨S256, .i32⟩) main_call3.v2 maxsi,
    StableHlo.TRef.unary (StableHlo.TRef.of main_c_6 : StableHlo.TRef sig ⟨S_, .i32⟩) main_call3.v3 id,
    StableHlo.TRef.unary main_call3.v3 main_call3.v4 (broadcastInDim S256 ![] bcast_S_S256),
    StableHlo.TRef.binary main_call3.v4 main_call3.v2 main_call3.v5 minsi,
    StableHlo.binary main_v8 main_v2 main_v12 (maxsi : (⟨S256, .i32⟩ : BufTy).Contents (Elt F) → (⟨S256, .i32⟩ : BufTy).Contents (Elt F) → (⟨S256, .i32⟩ : BufTy).Contents (Elt F)),
    StableHlo.binary main_v11 main_v5 main_v13 (maxsi : (⟨S256, .i32⟩ : BufTy).Contents (Elt F) → (⟨S256, .i32⟩ : BufTy).Contents (Elt F) → (⟨S256, .i32⟩ : BufTy).Contents (Elt F)),
    StableHlo.binary main_v13 main_v5 main_v14 (subi : (⟨S256, .i32⟩ : BufTy).Contents (Elt F) → (⟨S256, .i32⟩ : BufTy).Contents (Elt F) → (⟨S256, .i32⟩ : BufTy).Contents (Elt F)),
    StableHlo.nullary main_c_7 (constantI S_ 32 1#32),
    StableHlo.unary main_c_7 main_v15 (broadcastInDim S256 ![] bcast_S_S256 : (⟨S_, .i32⟩ : BufTy).Contents (Elt F) → (⟨S256, .i32⟩ : BufTy).Contents (Elt F)),
    StableHlo.binary main_v14 main_v15 main_v16 (addi : (⟨S256, .i32⟩ : BufTy).Contents (Elt F) → (⟨S256, .i32⟩ : BufTy).Contents (Elt F) → (⟨S256, .i32⟩ : BufTy).Contents (Elt F)),
    StableHlo.binary main_v12 main_v2 main_v17 (subi : (⟨S256, .i32⟩ : BufTy).Contents (Elt F) → (⟨S256, .i32⟩ : BufTy).Contents (Elt F) → (⟨S256, .i32⟩ : BufTy).Contents (Elt F)),
    StableHlo.nullary main_c_8 (constantI S_ 32 1#32),
    StableHlo.unary main_c_8 main_v18 (broadcastInDim S256 ![] bcast_S_S256 : (⟨S_, .i32⟩ : BufTy).Contents (Elt F) → (⟨S256, .i32⟩ : BufTy).Contents (Elt F)),
    StableHlo.binary main_v17 main_v18 main_v19 (addi : (⟨S256, .i32⟩ : BufTy).Contents (Elt F) → (⟨S256, .i32⟩ : BufTy).Contents (Elt F) → (⟨S256, .i32⟩ : BufTy).Contents (Elt F)) ]

/-- The source lines: the line counter times the height, floor-divided by 48 (inlined), added to the near line. -/
abbrev opsB : List (HloOp τ sig (Elt F)) :=
  [ StableHlo.nullary main_v20 (iotaInDim S48 32 0),
    StableHlo.nullary main_v21 (iotaInDim S320 32 0),
    StableHlo.unary main_v5 main_v22 (broadcastInDim S256x1 ![0] bcast_S256_S256x1_0 : (⟨S256, .i32⟩ : BufTy).Contents (Elt F) → (⟨S256x1, .i32⟩ : BufTy).Contents (Elt F)),
    StableHlo.unary main_v20 main_v23 (broadcastInDim S1x48 ![1] bcast_S48_S1x48_1 : (⟨S48, .i32⟩ : BufTy).Contents (Elt F) → (⟨S1x48, .i32⟩ : BufTy).Contents (Elt F)),
    StableHlo.unary main_v16 main_v24 (broadcastInDim S256x1 ![0] bcast_S256_S256x1_0 : (⟨S256, .i32⟩ : BufTy).Contents (Elt F) → (⟨S256x1, .i32⟩ : BufTy).Contents (Elt F)),
    StableHlo.unary main_v23 main_v25 (broadcastInDim S256x48 ![0, 1] bcast_S1x48_S256x48_0_1 : (⟨S1x48, .i32⟩ : BufTy).Contents (Elt F) → (⟨S256x48, .i32⟩ : BufTy).Contents (Elt F)),
    StableHlo.unary main_v24 main_v26 (broadcastInDim S256x48 ![0, 1] bcast_S256x1_S256x48_0_1 : (⟨S256x1, .i32⟩ : BufTy).Contents (Elt F) → (⟨S256x48, .i32⟩ : BufTy).Contents (Elt F)),
    StableHlo.binary main_v25 main_v26 main_v27 (muli : (⟨S256x48, .i32⟩ : BufTy).Contents (Elt F) → (⟨S256x48, .i32⟩ : BufTy).Contents (Elt F) → (⟨S256x48, .i32⟩ : BufTy).Contents (Elt F)),
    StableHlo.nullary main_c_9 (constantI S_ 32 48#32),
    StableHlo.TRef.unary (StableHlo.TRef.of main_c_9 : StableHlo.TRef sig ⟨S_, .i32⟩) main_call4.v0 id,
    StableHlo.TRef.unary main_call4.v0 main_call4.v1 (broadcastInDim S256x48 ![] bcast_S_S256x48),
    StableHlo.TRef.binary (StableHlo.TRef.of main_v27 : StableHlo.TRef sig ⟨S256x48, .i32⟩) main_call4.v1 main_call4.v2 Host.divsi,
    StableHlo.TRef.unary (StableHlo.TRef.of main_v27 : StableHlo.TRef sig ⟨S256x48, .i32⟩) main_call4.v3 signi,
    StableHlo.TRef.unary main_call4.v0 main_call4.v4 signi,
    StableHlo.TRef.unary main_call4.v4 main_call4.v5 (broadcastInDim S256x48 ![] bcast_S_S256x48),
    StableHlo.TRef.binary main_call4.v3 main_call4.v5 main_call4.v6 (cmpi .ne),
    StableHlo.TRef.unary main_call4.v0 main_call4.v7 (broadcastInDim S256x48 ![] bcast_S_S256x48),
    StableHlo.TRef.binary (StableHlo.TRef.of main_v27 : StableHlo.TRef sig ⟨S256x48, .i32⟩) main_call4.v7 main_call4.v8 Host.remsi,
    StableHlo.TRef.nullary main_call4.c (constantI S_ 32 0#32),
    StableHlo.TRef.unary main_call4.c main_call4.v9 (broadcastInDim S256x48 ![] bcast_S_S256x48),
    StableHlo.TRef.binary main_call4.v8 main_call4.v9 main_call4.v10 (cmpi .ne),
    StableHlo.TRef.binary main_call4.v6 main_call4.v10 main_call4.v11 andi,
    StableHlo.TRef.nullary main_call4.c_0 (constantI S_ 32 1#32),
    StableHlo.TRef.unary main_call4.c_0 main_call4.v12 (broadcastInDim S256x48 ![] bcast_S_S256x48),
    StableHlo.TRef.binary main_call4.v2 main_call4.v12 main_call4.v13 subi,
    StableHlo.TRef.ternary main_call4.v11 main_call4.v13 main_call4.v2 main_call4.call0.v0 select,
    StableHlo.unary main_v22 main_v29 (broadcastInDim S256x48 ![0, 1] bcast_S256x1_S256x48_0_1 : (⟨S256x1, .i32⟩ : BufTy).Contents (Elt F) → (⟨S256x48, .i32⟩ : BufTy).Contents (Elt F)),
    StableHlo.binary main_v29 main_v28 main_v30 (addi : (⟨S256x48, .i32⟩ : BufTy).Contents (Elt F) → (⟨S256x48, .i32⟩ : BufTy).Contents (Elt F) → (⟨S256x48, .i32⟩ : BufTy).Contents (Elt F)) ]

/-- The source columns: the column counter times the width, floor-divided by 320 (inlined), added to the near column. -/
abbrev opsC : List (HloOp τ sig (Elt F)) :=
  [ StableHlo.unary main_v2 main_v31 (broadcastInDim S256x1 ![0] bcast_S256_S256x1_0 : (⟨S256, .i32⟩ : BufTy).Contents (Elt F) → (⟨S256x1, .i32⟩ : BufTy).Contents (Elt F)),
    StableHlo.unary main_v21 main_v32 (broadcastInDim S1x320 ![1] bcast_S320_S1x320_1 : (⟨S320, .i32⟩ : BufTy).Contents (Elt F) → (⟨S1x320, .i32⟩ : BufTy).Contents (Elt F)),
    StableHlo.unary main_v19 main_v33 (broadcastInDim S256x1 ![0] bcast_S256_S256x1_0 : (⟨S256, .i32⟩ : BufTy).Contents (Elt F) → (⟨S256x1, .i32⟩ : BufTy).Contents (Elt F)),
    StableHlo.unary main_v32 main_v34 (broadcastInDim S256x320 ![0, 1] bcast_S1x320_S256x320_0_1 : (⟨S1x320, .i32⟩ : BufTy).Contents (Elt F) → (⟨S256x320, .i32⟩ : BufTy).Contents (Elt F)),
    StableHlo.unary main_v33 main_v35 (broadcastInDim S256x320 ![0, 1] bcast_S256x1_S256x320_0_1 : (⟨S256x1, .i32⟩ : BufTy).Contents (Elt F) → (⟨S256x320, .i32⟩ : BufTy).Contents (Elt F)),
    StableHlo.binary main_v34 main_v35 main_v36 (muli : (⟨S256x320, .i32⟩ : BufTy).Contents (Elt F) → (⟨S256x320, .i32⟩ : BufTy).Contents (Elt F) → (⟨S256x320, .i32⟩ : BufTy).Contents (Elt F)),
    StableHlo.nullary main_c_10 (constantI S_ 32 320#32),
    StableHlo.TRef.unary (StableHlo.TRef.of main_c_10 : StableHlo.TRef sig ⟨S_, .i32⟩) main_call5.v0 id,
    StableHlo.TRef.unary main_call5.v0 main_call5.v1 (broadcastInDim S256x320 ![] bcast_S_S256x320),
    StableHlo.TRef.binary (StableHlo.TRef.of main_v36 : StableHlo.TRef sig ⟨S256x320, .i32⟩) main_call5.v1 main_call5.v2 Host.divsi,
    StableHlo.TRef.unary (StableHlo.TRef.of main_v36 : StableHlo.TRef sig ⟨S256x320, .i32⟩) main_call5.v3 signi,
    StableHlo.TRef.unary main_call5.v0 main_call5.v4 signi,
    StableHlo.TRef.unary main_call5.v4 main_call5.v5 (broadcastInDim S256x320 ![] bcast_S_S256x320),
    StableHlo.TRef.binary main_call5.v3 main_call5.v5 main_call5.v6 (cmpi .ne),
    StableHlo.TRef.unary main_call5.v0 main_call5.v7 (broadcastInDim S256x320 ![] bcast_S_S256x320),
    StableHlo.TRef.binary (StableHlo.TRef.of main_v36 : StableHlo.TRef sig ⟨S256x320, .i32⟩) main_call5.v7 main_call5.v8 Host.remsi,
    StableHlo.TRef.nullary main_call5.c (constantI S_ 32 0#32),
    StableHlo.TRef.unary main_call5.c main_call5.v9 (broadcastInDim S256x320 ![] bcast_S_S256x320),
    StableHlo.TRef.binary main_call5.v8 main_call5.v9 main_call5.v10 (cmpi .ne),
    StableHlo.TRef.binary main_call5.v6 main_call5.v10 main_call5.v11 andi,
    StableHlo.TRef.nullary main_call5.c_0 (constantI S_ 32 1#32),
    StableHlo.TRef.unary main_call5.c_0 main_call5.v12 (broadcastInDim S256x320 ![] bcast_S_S256x320),
    StableHlo.TRef.binary main_call5.v2 main_call5.v12 main_call5.v13 subi,
    StableHlo.TRef.ternary main_call5.v11 main_call5.v13 main_call5.v2 main_call5.call0.v0 select,
    StableHlo.unary main_v31 main_v38 (broadcastInDim S256x320 ![0, 1] bcast_S256x1_S256x320_0_1 : (⟨S256x1, .i32⟩ : BufTy).Contents (Elt F) → (⟨S256x320, .i32⟩ : BufTy).Contents (Elt F)),
    StableHlo.binary main_v38 main_v37 main_v39 (addi : (⟨S256x320, .i32⟩ : BufTy).Contents (Elt F) → (⟨S256x320, .i32⟩ : BufTy).Contents (Elt F) → (⟨S256x320, .i32⟩ : BufTy).Contents (Elt F)) ]

/-- The three index tables brought to rank three, and the image index's sign test and its offset 8. -/
abbrev opsD : List (HloOp τ sig (Elt F)) :=
  [ StableHlo.unary main_arg2 main_v40 (broadcastInDim S256x1x1 ![0] bcast_S256_S256x1x1_0 : (⟨S256, .i32⟩ : BufTy).Contents (Elt F) → (⟨S256x1x1, .i32⟩ : BufTy).Contents (Elt F)),
    StableHlo.unary main_v30 main_v41 (broadcastInDim S256x48x1 ![0, 1] bcast_S256x48_S256x48x1_0_1 : (⟨S256x48, .i32⟩ : BufTy).Contents (Elt F) → (⟨S256x48x1, .i32⟩ : BufTy).Contents (Elt F)),
    StableHlo.unary main_v39 main_v42 (broadcastInDim S256x1x320 ![0, 2] bcast_S256x320_S256x1x320_0_2 : (⟨S256x320, .i32⟩ : BufTy).Contents (Elt F) → (⟨S256x1x320, .i32⟩ : BufTy).Contents (Elt F)),
    StableHlo.nullary main_c_11 (constantI S_ 32 0#32),
    StableHlo.unary main_c_11 main_v43 (broadcastInDim S256x1x1 ![] bcast_S_S256x1x1 : (⟨S_, .i32⟩ : BufTy).Contents (Elt F) → (⟨S256x1x1, .i32⟩ : BufTy).Contents (Elt F)),
    StableHlo.binary main_v40 main_v43 main_v44 (cmpi .slt : (⟨S256x1x1, .i32⟩ : BufTy).Contents (Elt F) → (⟨S256x1x1, .i32⟩ : BufTy).Contents (Elt F) → (⟨S256x1x1, .i1⟩ : BufTy).Contents (Elt F)),
    StableHlo.nullary main_c_12 (constantI S_ 32 8#32),
    StableHlo.unary main_c_12 main_v45 (broadcastInDim S256x1x1 ![] bcast_S_S256x1x1 : (⟨S_, .i32⟩ : BufTy).Contents (Elt F) → (⟨S256x1x1, .i32⟩ : BufTy).Contents (Elt F)) ]

/-- The three normalisations, the broadcasts to the full index grid, the index triples, the gather and the transposition. -/
abbrev opsE : List (HloOp τ sig (Elt F)) :=
  [ StableHlo.binary main_v40 main_v45 main_v46 (addi : (⟨S256x1x1, .i32⟩ : BufTy).Contents (Elt F) → (⟨S256x1x1, .i32⟩ : BufTy).Contents (Elt F) → (⟨S256x1x1, .i32⟩ : BufTy).Contents (Elt F)),
    StableHlo.ternary main_v44 main_v46 main_v40 main_v47 (select : (⟨S256x1x1, .i1⟩ : BufTy).Contents (Elt F) → (⟨S256x1x1, .i32⟩ : BufTy).Contents (Elt F) → (⟨S256x1x1, .i32⟩ : BufTy).Contents (Elt F) → (⟨S256x1x1, .i32⟩ : BufTy).Contents (Elt F)),
    StableHlo.nullary main_c_13 (constantI S_ 32 0#32),
    StableHlo.unary main_c_13 main_v48 (broadcastInDim S256x48x1 ![] bcast_S_S256x48x1 : (⟨S_, .i32⟩ : BufTy).Contents (Elt F) → (⟨S256x48x1, .i32⟩ : BufTy).Contents (Elt F)),
    StableHlo.binary main_v41 main_v48 main_v49 (cmpi .slt : (⟨S256x48x1, .i32⟩ : BufTy).Contents (Elt F) → (⟨S256x48x1, .i32⟩ : BufTy).Contents (Elt F) → (⟨S256x48x1, .i1⟩ : BufTy).Contents (Elt F)),
    StableHlo.nullary main_c_14 (constantI S_ 32 200#32),
    StableHlo.unary main_c_14 main_v50 (broadcastInDim S256x48x1 ![] bcast_S_S256x48x1 : (⟨S_, .i32⟩ : BufTy).Contents (Elt F) → (⟨S256x48x1, .i32⟩ : BufTy).Contents (Elt F)),
    StableHlo.binary main_v41 main_v50 main_v51 (addi : (⟨S256x48x1, .i32⟩ : BufTy).Contents (Elt F) → (⟨S256x48x1, .i32⟩ : BufTy).Contents (Elt F) → (⟨S256x48x1, .i32⟩ : BufTy).Contents (Elt F)),
    StableHlo.ternary main_v49 main_v51 main_v41 main_v52 (select : (⟨S256x48x1, .i1⟩ : BufTy).Contents (Elt F) → (⟨S256x48x1, .i32⟩ : BufTy).Contents (Elt F) → (⟨S256x48x1, .i32⟩ : BufTy).Contents (Elt F) → (⟨S256x48x1, .i32⟩ : BufTy).Contents (Elt F)),
    StableHlo.nullary main_c_15 (constantI S_ 32 0#32),
    StableHlo.unary main_c_15 main_v53 (broadcastInDim S256x1x320 ![] bcast_S_S256x1x320 : (⟨S_, .i32⟩ : BufTy).Contents (Elt F) → (⟨S256x1x320, .i32⟩ : BufTy).Contents (Elt F)),
    StableHlo.binary main_v42 main_v53 main_v54 (cmpi .slt : (⟨S256x1x320, .i32⟩ : BufTy).Contents (Elt F) → (⟨S256x1x320, .i32⟩ : BufTy).Contents (Elt F) → (⟨S256x1x320, .i1⟩ : BufTy).Contents (Elt F)),
    StableHlo.nullary main_c_16 (constantI S_ 32 320#32),
    StableHlo.unary main_c_16 main_v55 (broadcastInDim S256x1x320 ![] bcast_S_S256x1x320 : (⟨S_, .i32⟩ : BufTy).Contents (Elt F) → (⟨S256x1x320, .i32⟩ : BufTy).Contents (Elt F)),
    StableHlo.binary main_v42 main_v55 main_v56 (addi : (⟨S256x1x320, .i32⟩ : BufTy).Contents (Elt F) → (⟨S256x1x320, .i32⟩ : BufTy).Contents (Elt F) → (⟨S256x1x320, .i32⟩ : BufTy).Contents (Elt F)),
    StableHlo.ternary main_v54 main_v56 main_v42 main_v57 (select : (⟨S256x1x320, .i1⟩ : BufTy).Contents (Elt F) → (⟨S256x1x320, .i32⟩ : BufTy).Contents (Elt F) → (⟨S256x1x320, .i32⟩ : BufTy).Contents (Elt F) → (⟨S256x1x320, .i32⟩ : BufTy).Contents (Elt F)),
    StableHlo.unary main_v47 main_v58 (broadcastInDim S256x48x320 ![0, 1, 2] bcast_S256x1x1_S256x48x320_0_1_2 : (⟨S256x1x1, .i32⟩ : BufTy).Contents (Elt F) → (⟨S256x48x320, .i32⟩ : BufTy).Contents (Elt F)),
    StableHlo.unary main_v52 main_v59 (broadcastInDim S256x48x320 ![0, 1, 2] bcast_S256x48x1_S256x48x320_0_1_2 : (⟨S256x48x1, .i32⟩ : BufTy).Contents (Elt F) → (⟨S256x48x320, .i32⟩ : BufTy).Contents (Elt F)),
    StableHlo.unary main_v57 main_v60 (broadcastInDim S256x48x320 ![0, 1, 2] bcast_S256x1x320_S256x48x320_0_1_2 : (⟨S256x1x320, .i32⟩ : BufTy).Contents (Elt F) → (⟨S256x48x320, .i32⟩ : BufTy).Contents (Elt F)),
    StableHlo.unary main_v58 main_v61 (broadcastInDim S256x48x320x1 ![0, 1, 2] bcast_S256x48x320_S256x48x320x1_0_1_2 : (⟨S256x48x320, .i32⟩ : BufTy).Contents (Elt F) → (⟨S256x48x320x1, .i32⟩ : BufTy).Contents (Elt F)),
    StableHlo.unary main_v59 main_v62 (broadcastInDim S256x48x320x1 ![0, 1, 2] bcast_S256x48x320_S256x48x320x1_0_1_2 : (⟨S256x48x320, .i32⟩ : BufTy).Contents (Elt F) → (⟨S256x48x320x1, .i32⟩ : BufTy).Contents (Elt F)),
    StableHlo.unary main_v60 main_v63 (broadcastInDim S256x48x320x1 ![0, 1, 2] bcast_S256x48x320_S256x48x320x1_0_1_2 : (⟨S256x48x320, .i32⟩ : BufTy).Contents (Elt F) → (⟨S256x48x320x1, .i32⟩ : BufTy).Contents (Elt F)),
    StableHlo.nary ![main_v61, main_v62, main_v63] main_v64 (fun u => concatenate S256x48x320x3 3 [⟨S256x48x320x1, u 0⟩, ⟨S256x48x320x1, u 1⟩, ⟨S256x48x320x1, u 2⟩] concatenates_S256x48x320x1_S256x48x320x1_S256x48x320x1_S256x48x320x3_d3),
    StableHlo.binary main_arg0 main_v64 main_v65 ((fun x i => Host.gather gather_S8x64x200x320_S256x48x320x3_S256x48x320x64_3_023_n_n_023_3_16411 x i) : (⟨S8x64x200x320, .f32⟩ : BufTy).Contents (Elt F) → (⟨S256x48x320x3, .i32⟩ : BufTy).Contents (Elt F) → (⟨S256x48x320x64, .f32⟩ : BufTy).Contents (Elt F)),
    StableHlo.unary main_v65 main_v66 ((transpose S256x64x48x320 [0, 3, 1, 2] · transposes_S256x48x320x64_S256x64x48x320_0_3_1_2) : (⟨S256x48x320x64, .f32⟩ : BufTy).Contents (Elt F) → (⟨S256x64x48x320, .f32⟩ : BufTy).Contents (Elt F)) ]

/-- Running one line after another is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The first window's operations, the calls unfolded. -/
abbrev ops0 : List (HloOp τ sig (Elt F)) := opsA ++ (opsB ++ (opsC ++ opsD))

/-- The whole program's operations. -/
abbrev ops : List (HloOp τ sig (Elt F)) := ops0 ++ opsE

set_option maxRecDepth 8192 in
set_option maxHeartbeats 4000000 in
/-- The first window is that straight line: the functions' definitions unfolded at their calls, both sides are one chain of
    steps once sequencing is reassociated. -/
theorem main_part0_eq (c : Dev nD) : main_part0 (F := F) c = seq ops0 := by
  simp only [main_part0, fn_clip.body, fn_floor_divide.body, fn_floor_divide_0.body, fn_where.body, fn_where_1.body,
    seq_append, seq, bind_assoc, pure_bind]
  rfl

theorem main_part1_eq (c : Dev nD) : main_part1 (F := F) c = seq opsE := rfl

theorem main_eq (c : Dev nD) : main (F := F) c = seq ops := by
  rw [seq_append, ← main_part0_eq c, ← main_part1_eq c]
  rfl

/-! ## What each stretch leaves in the buffers the next ones read

Each stretch is read from an arbitrary valuation `W`: the fold over its operations at one buffer is that buffer's
operation applied to the fold at its operands, and at a buffer the stretch does not write it is `W` there. -/

open Cert.Crop in
/-- The source lines from the near line and the height. -/
def rowsOf (y0 h : IVec Cert.Crop.S256 32) : IVec Cert.Crop.S256x48 32 :=
  addi (broadcastInDim Cert.Crop.S256x48 ![0, 1] b_col_48 (broadcastInDim Cert.Crop.S256x1 ![0] b_col y0))
    (floorDivW Cert.Crop.S256x48 b_256x48
      (muli (broadcastInDim Cert.Crop.S256x48 ![0, 1] b_row48_all (broadcastInDim Cert.Crop.S1x48 ![1] b_row48 (iotaInDim Cert.Crop.S48 32 0)))
        (broadcastInDim Cert.Crop.S256x48 ![0, 1] b_col_48 (broadcastInDim Cert.Crop.S256x1 ![0] b_col h))) 48#32)

open Cert.Crop in
/-- The source columns from the near column, the width and the column counter. -/
def colsOf (x0 w : IVec Cert.Crop.S256 32) (io : IVec Cert.Crop.S320 32) : IVec Cert.Crop.S256x320 32 :=
  addi (broadcastInDim Cert.Crop.S256x320 ![0, 1] b_col_320 (broadcastInDim Cert.Crop.S256x1 ![0] b_col x0))
    (floorDivW Cert.Crop.S256x320 b_256x320
      (muli (broadcastInDim Cert.Crop.S256x320 ![0, 1] b_row320_all (broadcastInDim Cert.Crop.S1x320 ![1] b_row320 io))
        (broadcastInDim Cert.Crop.S256x320 ![0, 1] b_col_320 (broadcastInDim Cert.Crop.S256x1 ![0] b_col w))) 320#32)

open Cert.Crop in
/-- The result from the image, the source lines, the source columns and the image indices: each index normalised, the
    three tables spread over the grid and joined into triples, the gather, the transposition. -/
def outOf {α : Type} (x : Cert.Crop.S8x64x200x320.Idx → α) (rows : IVec Cert.Crop.S256x48 32) (cols : IVec Cert.Crop.S256x320 32)
    (bi : IVec Cert.Crop.S256 32) : Cert.Crop.S256x64x48x320.Idx → α :=
  let vr : IVec S256x48x1 32 := broadcastInDim S256x48x1 ![0, 1] r_rows rows
  let vc : IVec S256x1x320 32 := broadcastInDim S256x1x320 ![0, 2] r_cols cols
  transpose Cert.Crop.S256x64x48x320 [0, 3, 1, 2]
    (Host.gather refGather x
      (concatenate S256x48x320x3 3
        [⟨S256x48x320x1, broadcastInDim S256x48x320x1 ![0, 1, 2] r_last (broadcastInDim S256x48x320 ![0, 1, 2] r_img_all (refImgW bi))⟩,
         ⟨S256x48x320x1, broadcastInDim S256x48x320x1 ![0, 1, 2] r_last (broadcastInDim S256x48x320 ![0, 1, 2] r_rows_all
            (select (cmpi .slt vr (broadcastInDim S256x48x1 ![] r_s_rows (constantI Cert.Crop.S_ 32 0#32)))
              (addi vr (broadcastInDim S256x48x1 ![] r_s_rows (constantI Cert.Crop.S_ 32 200#32))) vr))⟩,
         ⟨S256x48x320x1, broadcastInDim S256x48x320x1 ![0, 1, 2] r_last (broadcastInDim S256x48x320 ![0, 1, 2] r_cols_all
            (select (cmpi .slt vc (broadcastInDim S256x1x320 ![] r_s_cols (constantI Cert.Crop.S_ 32 0#32)))
              (addi vc (broadcastInDim S256x1x320 ![] r_s_cols (constantI Cert.Crop.S_ 32 320#32))) vc))⟩]
        r_conc)) r_tr

theorem rowsW_eq (bb : IVec Cert.Crop.S256x4 32) : Cert.Crop.rowsW bb = rowsOf (Cert.Crop.y0W bb) (Cert.Crop.hW bb) := rfl
theorem colsW_eq (bb : IVec Cert.Crop.S256x4 32) :
    Cert.Crop.colsW bb = colsOf (Cert.Crop.x0W bb) (Cert.Crop.wW bb) (iotaInDim Cert.Crop.S320 32 0) := rfl
theorem refOut_eq {α : Type} (x : Cert.Crop.S8x64x200x320.Idx → α) (bb : IVec Cert.Crop.S256x4 32) (bi : IVec Cert.Crop.S256 32) :
    Cert.Crop.refOut x bb bi = outOf x (Cert.Crop.rowsW bb) (Cert.Crop.colsW bb) bi := rfl

theorem A_v2 (W : Valuation τ sig (Elt F)) :
    after opsA W (main_v2 : DevRef τ sig) = Cert.Crop.x0W (W (main_arg1 : DevRef τ sig)) := by
  after_results_simp
  rfl
theorem A_v5 (W : Valuation τ sig (Elt F)) :
    after opsA W (main_v5 : DevRef τ sig) = Cert.Crop.y0W (W (main_arg1 : DevRef τ sig)) := by
  after_results_simp
  rfl
theorem A_v16 (W : Valuation τ sig (Elt F)) :
    after opsA W (main_v16 : DevRef τ sig) = Cert.Crop.hW (W (main_arg1 : DevRef τ sig)) := by
  after_results_simp
  rfl
theorem A_v19 (W : Valuation τ sig (Elt F)) :
    after opsA W (main_v19 : DevRef τ sig) = Cert.Crop.wW (W (main_arg1 : DevRef τ sig)) := by
  after_results_simp
  rfl
theorem A_arg0 (W : Valuation τ sig (Elt F)) :
    after opsA W (main_arg0 : DevRef τ sig) = W (main_arg0 : DevRef τ sig) := by after_results_simp
theorem A_arg1 (W : Valuation τ sig (Elt F)) :
    after opsA W (main_arg1 : DevRef τ sig) = W (main_arg1 : DevRef τ sig) := by after_results_simp
theorem A_arg2 (W : Valuation τ sig (Elt F)) :
    after opsA W (main_arg2 : DevRef τ sig) = W (main_arg2 : DevRef τ sig) := by after_results_simp
theorem B_v30 (W : Valuation τ sig (Elt F)) :
    after opsB W (main_v30 : DevRef τ sig) = rowsOf (W (main_v5 : DevRef τ sig)) (W (main_v16 : DevRef τ sig)) := by
  after_results_simp
  rfl
theorem B_v21 (W : Valuation τ sig (Elt F)) :
    after opsB W (main_v21 : DevRef τ sig) = iotaInDim Cert.Crop.S320 32 0 := by after_results_simp
theorem B_v2 (W : Valuation τ sig (Elt F)) :
    after opsB W (main_v2 : DevRef τ sig) = W (main_v2 : DevRef τ sig) := by after_results_simp
theorem B_v19 (W : Valuation τ sig (Elt F)) :
    after opsB W (main_v19 : DevRef τ sig) = W (main_v19 : DevRef τ sig) := by after_results_simp
theorem B_arg0 (W : Valuation τ sig (Elt F)) :
    after opsB W (main_arg0 : DevRef τ sig) = W (main_arg0 : DevRef τ sig) := by after_results_simp
theorem B_arg1 (W : Valuation τ sig (Elt F)) :
    after opsB W (main_arg1 : DevRef τ sig) = W (main_arg1 : DevRef τ sig) := by after_results_simp
theorem B_arg2 (W : Valuation τ sig (Elt F)) :
    after opsB W (main_arg2 : DevRef τ sig) = W (main_arg2 : DevRef τ sig) := by after_results_simp
theorem C_v39 (W : Valuation τ sig (Elt F)) :
    after opsC W (main_v39 : DevRef τ sig) = colsOf (W (main_v2 : DevRef τ sig)) (W (main_v19 : DevRef τ sig)) (W (main_v21 : DevRef τ sig)) := by
  after_results_simp
  rfl
theorem C_v30 (W : Valuation τ sig (Elt F)) :
    after opsC W (main_v30 : DevRef τ sig) = W (main_v30 : DevRef τ sig) := by after_results_simp
theorem C_arg0 (W : Valuation τ sig (Elt F)) :
    after opsC W (main_arg0 : DevRef τ sig) = W (main_arg0 : DevRef τ sig) := by after_results_simp
theorem C_arg1 (W : Valuation τ sig (Elt F)) :
    after opsC W (main_arg1 : DevRef τ sig) = W (main_arg1 : DevRef τ sig) := by after_results_simp
theorem C_arg2 (W : Valuation τ sig (Elt F)) :
    after opsC W (main_arg2 : DevRef τ sig) = W (main_arg2 : DevRef τ sig) := by after_results_simp
theorem DE_v66 (W : Valuation τ sig (Elt F)) :
    after opsE (after opsD W) (main_v66 : DevRef τ sig) = outOf (W (main_arg0 : DevRef τ sig)) (W (main_v30 : DevRef τ sig)) (W (main_v39 : DevRef τ sig)) (W (main_arg2 : DevRef τ sig)) := by
  after_results_simp
  rfl
theorem DE_arg0 (W : Valuation τ sig (Elt F)) :
    after opsE (after opsD W) (main_arg0 : DevRef τ sig) = W (main_arg0 : DevRef τ sig) := by after_results_simp
theorem DE_arg1 (W : Valuation τ sig (Elt F)) :
    after opsE (after opsD W) (main_arg1 : DevRef τ sig) = W (main_arg1 : DevRef τ sig) := by after_results_simp
theorem DE_arg2 (W : Valuation τ sig (Elt F)) :
    after opsE (after opsD W) (main_arg2 : DevRef τ sig) = W (main_arg2 : DevRef τ sig) := by after_results_simp

/-! ## The whole line -/

/-- The result buffer after the whole line: the stretches' results composed. -/
theorem out_eq (V : Valuation τ sig (Elt F)) :
    after ops V (main_v66 : DevRef τ sig)
      = Cert.Crop.refOut (V (main_arg0 : DevRef τ sig)) (V (main_arg1 : DevRef τ sig)) (V (main_arg2 : DevRef τ sig)) := by
  simp only [ops, ops0, after_app]
  rw [DE_v66, C_v39, C_v30, C_arg0, C_arg2, B_v30, B_v21, B_v2, B_v19, B_arg0, B_arg2, A_v2, A_v5, A_v16, A_v19, A_arg0, A_arg2,
    refOut_eq, rowsW_eq, colsW_eq]

theorem arg0_eq (V : Valuation τ sig (Elt F)) : after ops V (main_arg0 : DevRef τ sig) = V (main_arg0 : DevRef τ sig) := by
  simp only [ops, ops0, after_app]
  rw [DE_arg0, C_arg0, B_arg0, A_arg0]

theorem arg1_eq (V : Valuation τ sig (Elt F)) : after ops V (main_arg1 : DevRef τ sig) = V (main_arg1 : DevRef τ sig) := by
  simp only [ops, ops0, after_app]
  rw [DE_arg1, C_arg1, B_arg1, A_arg1]

theorem arg2_eq (V : Valuation τ sig (Elt F)) : after ops V (main_arg2 : DevRef τ sig) = V (main_arg2 : DevRef τ sig) := by
  simp only [ops, ops0, after_app]
  rw [DE_arg2, C_arg2, B_arg2, A_arg2]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub ..⟩

theorem opsB_sub : (opsB : List (HloOp τ sig (Elt F))).Forall fun op => op.bufs ⊆ tcRefs τ sig :=
  ⟨nullary_bufs_sub .., nullary_bufs_sub .., unary_bufs_sub .., unary_bufs_sub .., unary_bufs_sub .., unary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub ..⟩

theorem opsC_sub : (opsC : List (HloOp τ sig (Elt F))).Forall fun op => op.bufs ⊆ tcRefs τ sig :=
  ⟨unary_bufs_sub .., unary_bufs_sub .., unary_bufs_sub .., unary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub ..⟩

theorem opsD_sub : (opsD : List (HloOp τ sig (Elt F))).Forall fun op => op.bufs ⊆ tcRefs τ sig :=
  ⟨unary_bufs_sub .., unary_bufs_sub .., unary_bufs_sub .., nullary_bufs_sub .., unary_bufs_sub .., binary_bufs_sub .., nullary_bufs_sub .., unary_bufs_sub ..⟩

theorem opsE_sub : (opsE : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., nary_bufs_sub .., binary_bufs_sub .., unary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem opsD_fresh : (opsD : List (HloOp τ sig (Elt F))).Forall fun op => op.fresh = ∅ :=
  ⟨rfl, rfl, rfl, rfl, rfl, rfl, rfl, rfl⟩

theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_append.2 ⟨List.forall_append.2 ⟨opsA_sub, List.forall_append.2 ⟨opsB_sub, List.forall_append.2 ⟨opsC_sub, opsD_sub⟩⟩⟩, opsE_sub⟩

theorem ops_fresh : ∀ op ∈ (ops : List (HloOp τ sig (Elt F))), op.fresh = ∅ :=
  List.forall_iff_forall_mem.1 (List.forall_append.2
    ⟨List.forall_append.2 ⟨opsA_fresh, List.forall_append.2 ⟨opsB_fresh, List.forall_append.2 ⟨opsC_fresh, opsD_fresh⟩⟩⟩, opsE_fresh⟩)

/-- Every weakly fair execution of the reference terminates with the result at `refOut` of the arguments and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v66)
          = Cert.Crop.refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v66).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ (fun _ => ops_fresh))

end Cert.ReferenceIdeal.RefRun

end
-- ==== Proof.RefValue.lean ====
/-
  The reference's term is the specification's function. With every image index in [0, 8), every source line below
  200 and every source column below 320 — all of them non-negative as signed words — the Python normalisation leaves
  each index as it is and the gather's clamp does not move it, so output element [b, ch, k, j] is the image's element
  [box_img[b], ch, rows[b, k], cols[b, j]].
-/
import proofs.«423708_j84104049590479_3_alg».proof.Proof.RefSpec
import proofs.«423708_j84104049590479_3_alg».proof.Proof.RangeFacts
import Idealize.ShloMosaic.Lib.Pipeline.Value

noncomputable section

namespace Cert.Crop

open Idealize.ShloMosaic Idealize.ShloMosaic.ValueIdx

/-- The transpose [0, 3, 1, 2] reads the gather with the channel coordinate moved to the last place. -/
theorem refOut_apply {α : Type} (x : S8x64x200x320.Idx → α) (bb : IVec S256x4 32) (bi : IVec S256 32)
    (b : Fin 256) (ch : Fin 64) (k : Fin 48) (j : Fin 320) :
    refOut x bb bi (ix4 b ch k j) = Host.gather refGather x (refIdxW bb bi) (ix4 b k j ch) := by
  unfold refOut
  exact transpose_apply _ _ _ _ _ (fun a => match a with
    | ⟨0, _⟩ => rfl | ⟨1, _⟩ => rfl | ⟨2, _⟩ => rfl | ⟨3, _⟩ => rfl)

/-- The start-indices index at which result element [b, k, j, ch] reads component c of its index triple. -/
theorem refGather_siIdx (b : Fin 256) (k : Fin 48) (j : Fin 320) (ch : Fin 64) (c : Fin 3) :
    refGather.siIdx (ix4 b k j ch) c = ix4 b k j c := by
  funext a
  refine Fin.ext ?_
  match a with
  | ⟨0, _⟩ => rfl
  | ⟨1, _⟩ => rfl
  | ⟨2, _⟩ => rfl
  | ⟨3, _⟩ => rfl

/-- The clamped start on an operand axis the index triple names: component c of the triple, read signed and clamped
    so that the slice fits. -/
private theorem refGather_start (y : S256x48x320x64.Idx) (idx : IVec S256x48x320x3 32) (a : Fin 4)
    (ha : a ∈ refGather.startIndexMap) (q : S256x48x320x3.Idx)
    (hq : refGather.siIdx y ⟨refGather.startIndexMap.idxOf a, List.idxOf_lt_length_iff.2 ha⟩ = q) :
    refGather.start y idx a = min (idx q).toInt.toNat (S8x64x200x320.size a - refGather.sliceSizes a) := by
  unfold GatherDims.start
  rw [dif_pos ha, hq]

/-- The gather read at [b, k, j, ch]: the image at (component 0, ch, component 1, component 2) of the index triple at
    [b, k, j], each component read signed and clamped into its axis. -/
theorem refGather_apply {α : Type} (x : S8x64x200x320.Idx → α) (idx : IVec S256x48x320x3 32)
    (b : Fin 256) (k : Fin 48) (j : Fin 320) (ch : Fin 64) (i0 : Fin 8) (r : Fin 200) (c : Fin 320)
    (h0 : min (idx (ix4 b k j (0 : Fin 3))).toInt.toNat 7 = i0.val)
    (h1 : min (idx (ix4 b k j (1 : Fin 3))).toInt.toNat 199 = r.val)
    (h2 : min (idx (ix4 b k j (2 : Fin 3))).toInt.toNat 319 = c.val) :
    Host.gather refGather x idx (ix4 b k j ch) = x (ix4 i0 ch r c) := by
  unfold Host.gather
  congr 1
  funext a
  refine Fin.ext ?_
  show refGather.start (ix4 b k j ch) idx a + refGather.batchCoord (ix4 b k j ch) a
    + refGather.offCoord (ix4 b k j ch) a = _
  rw [GatherDims.batchCoord_eq_zero _ _ _ List.not_mem_nil, Nat.add_zero]
  match a with
  | ⟨0, _⟩ =>
    have hc : (⟨0, by decide⟩ : Fin 4) ∈ refGather.collapsedSliceDims := by decide
    have hm : (⟨0, by decide⟩ : Fin 4) ∈ refGather.startIndexMap := by decide
    rw [GatherDims.offCoord_eq_zero _ _ _ (fun h => ((GatherDims.mem_sKept _ _).mp h).1 hc), Nat.add_zero,
      refGather_start _ _ _ hm _ (refGather_siIdx b k j ch 0)]
    exact h0
  | ⟨1, _⟩ =>
    have hs : refGather.start (ix4 b k j ch) idx ⟨1, by decide⟩ = 0 := by
      unfold GatherDims.start
      rw [dif_neg (by decide)]
    rw [hs, Nat.zero_add]
    rfl
  | ⟨2, _⟩ =>
    have hc : (⟨2, by decide⟩ : Fin 4) ∈ refGather.collapsedSliceDims := by decide
    have hm : (⟨2, by decide⟩ : Fin 4) ∈ refGather.startIndexMap := by decide
    rw [GatherDims.offCoord_eq_zero _ _ _ (fun h => ((GatherDims.mem_sKept _ _).mp h).1 hc), Nat.add_zero,
      refGather_start _ _ _ hm _ (refGather_siIdx b k j ch 1)]
    exact h1
  | ⟨3, _⟩ =>
    have hc : (⟨3, by decide⟩ : Fin 4) ∈ refGather.collapsedSliceDims := by decide
    have hm : (⟨3, by decide⟩ : Fin 4) ∈ refGather.startIndexMap := by decide
    rw [GatherDims.offCoord_eq_zero _ _ _ (fun h => ((GatherDims.mem_sKept _ _).mp h).1 hc), Nat.add_zero,
      refGather_start _ _ _ hm _ (refGather_siIdx b k j ch 2)]
    exact h2

/-- Off the concatenation axis the piece's index [b, k, j, 0] has the coordinates of [b, k, j, c]. -/
private theorem piece_coords (b : Fin 256) (k : Fin 48) (j : Fin 320) (c : Fin 3) (hr : S256x48x320x1.rank = S256x48x320x3.rank)
    (a : Fin S256x48x320x1.rank) (ha : a.cast hr ≠ (3 : Fin 4)) :
    ((ix4 b k j (0 : Fin 1) : S256x48x320x1.Idx) a).val = ((ix4 b k j c : S256x48x320x3.Idx) (a.cast hr)).val := by
  match a, ha with
  | ⟨0, _⟩, _ => rfl
  | ⟨1, _⟩, _ => rfl
  | ⟨2, _⟩, _ => rfl
  | ⟨3, _⟩, ha => exact absurd rfl ha

section Concat3
variable {α : Type} (p0 p1 p2 : S256x48x320x1.Idx → α) (b : Fin 256) (k : Fin 48) (j : Fin 320)

/-- Three one-wide pieces laid along the last axis, read at last coordinate 0: the first piece. -/
private theorem concat3_apply0 :
    concatenate S256x48x320x3 3 [⟨S256x48x320x1, p0⟩, ⟨S256x48x320x1, p1⟩, ⟨S256x48x320x1, p2⟩] r_conc
      (ix4 b k j (0 : Fin 3)) = p0 (ix4 b k j (0 : Fin 1)) :=
  concatenate_apply_piece (t := S256x48x320x3) (3 : Fin 4) [⟨S256x48x320x1, p0⟩, ⟨S256x48x320x1, p1⟩, ⟨S256x48x320x1, p2⟩] r_conc _ 0
    (show 0 < 3 by decide) S256x48x320x1 p0 rfl rfl 0 rfl (ix4 b k j (0 : Fin 1)) (piece_coords b k j 0 rfl) rfl

/-- … at last coordinate 1: the second piece. -/
private theorem concat3_apply1 :
    concatenate S256x48x320x3 3 [⟨S256x48x320x1, p0⟩, ⟨S256x48x320x1, p1⟩, ⟨S256x48x320x1, p2⟩] r_conc
      (ix4 b k j (1 : Fin 3)) = p1 (ix4 b k j (0 : Fin 1)) :=
  concatenate_apply_piece (t := S256x48x320x3) (3 : Fin 4) [⟨S256x48x320x1, p0⟩, ⟨S256x48x320x1, p1⟩, ⟨S256x48x320x1, p2⟩] r_conc _ 1
    (show 1 < 3 by decide) S256x48x320x1 p1 rfl rfl 1 rfl (ix4 b k j (0 : Fin 1)) (piece_coords b k j 1 rfl) rfl

/-- … at last coordinate 2: the third piece. -/
private theorem concat3_apply2 :
    concatenate S256x48x320x3 3 [⟨S256x48x320x1, p0⟩, ⟨S256x48x320x1, p1⟩, ⟨S256x48x320x1, p2⟩] r_conc
      (ix4 b k j (2 : Fin 3)) = p2 (ix4 b k j (0 : Fin 1)) :=
  concatenate_apply_piece (t := S256x48x320x3) (3 : Fin 4) [⟨S256x48x320x1, p0⟩, ⟨S256x48x320x1, p1⟩, ⟨S256x48x320x1, p2⟩] r_conc _ 2
    (show 2 < 3 by decide) S256x48x320x1 p2 rfl rfl 2 rfl (ix4 b k j (0 : Fin 1)) (piece_coords b k j 2 rfl) rfl

end Concat3

/-- Component 0 of the index triple at [b, k, j] is the normalised image index of box b. -/
theorem refIdxW_apply0 (bb : IVec S256x4 32) (bi : IVec S256 32) (b : Fin 256) (k : Fin 48) (j : Fin 320) :
    refIdxW bb bi (ix4 b k j (0 : Fin 3)) = refImgW bi (ix3 b (0 : Fin 1) (0 : Fin 1)) := by
  unfold refIdxW
  refine Eq.trans (concat3_apply0 _ _ _ b k j) ?_
  refine (broadcastInDim_apply _ r_last _ _ (ix3 b k j) (fun a => match a with
    | ⟨0, _⟩ => rfl | ⟨1, _⟩ => rfl | ⟨2, _⟩ => rfl)).trans ?_
  exact broadcastInDim_apply _ r_img_all _ _ (ix3 b (0 : Fin 1) (0 : Fin 1)) (fun a => match a with
    | ⟨0, _⟩ => rfl | ⟨1, _⟩ => rfl | ⟨2, _⟩ => rfl)

/-- Component 1 of the index triple at [b, k, j] is the normalised source line of (b, k). -/
theorem refIdxW_apply1 (bb : IVec S256x4 32) (bi : IVec S256 32) (b : Fin 256) (k : Fin 48) (j : Fin 320) :
    refIdxW bb bi (ix4 b k j (1 : Fin 3)) = refRowsW bb (ix3 b k (0 : Fin 1)) := by
  unfold refIdxW
  refine Eq.trans (concat3_apply1 _ _ _ b k j) ?_
  refine (broadcastInDim_apply _ r_last _ _ (ix3 b k j) (fun a => match a with
    | ⟨0, _⟩ => rfl | ⟨1, _⟩ => rfl | ⟨2, _⟩ => rfl)).trans ?_
  exact broadcastInDim_apply _ r_rows_all _ _ (ix3 b k (0 : Fin 1)) (fun a => match a with
    | ⟨0, _⟩ => rfl | ⟨1, _⟩ => rfl | ⟨2, _⟩ => rfl)

/-- Component 2 of the index triple at [b, k, j] is the normalised source column of (b, j). -/
theorem refIdxW_apply2 (bb : IVec S256x4 32) (bi : IVec S256 32) (b : Fin 256) (k : Fin 48) (j : Fin 320) :
    refIdxW bb bi (ix4 b k j (2 : Fin 3)) = refColsW bb (ix3 b (0 : Fin 1) j) := by
  unfold refIdxW
  refine Eq.trans (concat3_apply2 _ _ _ b k j) ?_
  refine (broadcastInDim_apply _ r_last _ _ (ix3 b k j) (fun a => match a with
    | ⟨0, _⟩ => rfl | ⟨1, _⟩ => rfl | ⟨2, _⟩ => rfl)).trans ?_
  exact broadcastInDim_apply _ r_cols_all _ _ (ix3 b (0 : Fin 1) j) (fun a => match a with
    | ⟨0, _⟩ => rfl | ⟨1, _⟩ => rfl | ⟨2, _⟩ => rfl)

/-- A non-negative image index is left as it is by the normalisation. -/
theorem refImgW_apply (bi : IVec S256 32) (b : Fin 256) (h : (bi (ix1 b)).toNat < 2 ^ 31) :
    refImgW bi (ix3 b (0 : Fin 1) (0 : Fin 1)) = bi (ix1 b) := by
  have hv : broadcastInDim S256x1x1 ![0] r_img bi (ix3 b (0 : Fin 1) (0 : Fin 1)) = bi (ix1 b) :=
    broadcastInDim_apply _ r_img _ _ (ix1 b) (fun a => match a with | ⟨0, _⟩ => rfl)
  show Scalar.select (IntOp.cmpi .slt (broadcastInDim S256x1x1 ![0] r_img bi (ix3 b (0 : Fin 1) (0 : Fin 1))) 0#32) _
    (broadcastInDim S256x1x1 ![0] r_img bi (ix3 b (0 : Fin 1) (0 : Fin 1))) = _
  rw [hv, slt_zero_of_small _ h, select_zero]

/-- A source line is not negative, so the normalisation leaves it as it is. -/
theorem refRowsW_apply (bb : IVec S256x4 32) (b : Fin 256) (k : Fin 48) :
    refRowsW bb (ix3 b k (0 : Fin 1)) = rowsW bb (ix2 b k) := by
  have hv : broadcastInDim S256x48x1 ![0, 1] r_rows (rowsW bb) (ix3 b k (0 : Fin 1)) = rowsW bb (ix2 b k) :=
    broadcastInDim_apply _ r_rows _ _ (ix2 b k) (fun a => match a with | ⟨0, _⟩ => rfl | ⟨1, _⟩ => rfl)
  have h : (rowsW bb (ix2 b k)).toNat < 2 ^ 31 := lt_trans (rowsW_lt bb b k) (by decide)
  show Scalar.select (IntOp.cmpi .slt (broadcastInDim S256x48x1 ![0, 1] r_rows (rowsW bb) (ix3 b k (0 : Fin 1))) 0#32) _
    (broadcastInDim S256x48x1 ![0, 1] r_rows (rowsW bb) (ix3 b k (0 : Fin 1))) = _
  rw [hv, slt_zero_of_small _ h, select_zero]

/-- A source column is not negative, so the normalisation leaves it as it is. -/
theorem refColsW_apply (bb : IVec S256x4 32) (b : Fin 256) (j : Fin 320) :
    refColsW bb (ix3 b (0 : Fin 1) j) = colsW bb (ix2 b j) := by
  have hv : broadcastInDim S256x1x320 ![0, 2] r_cols (colsW bb) (ix3 b (0 : Fin 1) j) = colsW bb (ix2 b j) :=
    broadcastInDim_apply _ r_cols _ _ (ix2 b j) (fun a => match a with | ⟨0, _⟩ => rfl | ⟨1, _⟩ => rfl)
  have h : (colsW bb (ix2 b j)).toNat < 2 ^ 31 := lt_trans (colsW_lt bb b j) (by decide)
  show Scalar.select (IntOp.cmpi .slt (broadcastInDim S256x1x320 ![0, 2] r_cols (colsW bb) (ix3 b (0 : Fin 1) j)) 0#32) _
    (broadcastInDim S256x1x320 ![0, 2] r_cols (colsW bb) (ix3 b (0 : Fin 1) j)) = _
  rw [hv, slt_zero_of_small _ h, select_zero]

/-- A word below 2^31 and at most m, read signed and clamped into [0, m], is the word read unsigned. -/
private theorem clamp_small (w : BitVec 32) (m : Nat) (h31 : w.toNat < 2 ^ 31) (hm : w.toNat ≤ m) :
    min w.toInt.toNat m = w.toNat := by
  rw [toInt_of_small w h31, Int.toNat_natCast]
  exact Nat.min_eq_left hm

/-- Under the image indices' range, the reference's result is `G`. -/
theorem refOut_eq_G (x : S8x64x200x320.Idx → EReal) (bb : IVec S256x4 32) (bi : IVec S256 32)
    (hr : ∀ b : Fin 256, IntOp.cmpi .sge (bi (ix1 b)) 0#32 = 1#1 ∧ IntOp.cmpi .slt (bi (ix1 b)) 8#32 = 1#1) :
    refOut x bb bi = G x bb bi := by
  funext i
  obtain ⟨b, ch, k, j, rfl⟩ : ∃ b ch k j, i = ix4 b ch k j := ⟨_, _, _, _, eq_ix4 i⟩
  have hb8 : (bi (ix1 b)).toNat < 8 := toNat_lt_of_range _ (hr b).1 (hr b).2
  have hrow : (rowsW bb (ix2 b k)).toNat < 200 := rowsW_lt bb b k
  have hcol : (colsW bb (ix2 b j)).toNat < 320 := colsW_lt bb b j
  rw [refOut_apply]
  show _ = x (ix4 (imgOf bi b) ch (rowOf bb b k) (colOf bb b j))
  refine refGather_apply x _ b k j ch (imgOf bi b) (rowOf bb b k) (colOf bb b j) ?_ ?_ ?_
  · rw [refIdxW_apply0, refImgW_apply bi b (by omega), clamp_small _ 7 (by omega) (by omega)]
    exact (Nat.mod_eq_of_lt hb8).symm
  · rw [refIdxW_apply1, refRowsW_apply, clamp_small _ 199 (by omega) (by omega)]
    exact (Nat.mod_eq_of_lt hrow).symm
  · rw [refIdxW_apply2, refColsW_apply, clamp_small _ 319 (by omega) (by omega)]
    exact (Nat.mod_eq_of_lt hcol).symm

end Cert.Crop

end
-- ==== Proof.PreFacts.lean ====
/-
  What the precondition says, entry by entry. It is the conjunction of two all-reductions: every entry of the image
  array has absolute value below +∞, and every image index is at least 0 and below 8 as a signed word. At the extended
  reals the first says every entry is a real number.
-/
import proofs.«423708_j84104049590479_3_alg».proof.Pre_finite_inputs
import proofs.«423708_j84104049590479_3_alg».proof.Proof.Gen.Pre_finite_inputs
import proofs.«423708_j84104049590479_3_alg».proof.Proof.Spec
import Idealize.ShloMosaic.PureOps.Ideal
import Idealize.ShloMosaic.Lib.ReduceAll

noncomputable section

namespace Cert.Crop

open Idealize.ShloMosaic Idealize.ShloMosaic.ValueIdx

/-- The precondition, all ones, gives finiteness of the image array and the range of the image indices. -/
theorem pre_decode (x : FVec Ideal S8x64x200x320 .f32) (bb : IVec S256x4 32) (bi : IVec S256 32)
    (h : Cert.Pre_finite_inputs.fn (F := Ideal) x bb bi = fun _ => 1#1) :
    (∀ y, ∃ r : ℝ, x y = (r : EReal))
    ∧ (∀ b : Fin 256, IntOp.cmpi .sge (bi (ix1 b)) 0#32 = 1#1 ∧ IntOp.cmpi .slt (bi (ix1 b)) 8#32 = 1#1) := by
  -- the scalar shape has one index
  haveI : Subsingleton Cert.Pre_finite_inputs.S_.Idx := ⟨fun a b => funext fun d => d.elim0⟩
  -- the scalar result at that index is the conjunction of the two all-reductions
  have h0 := congrFun h ValueIdx.ix0
  dsimp only [Cert.Pre_finite_inputs.fn] at h0
  obtain ⟨hx, hi⟩ := IntOp.andi_eq_one.1 h0
  -- the word 0x7F800000 is +∞
  have htop : Ideal.ofBits .f32 0x7F800000#32 = (⊤ : EReal) := by simp [Ideal.ofBits, Ideal.ieee]
  refine ⟨fun y => ?_, fun b => ?_⟩
  · -- max v (−v) < +∞ fails at both infinities, so v is a real
    have e := Host.reduce_andi_all _ _ _ _ _ hx y
    have e' : Ideal.cmp .olt (max (x y : EReal) (-(x y : EReal))) (Ideal.ofBits .f32 0x7F800000#32) = 1#1 := e
    rw [htop] at e'
    generalize (x y : EReal) = v at e' ⊢
    induction v using EReal.rec with
    | bot => exact absurd e' (by simp [Ideal.cmp])
    | coe r => exact ⟨r, rfl⟩
    | top => exact absurd e' (by simp [Ideal.cmp])
  · -- entry b of the mask is the conjunction of the two compares against the broadcast constants
    have e := Host.reduce_andi_all _ _ _ _ _ hi (ix1 b)
    exact IntOp.andi_eq_one.1 e

end Cert.Crop

end
-- ==== Proof.lean ====
/-
  Crop-and-resize: 256 boxes are cut out of 8 images of 64 channels, 200 lines and 320 columns, each crop resampled to
  48 × 320 by nearest neighbour with the floor. The kernel sorts the boxes by image, gathers each box's 48 source lines
  by one-line copies and its 320 source columns by a product with a 0/1 selection matrix, and writes the block of the
  box it worked on; the reference gathers element by element. Both compute, for output element [b, ch, k, j], the
  image's element [box_img[b], ch, rows[b, k], cols[b, j]] with rows[b, k] = y0 + ⌊k·h / 48⌋ and
  cols[b, j] = x0 + ⌊j·w / 320⌋ of the clipped box — the function `Cert.Crop.G`. The kernel clips the image index into
  [0, 7] where the reference counts a negative one from the end, so the two agree where the image index is an index of
  the image axis, 0 ≤ box_img < 8, which the precondition states; the selection product is exact where the image holds
  real numbers, which the precondition states too.

  The frames: the kernel's launch reads three tables computed by the host; its side conditions (each table-indexed block
  inside its array, each source line inside the staged image block) hold for every input because the kernel's host code
  clips (`ok_of`, `hyps_of`); the reference is a straight line of host operations (`RefRun.run`).
-/
import proofs.«423708_j84104049590479_3_alg».proof.Defs
import proofs.«423708_j84104049590479_3_alg».proof.Proof.Gen.Kernel
import proofs.«423708_j84104049590479_3_alg».proof.Proof.Gen.KernelIdeal
import proofs.«423708_j84104049590479_3_alg».proof.Proof.Gen.ReferenceIdeal
import proofs.«423708_j84104049590479_3_alg».proof.Proof.Gen.Pre_finite_inputs
import proofs.«423708_j84104049590479_3_alg».proof.Proof.KernelFrame
import proofs.«423708_j84104049590479_3_alg».proof.Proof.KernelIdealFrame
import proofs.«423708_j84104049590479_3_alg».proof.Proof.KernelOkHyps
import proofs.«423708_j84104049590479_3_alg».proof.Proof.KernelIdealOkHyps
import proofs.«423708_j84104049590479_3_alg».proof.Proof.KernelIdealValue
import proofs.«423708_j84104049590479_3_alg».proof.Proof.RefRun
import proofs.«423708_j84104049590479_3_alg».proof.Proof.RefValue
import proofs.«423708_j84104049590479_3_alg».proof.Proof.PreFacts
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ =>
  Cert.Kernel.GenP.frame m ρ (Cert.Kernel.OkHyps.ok_of m) (Cert.Kernel.OkHyps.hyps_of m _)

/-- The idealized kernel runs and leaves its arguments as they were. -/
theorem frame_ki : Cert.frame_KernelIdeal := fun m ρ _ =>
  Cert.KernelIdeal.GenP.frame m ρ (Cert.KernelIdeal.OkHyps.ok_of m) (Cert.KernelIdeal.OkHyps.hyps_of m _)

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Over the extended reals both programs end at `G` of the arguments: the kernel by its blocks, the reference by its
    gather read at an index, under the precondition's two facts. -/
theorem algebraic : Cert.algebraic_KernelIdeal_ReferenceIdeal := by
  intro m ρ m' ρ' hpre hagree
  have hd := fun c : Dev Cert.KernelIdeal.nD => Cert.Crop.pre_decode _ _ _ (hpre c)
  refine ⟨fun c => Cert.Crop.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ (fun c => (hd c).1) (fun c => (hd c).2), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.Crop.refOut_eq_G _ _ _ (hd c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
